-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S67x128 : Shape := ⟨2, ![67, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S500000 : Shape := ⟨1, ![500000]⟩
abbrev S256 : Shape := ⟨1, ![256]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S67x128 : S_.BroadcastsInDim S67x128 (![] : Fin 0 → Fin S67x128.rank)
  reducesTo_S67x128_S_d0_1 : S67x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S500000 : S_.BroadcastsInDim S500000 (![] : Fin 0 → Fin S500000.rank)
  reducesTo_S500000_S_d0 : S500000.ReducesTo [0] S_
  bcast_S_S256 : S_.BroadcastsInDim S256 (![] : Fin 0 → Fin S256.rank)
  reducesTo_S256_S_d0 : S256.ReducesTo [0] S_

variable [Facts]

def fn_part5 {F : FTy → Type} [FloatOps F] (main_arg18 : IVec S500000 32) (main_arg19 : IVec S256 32) (main_v80 : IVec S_ 1) (main_v82 : IVec S500000 1) (main_v84 : IVec S500000 1) : IVec S_ 1 :=
  let main_v85 : IVec S500000 1 := andi main_v82 main_v84
  let main_c_33 : IVec S_ 1 := constantI S_ 1 1#1
  let main_v86 : IVec S_ 1 := (fun x v => Host.reduce IntOp.andi x v reducesTo_S500000_S_d0 h_S_) main_v85 main_c_33
  let main_v87 : IVec S_ 1 := andi main_v80 main_v86
  let main_c_34 : IVec S_ 32 := constantI S_ 32 0#32
  let main_v88 : IVec S500000 32 := broadcastInDim S500000 ![] bcast_S_S500000 main_c_34
  let main_v89 : IVec S500000 1 := cmpi .sge main_arg18 main_v88
  let main_c_35 : IVec S_ 32 := constantI S_ 32 256#32
  let main_v90 : IVec S500000 32 := broadcastInDim S500000 ![] bcast_S_S500000 main_c_35
  let main_v91 : IVec S500000 1 := cmpi .slt main_arg18 main_v90
  let main_v92 : IVec S500000 1 := andi main_v89 main_v91
  let main_c_36 : IVec S_ 1 := constantI S_ 1 1#1
  let main_v93 : IVec S_ 1 := (fun x v => Host.reduce IntOp.andi x v reducesTo_S500000_S_d0 h_S_) main_v92 main_c_36
  let main_v94 : IVec S_ 1 := andi main_v87 main_v93
  let main_c_37 : IVec S_ 32 := constantI S_ 32 0#32
  let main_v95 : IVec S256 32 := broadcastInDim S256 ![] bcast_S_S256 main_c_37
  let main_v96 : IVec S256 1 := cmpi .sge main_arg19 main_v95
  let main_c_38 : IVec S_ 32 := constantI S_ 32 67#32
  let main_v97 : IVec S256 32 := broadcastInDim S256 ![] bcast_S_S256 main_c_38
  let main_v98 : IVec S256 1 := cmpi .slt main_arg19 main_v97
  let main_v99 : IVec S256 1 := andi main_v96 main_v98
  let main_c_39 : IVec S_ 1 := constantI S_ 1 1#1
  let main_v100 : IVec S_ 1 := (fun x v => Host.reduce IntOp.andi x v reducesTo_S256_S_d0 h_S_) main_v99 main_c_39
  let main_v101 : IVec S_ 1 := andi main_v94 main_v100
  main_v101

def fn_part4 {F : FTy → Type} [FloatOps F] (main_arg14 : FVec F S200000x128 .f32) (main_arg15 : IVec S500000 32) (main_arg16 : IVec S500000 32) (main_arg18 : IVec S500000 32) (main_arg19 : IVec S256 32) (main_v63 : IVec S_ 1) (main_v67 : IVec S_ 1) : IVec S_ 1 :=
  let main_v68 : IVec S_ 1 := andi main_v63 main_v67
  let main_v69 : FVec F S200000x128 .f32 := Host.absf main_arg14
  let main_cst_26 : FVec F S_ .f32 := constant S_ .f32 0x7F800000#32
  let main_v70 : FVec F S200000x128 .f32 := broadcastInDim S200000x128 ![] bcast_S_S200000x128 main_cst_26
  let main_v71 : IVec S200000x128 1 := cmpf .olt main_v69 main_v70
  let main_c_27 : IVec S_ 1 := constantI S_ 1 1#1
  let main_v72 : IVec S_ 1 := (fun x v => Host.reduce IntOp.andi x v reducesTo_S200000x128_S_d0_1 h_S_) main_v71 main_c_27
  let main_v73 : IVec S_ 1 := andi main_v68 main_v72
  let main_c_28 : IVec S_ 32 := constantI S_ 32 0#32
  let main_v74 : IVec S500000 32 := broadcastInDim S500000 ![] bcast_S_S500000 main_c_28
  let main_v75 : IVec S500000 1 := cmpi .sge main_arg15 main_v74
  let main_c_29 : IVec S_ 32 := constantI S_ 32 200000#32
  let main_v76 : IVec S500000 32 := broadcastInDim S500000 ![] bcast_S_S500000 main_c_29
  let main_v77 : IVec S500000 1 := cmpi .slt main_arg15 main_v76
  let main_v78 : IVec S500000 1 := andi main_v75 main_v77
  let main_c_30 : IVec S_ 1 := constantI S_ 1 1#1
  let main_v79 : IVec S_ 1 := (fun x v => Host.reduce IntOp.andi x v reducesTo_S500000_S_d0 h_S_) main_v78 main_c_30
  let main_v80 : IVec S_ 1 := andi main_v73 main_v79
  let main_c_31 : IVec S_ 32 := constantI S_ 32 0#32
  let main_v81 : IVec S500000 32 := broadcastInDim S500000 ![] bcast_S_S500000 main_c_31
  let main_v82 : IVec S500000 1 := cmpi .sge main_arg16 main_v81
  let main_c_32 : IVec S_ 32 := constantI S_ 32 67#32
  let main_v83 : IVec S500000 32 := broadcastInDim S500000 ![] bcast_S_S500000 main_c_32
  let main_v84 : IVec S500000 1 := cmpi .slt main_arg16 main_v83
  fn_part5 (F := F) main_arg18 main_arg19 main_v80 main_v82 main_v84

def fn_part3 {F : FTy → Type} [FloatOps F] (main_arg11 : FVec F S384 .f32) (main_arg12 : FVec F S384 .f32) (main_arg13 : FVec F S1x128 .f32) (main_arg14 : FVec F S200000x128 .f32) (main_arg15 : IVec S500000 32) (main_arg16 : IVec S500000 32) (main_arg18 : IVec S500000 32) (main_arg19 : IVec S256 32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S384 .f32 := Host.absf main_arg11
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S1x128 .f32 := Host.absf main_arg13
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg14 main_arg15 main_arg16 main_arg18 main_arg19 main_v63 main_v67

def fn_part2 {F : FTy → Type} [FloatOps F] (main_arg7 : FVec F S1 .f32) (main_arg8 : FVec F S128x128 .f32) (main_arg9 : FVec F S384x128 .f32) (main_arg10 : FVec F S384x128 .f32) (main_arg11 : FVec F S384 .f32) (main_arg12 : FVec F S384 .f32) (main_arg13 : FVec F S1x128 .f32) (main_arg14 : FVec F S200000x128 .f32) (main_arg15 : IVec S500000 32) (main_arg16 : IVec S500000 32) (main_arg18 : IVec S500000 32) (main_arg19 : IVec S256 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S384x128 .f32 := Host.absf main_arg9
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384x128 .f32 := Host.absf main_arg10
  let main_cst_18 : FVec F S_ .f32 := constant S_ .f32 0x7F800000#32
  let main_v50 : FVec F S384x128 .f32 := broadcastInDim S384x128 ![] bcast_S_S384x128 main_cst_18
  fn_part3 (F := F) main_arg11 main_arg12 main_arg13 main_arg14 main_arg15 main_arg16 main_arg18 main_arg19 main_v48 main_v49 main_v50

def fn_part1 {F : FTy → Type} [FloatOps F] (main_arg4 : FVec F S64x128 .f32) (main_arg5 : FVec F S64 .f32) (main_arg6 : FVec F S1x64 .f32) (main_arg7 : FVec F S1 .f32) (main_arg8 : FVec F S128x128 .f32) (main_arg9 : FVec F S384x128 .f32) (main_arg10 : FVec F S384x128 .f32) (main_arg11 : FVec F S384 .f32) (main_arg12 : FVec F S384 .f32) (main_arg13 : FVec F S1x128 .f32) (main_arg14 : FVec F S200000x128 .f32) (main_arg15 : IVec S500000 32) (main_arg16 : IVec S500000 32) (main_arg18 : IVec S500000 32) (main_arg19 : IVec S256 32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg18 main_arg19 main_v33

def fn {F : FTy → Type} [FloatOps F] (main_arg0 : FVec F S200000x128 .f32) (main_arg1 : FVec F S67x128 .f32) (main_arg2 : FVec F S64x128 .f32) (main_arg3 : FVec F S64x128 .f32) (main_arg4 : FVec F S64x128 .f32) (main_arg5 : FVec F S64 .f32) (main_arg6 : FVec F S1x64 .f32) (main_arg7 : FVec F S1 .f32) (main_arg8 : FVec F S128x128 .f32) (main_arg9 : FVec F S384x128 .f32) (main_arg10 : FVec F S384x128 .f32) (main_arg11 : FVec F S384 .f32) (main_arg12 : FVec F S384 .f32) (main_arg13 : FVec F S1x128 .f32) (main_arg14 : FVec F S200000x128 .f32) (main_arg15 : IVec S500000 32) (main_arg16 : IVec S500000 32) (main_arg17 : IVec S500000 32) (main_arg18 : IVec S500000 32) (main_arg19 : IVec S256 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S67x128 .f32 := Host.absf main_arg1
  let main_cst_0 : FVec F S_ .f32 := constant S_ .f32 0x7F800000#32
  let main_v5 : FVec F S67x128 .f32 := broadcastInDim S67x128 ![] bcast_S_S67x128 main_cst_0
  let main_v6 : IVec S67x128 1 := cmpf .olt main_v4 main_v5
  let main_c_1 : IVec S_ 1 := constantI S_ 1 1#1
  let main_v7 : IVec S_ 1 := (fun x v => Host.reduce IntOp.andi x v reducesTo_S67x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_arg14 main_arg15 main_arg16 main_arg18 main_arg19 main_v13 main_v16
-- ==== Kernel.lean ====
abbrev S200000x128 : Shape := ⟨2, ![200000, 128]⟩
abbrev S67x128 : Shape := ⟨2, ![67, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S500000 : Shape := ⟨1, ![500000]⟩
abbrev S256 : Shape := ⟨1, ![256]⟩
abbrev S_ : Shape := ⟨0, ![]⟩
abbrev S500000x1 : Shape := ⟨2, ![500000, 1]⟩
abbrev S1x1 : Shape := ⟨2, ![1, 1]⟩
abbrev S500000x128 : Shape := ⟨2, ![500000, 128]⟩
abbrev S256x1 : Shape := ⟨2, ![256, 1]⟩
abbrev S256x128 : Shape := ⟨2, ![256, 128]⟩
abbrev S128x64 : Shape := ⟨2, ![128, 64]⟩
abbrev S256x64 : Shape := ⟨2, ![256, 64]⟩
abbrev S500000x64 : Shape := ⟨2, ![500000, 64]⟩
abbrev S4000x128 : Shape := ⟨2, ![4000, 128]⟩
abbrev S4000x64 : Shape := ⟨2, ![4000, 64]⟩
abbrev S4000 : Shape := ⟨1, ![4000]⟩
abbrev S4000x1 : Shape := ⟨2, ![4000, 1]⟩
abbrev S128x384 : Shape := ⟨2, ![128, 384]⟩
abbrev S1x384 : Shape := ⟨2, ![1, 384]⟩
abbrev S200704x128 : Shape := ⟨2, ![200704, 128]⟩
abbrev S1568x128 : Shape := ⟨2, ![1568, 128]⟩
abbrev S2048x128 : Shape := ⟨2, ![2048, 128]⟩
abbrev S16x128 : Shape := ⟨2, ![16, 128]⟩
abbrev S2048x384 : Shape := ⟨2, ![2048, 384]⟩
abbrev S16x128x128 : Shape := ⟨3, ![16, 128, 128]⟩
abbrev S1x1x128 : Shape := ⟨3, ![1, 1, 128]⟩
abbrev S200704 : Shape := ⟨1, ![200704]⟩
abbrev S200000 : Shape := ⟨1, ![200000]⟩

abbrev nBuf : Space → Nat
  | .hbm => 139
  | .vmem => 25
  | .smem => 0
  | _ => 0

abbrev hbmTy0_0 (i : Nat) : BufTy := match i % 128 with
  | 0 => ⟨S200000x128, .f32⟩
  | 1 => ⟨S67x128, .f32⟩
  | 2 => ⟨S64x128, .f32⟩
  | 3 => ⟨S64x128, .f32⟩
  | 4 => ⟨S64x128, .f32⟩
  | 5 => ⟨S64, .f32⟩
  | 6 => ⟨S1x64, .f32⟩
  | 7 => ⟨S1, .f32⟩
  | 8 => ⟨S128x128, .f32⟩
  | 9 => ⟨S384x128, .f32⟩
  | 10 => ⟨S384x128, .f32⟩
  | 11 => ⟨S384, .f32⟩
  | 12 => ⟨S384, .f32⟩
  | 13 => ⟨S1x128, .f32⟩
  | 14 => ⟨S200000x128, .f32⟩
  | 15 => ⟨S500000, .i32⟩
  | 16 => ⟨S500000, .i32⟩
  | 17 => ⟨S500000, .i32⟩
  | 18 => ⟨S500000, .i32⟩
  | 19 => ⟨S256, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S1, .i32⟩
  | 29 => ⟨S_, .i32⟩
  | 30 => ⟨S500000x1, .i32⟩
  | 31 => ⟨S500000x1, .i1⟩
  | 32 => ⟨S1x1, .i32⟩
  | 33 => ⟨S500000x1, .i32⟩
  | 34 => ⟨S500000x1, .i1⟩
  | 35 => ⟨S500000x1, .i1⟩
  | 36 => ⟨S_, .i1⟩
  | 37 => ⟨S500000, .i1⟩
  | 38 => ⟨S500000x128, .f32⟩
  | 39 => ⟨S500000x128, .i1⟩
  | 40 => ⟨S_, .f32⟩
  | 41 => ⟨S500000x128, .f32⟩
  | 42 => ⟨S500000x128, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S1, .i32⟩
  | 52 => ⟨S_, .i32⟩
  | 53 => ⟨S500000x1, .i32⟩
  | 54 => ⟨S500000x1, .i1⟩
  | 55 => ⟨S1x1, .i32⟩
  | 56 => ⟨S500000x1, .i32⟩
  | 57 => ⟨S500000x1, .i1⟩
  | 58 => ⟨S500000x1, .i1⟩
  | 59 => ⟨S_, .i1⟩
  | 60 => ⟨S500000, .i1⟩
  | 61 => ⟨S500000x128, .f32⟩
  | 62 => ⟨S500000x128, .i1⟩
  | 63 => ⟨S_, .f32⟩
  | 64 => ⟨S500000x128, .f32⟩
  | 65 => ⟨S500000x128, .f32⟩
  | 66 => ⟨S500000x128, .bf16⟩
  | 67 => ⟨S_, .i32⟩
  | 68 => ⟨S256, .i32⟩
  | 69 => ⟨S256, .i1⟩
  | 70 => ⟨S_, .i32⟩
  | 71 => ⟨S256, .i32⟩
  | 72 => ⟨S256, .i32⟩
  | 73 => ⟨S256, .i32⟩
  | 74 => ⟨S256x1, .i32⟩
  | 75 => ⟨S1, .i32⟩
  | 76 => ⟨S_, .i32⟩
  | 77 => ⟨S256x1, .i32⟩
  | 78 => ⟨S256x1, .i1⟩
  | 79 => ⟨S1x1, .i32⟩
  | 80 => ⟨S256x1, .i32⟩
  | 81 => ⟨S256x1, .i1⟩
  | 82 => ⟨S256x1, .i1⟩
  | 83 => ⟨S_, .i1⟩
  | 84 => ⟨S256, .i1⟩
  | 85 => ⟨S256x128, .f32⟩
  | 86 => ⟨S256x128, .i1⟩
  | 87 => ⟨S_, .f32⟩
  | 88 => ⟨S256x128, .f32⟩
  | 89 => ⟨S256x128, .f32⟩
  | 90 => ⟨S128x64, .f32⟩
  | 91 => ⟨S256x64, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S1, .i32⟩
  | 101 => ⟨S_, .i32⟩
  | 102 => ⟨S500000x1, .i32⟩
  | 103 => ⟨S500000x1, .i1⟩
  | 104 => ⟨S1x1, .i32⟩
  | 105 => ⟨S500000x1, .i32⟩
  | 106 => ⟨S500000x1, .i1⟩
  | 107 => ⟨S500000x1, .i1⟩
  | 108 => ⟨S_, .i1⟩
  | 109 => ⟨S500000, .i1⟩
  | 110 => ⟨S500000x64, .f32⟩
  | 111 => ⟨S500000x64, .i1⟩
  | 112 => ⟨S_, .f32⟩
  | 113 => ⟨S500000x64, .f32⟩
  | 114 => ⟨S500000x64, .f32⟩
  | 115 => ⟨S500000x64, .bf16⟩
  | 116 => ⟨S128x64, .f32⟩
  | 117 => ⟨S128x64, .f32⟩
  | 118 => ⟨S1x64, .f32⟩
  | 119 => ⟨S1x1, .f32⟩
  | 120 => ⟨S500000x128, .f32⟩
  | 121 => ⟨S_, .f32⟩
  | 122 => ⟨S200000x128, .f32⟩
  | 123 => ⟨S500000x1, .i32⟩
  | 124 => ⟨S200000x128, .f32⟩
  | 125 => ⟨S128x128, .f32⟩
  | 126 => ⟨S128x384, .f32⟩
  | 127 => ⟨S128x384, .f32⟩
  | _ => ⟨S200000x128, .f32⟩

abbrev hbmTy0_1 (i : Nat) : BufTy := match i % 128 with
  | 0 => ⟨S1x384, .f32⟩
  | 1 => ⟨S1x384, .f32⟩
  | 2 => ⟨S_, .i32⟩
  | 3 => ⟨S_, .f32⟩
  | 4 => ⟨S200704x128, .f32⟩
  | 5 => ⟨S_, .i32⟩
  | 6 => ⟨S_, .f32⟩
  | 7 => ⟨S200704x128, .f32⟩
  | 8 => ⟨S1568x128, .f32⟩
  | 9 => ⟨S200704, .f32⟩
  | 10 => ⟨S200000, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x64, .bf16⟩
  | .local _ .vmem, ⟨5, _⟩ => ⟨S4000x64, .bf16⟩
  | .local _ .vmem, ⟨6, _⟩ => ⟨S128x64, .f32⟩
  | .local _ .vmem, ⟨7, _⟩ => ⟨S128x64, .f32⟩
  | .local _ .vmem, ⟨8, _⟩ => ⟨S1x64, .f32⟩
  | .local _ .vmem, ⟨9, _⟩ => ⟨S1x64, .f32⟩
  | .local _ .vmem, ⟨10, _⟩ => ⟨S1x1, .f32⟩
  | .local _ .vmem, ⟨11, _⟩ => ⟨S4000x128, .f32⟩
  | .local _ .vmem, ⟨12, _⟩ => ⟨S4000x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S128x128, .f32⟩
  | .local _ .vmem, ⟨18, _⟩ => ⟨S128x384, .f32⟩
  | .local _ .vmem, ⟨19, _⟩ => ⟨S128x384, .f32⟩
  | .local _ .vmem, ⟨20, _⟩ => ⟨S1x384, .f32⟩
  | .local _ .vmem, ⟨21, _⟩ => ⟨S1x384, .f32⟩
  | .local _ .vmem, ⟨22, _⟩ => ⟨S1x128, .f32⟩
  | .local _ .vmem, ⟨23, _⟩ => ⟨S16x128, .f32⟩
  | .local _ .vmem, ⟨24, _⟩ => ⟨S16x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v1 : Ref sig .tc := ⟨.hbm, 65, rfl⟩
abbrev main_v2 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v3 : Ref sig .tc := ⟨.hbm, 89, rfl⟩
abbrev main_v4 : Ref sig .tc := ⟨.hbm, 90, rfl⟩
abbrev main_v5 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v6 : Ref sig .tc := ⟨.hbm, 114, rfl⟩
abbrev main_v7 : Ref sig .tc := ⟨.hbm, 115, rfl⟩
abbrev main_v8 : Ref sig .tc := ⟨.hbm, 116, rfl⟩
abbrev main_v9 : Ref sig .tc := ⟨.hbm, 117, rfl⟩
abbrev main_v10 : Ref sig .tc := ⟨.hbm, 118, rfl⟩
abbrev main_v11 : Ref sig .tc := ⟨.hbm, 119, rfl⟩
abbrev main_v12 : Ref sig .tc := ⟨.hbm, 120, rfl⟩
abbrev main_cst : Ref sig .tc := ⟨.hbm, 121, rfl⟩
abbrev main_v13 : Ref sig .tc := ⟨.hbm, 122, rfl⟩
abbrev main_v14 : Ref sig .tc := ⟨.hbm, 123, rfl⟩
abbrev main_v15 : Ref sig .tc := ⟨.hbm, 124, rfl⟩
abbrev main_v16 : Ref sig .tc := ⟨.hbm, 125, rfl⟩
abbrev main_v17 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩
abbrev main_c : Ref sig .tc := ⟨.hbm, 130, rfl⟩
abbrev main_call4_v0 : Ref sig .tc := ⟨.hbm, 131, rfl⟩
abbrev main_v21 : Ref sig .tc := ⟨.hbm, 132, rfl⟩
abbrev main_c_0 : Ref sig .tc := ⟨.hbm, 133, rfl⟩
abbrev main_call5_v0 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S16x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bitsLt_bf16_f32 : FTy.bits .bf16 < FTy.bits .f32
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x128_0 : S256.BroadcastsInDim S256x128 (![0] : Fin 1 → Fin S256x128.rank)
  bcast_S_S256x128 : S_.BroadcastsInDim S256x128 (![] : Fin 0 → Fin S256x128.rank)
  transposes_S64x128_S128x64_1_0 : S64x128.Transposes [1, 0] S128x64
  bcast_S500000_S500000x64_0 : S500000.BroadcastsInDim S500000x64 (![0] : Fin 1 → Fin S500000x64.rank)
  bcast_S_S500000x64 : S_.BroadcastsInDim S500000x64 (![] : Fin 0 → Fin S500000x64.rank)
  shapeCasts_S64_S1x64 : S64.ShapeCasts S1x64
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x128 : S4000x1.Broadcasts S4000x128
  bcast_S_S200000x128 : S_.BroadcastsInDim S200000x128 (![] : Fin 0 → Fin S200000x128.rank)
  transposes_S128x128_S128x128_1_0 : S128x128.Transposes [1, 0] S128x128
  transposes_S384x128_S128x384_1_0 : S384x128.Transposes [1, 0] S128x384
  shapeCasts_S384_S1x384 : S384.ShapeCasts S1x384
  pads_S200000x128_S200704x128_07040_000 : S200000x128.Pads (![0, 0] : Fin 2 → Nat) ![704, 0] ![0, 0] S200704x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  shapeCasts_S2048x128_S16x128x128 : S2048x128.ShapeCasts S16x128x128
  inb_S1x128_S1x128_0_0 : ∀ a, (![0, 0] : Fin 2 → Nat) a + S1x128.size a ≤ S1x128.size a
  h_S1x128 : 0 < S1x128.numel
  shapeCasts_S1x128_S1x1x128 : S1x128.ShapeCasts S1x1x128
  broadcasts_S1x1x128_S16x128x128 : S1x1x128.Broadcasts S16x128x128
  reduces_S16x128x128_S16x128 : S16x128x128.Reduces [2] S16x128
  inb_S16x128_S16x128_0_0 : ∀ a, (![0, 0] : Fin 2 → Nat) a + S16x128.size a ≤ S16x128.size a
  h_S16x128 : 0 < S16x128.numel
  shapeCasts_S1568x128_S200704 : S1568x128.ShapeCasts S200704
  slices_S200704_S200000_0 : S200704.Slices ![0] S200000
  gather_S200000x128_S500000x1_S500000x128_1_0_n_n_0_1_1128_wf : GatherDims.WF S200000x128 S500000x1 S500000x128 [1] [0] [] [0] [] 1 ![1, 128]
  gather_S67x128_S500000x1_S500000x128_1_0_n_n_0_1_1128_wf : GatherDims.WF S67x128 S500000x1 S500000x128 [1] [0] [] [0] [] 1 ![1, 128]
  gather_S67x128_S256x1_S256x128_1_0_n_n_0_1_1128_wf : GatherDims.WF S67x128 S256x1 S256x128 [1] [0] [] [0] [] 1 ![1, 128]
  dot_S256x128_S128x64_S256x64_1_0_0_1_n_n_wf : DotDims.WF S256x128 S128x64 S256x64 [1] [0] [0] [1] [] []
  gather_S256x64_S500000x1_S500000x64_1_0_n_n_0_1_164_wf : GatherDims.WF S256x64 S500000x1 S500000x64 [1] [0] [] [0] [] 1 ![1, 64]
  dot_S4000x128_S128x64_S4000x64_1_0_0_1_n_n_wf : DotDims.WF S4000x128 S128x64 S4000x64 [1] [0] [0] [1] [] []
  scatter_S200000x128_S500000x1_S500000x128_1_0_0_1_wf : ScatterDims.WF S200000x128 S500000x1 S500000x128 [1] [0] [0] 1
  dot_S2048x128_S128x128_S2048x128_1_0_0_1_n_n_wf : DotDims.WF S2048x128 S128x128 S2048x128 [1] [0] [0] [1] [] []
  dot_S2048x128_S128x384_S2048x384_1_0_0_1_n_n_wf : DotDims.WF S2048x128 S128x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S500000x64.size a
  hwx0_2 : ∀ i : grid0.Coords, EltTy.bits .bf16 = 32 ∨ (Rect.block (s := S500000x64) S4000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S500000x128.size a
  hwx0_8 : ∀ i : grid0.Coords, EltTy.bits .f32 = 32 ∨ (Rect.block (s := S500000x128) S4000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S200704x128.size a
  hwx1_0 : ∀ i : grid1.Coords, EltTy.bits .f32 = 32 ∨ (Rect.block (s := S200704x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S200704x128.size a
  hwx1_1 : ∀ i : grid1.Coords, EltTy.bits .f32 = 32 ∨ (Rect.block (s := S200704x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S16x128.size a ≤ S1568x128.size a
  hwx1_8 : ∀ i : grid1.Coords, EltTy.bits .f32 = 32 ∨ (Rect.block (s := S1568x128) S16x128.size (cc1_transform_8 i) (hinb1_8 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S67x128_S500000x1_S500000x128_1_0_n_n_0_1_1128 : GatherDims S67x128 S500000x1 S500000x128 where
  offsetDims := [1]
  collapsedSliceDims := [0]
  operandBatchingDims := []
  startIndicesBatchingDims := []
  startIndexMap := [0]
  indexVectorDim := 1
  sliceSizes := ![1, 128]
  wf := gather_S67x128_S500000x1_S500000x128_1_0_n_n_0_1_1128_wf
def gather_S67x128_S256x1_S256x128_1_0_n_n_0_1_1128 : GatherDims S67x128 S256x1 S256x128 where
  offsetDims := [1]
  collapsedSliceDims := [0]
  operandBatchingDims := []
  startIndicesBatchingDims := []
  startIndexMap := [0]
  indexVectorDim := 1
  sliceSizes := ![1, 128]
  wf := gather_S67x128_S256x1_S256x128_1_0_n_n_0_1_1128_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def gather_S256x64_S500000x1_S500000x64_1_0_n_n_0_1_164 : GatherDims S256x64 S500000x1 S500000x64 where
  offsetDims := [1]
  collapsedSliceDims := [0]
  operandBatchingDims := []
  startIndicesBatchingDims := []
  startIndexMap := [0]
  indexVectorDim := 1
  sliceSizes := ![1, 64]
  wf := gather_S256x64_S500000x1_S500000x64_1_0_n_n_0_1_164_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v21) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S16x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x128 : Shape := ⟨2, ![200000, 128]⟩
abbrev S67x128 : Shape := ⟨2, ![67, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S500000 : Shape := ⟨1, ![500000]⟩
abbrev S256 : Shape := ⟨1, ![256]⟩
abbrev S_ : Shape := ⟨0, ![]⟩
abbrev S500000x1 : Shape := ⟨2, ![500000, 1]⟩
abbrev S500000x128 : Shape := ⟨2, ![500000, 128]⟩
abbrev S256x1 : Shape := ⟨2, ![256, 1]⟩
abbrev S256x128 : Shape := ⟨2, ![256, 128]⟩
abbrev S128x64 : Shape := ⟨2, ![128, 64]⟩
abbrev S500000x64 : Shape := ⟨2, ![500000, 64]⟩
abbrev S64x1 : Shape := ⟨2, ![64, 1]⟩
abbrev S1x1 : Shape := ⟨2, ![1, 1]⟩
abbrev S128x384 : Shape := ⟨2, ![128, 384]⟩
abbrev S200000x384 : Shape := ⟨2, ![200000, 384]⟩
abbrev S1x384 : Shape := ⟨2, ![1, 384]⟩
abbrev S128x1 : Shape := ⟨2, ![128, 1]⟩
abbrev S200000x1 : Shape := ⟨2, ![200000, 1]⟩
abbrev S200000 : Shape := ⟨1, ![200000]⟩

abbrev nBuf : Space → Nat
  | .hbm => 141
  | .vmem => 0
  | .smem => 0
  | _ => 0

abbrev hbmTy0_0 (i : Nat) : BufTy := match i % 128 with
  | 0 => ⟨S200000x128, .f32⟩
  | 1 => ⟨S67x128, .f32⟩
  | 2 => ⟨S64x128, .f32⟩
  | 3 => ⟨S64x128, .f32⟩
  | 4 => ⟨S64x128, .f32⟩
  | 5 => ⟨S64, .f32⟩
  | 6 => ⟨S1x64, .f32⟩
  | 7 => ⟨S1, .f32⟩
  | 8 => ⟨S128x128, .f32⟩
  | 9 => ⟨S384x128, .f32⟩
  | 10 => ⟨S384x128, .f32⟩
  | 11 => ⟨S384, .f32⟩
  | 12 => ⟨S384, .f32⟩
  | 13 => ⟨S1x128, .f32⟩
  | 14 => ⟨S200000x128, .f32⟩
  | 15 => ⟨S500000, .i32⟩
  | 16 => ⟨S500000, .i32⟩
  | 17 => ⟨S500000, .i32⟩
  | 18 => ⟨S500000, .i32⟩
  | 19 => ⟨S256, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S_, .i32⟩
  | 39 => ⟨S256, .i32⟩
  | 40 => ⟨S256, .i1⟩
  | 41 => ⟨S_, .i32⟩
  | 42 => ⟨S256, .i32⟩
  | 43 => ⟨S256, .i32⟩
  | 44 => ⟨S256, .i32⟩
  | 45 => ⟨S256x1, .i32⟩
  | 46 => ⟨S256x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S128x64, .f32⟩
  | 57 => ⟨S500000x64, .f32⟩
  | 58 => ⟨S128x64, .f32⟩
  | 59 => ⟨S500000x64, .f32⟩
  | 60 => ⟨S500000x64, .f32⟩
  | 61 => ⟨S128x64, .f32⟩
  | 62 => ⟨S500000x64, .f32⟩
  | 63 => ⟨S500000x64, .f32⟩
  | 64 => ⟨S1x64, .f32⟩
  | 65 => ⟨S500000x64, .f32⟩
  | 66 => ⟨S500000x64, .f32⟩
  | 67 => ⟨S_, .f32⟩
  | 68 => ⟨S500000x64, .f32⟩
  | 69 => ⟨S500000x64, .f32⟩
  | 70 => ⟨S64x1, .f32⟩
  | 71 => ⟨S500000x1, .f32⟩
  | 72 => ⟨S1x1, .f32⟩
  | 73 => ⟨S500000x1, .f32⟩
  | 74 => ⟨S500000x1, .f32⟩
  | 75 => ⟨S500000x1, .f32⟩
  | 76 => ⟨S500000x1, .f32⟩
  | 77 => ⟨S_, .f32⟩
  | 78 => ⟨S500000x1, .f32⟩
  | 79 => ⟨S500000x1, .f32⟩
  | 80 => ⟨S_, .f32⟩
  | 81 => ⟨S500000x1, .f32⟩
  | 82 => ⟨S500000x1, .f32⟩
  | 83 => ⟨S500000x128, .f32⟩
  | 84 => ⟨S500000x128, .f32⟩
  | 85 => ⟨S500000x128, .f32⟩
  | 86 => ⟨S_, .f32⟩
  | 87 => ⟨S200000x128, .f32⟩
  | 88 => ⟨S500000x1, .i32⟩
  | 89 => ⟨S200000x128, .f32⟩
  | 90 => ⟨S128x128, .f32⟩
  | 91 => ⟨S200000x128, .f32⟩
  | 92 => ⟨S_, .f32⟩
  | 93 => ⟨S200000x128, .f32⟩
  | 94 => ⟨S200000x128, .f32⟩
  | 95 => ⟨S128x384, .f32⟩
  | 96 => ⟨S200000x384, .f32⟩
  | 97 => ⟨S1x384, .f32⟩
  | 98 => ⟨S200000x384, .f32⟩
  | 99 => ⟨S200000x384, .f32⟩
  | 100 => ⟨S128x384, .f32⟩
  | 101 => ⟨S200000x384, .f32⟩
  | 102 => ⟨S1x384, .f32⟩
  | 103 => ⟨S200000x384, .f32⟩
  | 104 => ⟨S200000x384, .f32⟩
  | 105 => ⟨S200000x128, .f32⟩
  | 106 => ⟨S200000x128, .f32⟩
  | 107 => ⟨S200000x128, .f32⟩
  | 108 => ⟨S200000x128, .f32⟩
  | 109 => ⟨S200000x128, .f32⟩
  | 110 => ⟨S200000x128, .f32⟩
  | 111 => ⟨S200000x128, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S200000x128, .f32⟩
  | 121 => ⟨S200000x128, .f32⟩
  | 122 => ⟨S200000x128, .f32⟩
  | 123 => ⟨S_, .f32⟩
  | 124 => ⟨S200000x128, .f32⟩
  | 125 => ⟨S200000x128, .f32⟩
  | 126 => ⟨S_, .f32⟩
  | 127 => ⟨S200000x128, .f32⟩
  | _ => ⟨S200000x128, .f32⟩

abbrev hbmTy0_1 (i : Nat) : BufTy := match i % 128 with
  | 0 => ⟨S200000x128, .f32⟩
  | 1 => ⟨S200000x128, .f32⟩
  | 2 => ⟨S200000x128, .f32⟩
  | 3 => ⟨S200000x128, .f32⟩
  | 4 => ⟨S_, .f32⟩
  | 5 => ⟨S200000x128, .f32⟩
  | 6 => ⟨S200000x128, .f32⟩
  | 7 => ⟨S200000x128, .f32⟩
  | 8 => ⟨S200000x128, .f32⟩
  | 9 => ⟨S200000x128, .f32⟩
  | 10 => ⟨S128x1, .f32⟩
  | 11 => ⟨S200000x1, .f32⟩
  | 12 => ⟨S200000, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call0_cst : Ref sig .tc := ⟨.hbm, 67, rfl⟩
abbrev main_call0_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call1_cst : Ref sig .tc := ⟨.hbm, 92, rfl⟩
abbrev main_call1_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_9 : Ref sig .tc := ⟨.hbm, 114, rfl⟩
abbrev main_v79 : Ref sig .tc := ⟨.hbm, 115, rfl⟩
abbrev main_v80 : Ref sig .tc := ⟨.hbm, 116, rfl⟩
abbrev main_cst_10 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_11 : Ref sig .tc := ⟨.hbm, 123, rfl⟩
abbrev main_v86 : Ref sig .tc := ⟨.hbm, 124, rfl⟩
abbrev main_v87 : Ref sig .tc := ⟨.hbm, 125, rfl⟩
abbrev main_cst_12 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_13 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S256 : S_.BroadcastsInDim S256 (![] : Fin 0 → Fin S256.rank)
  bcast_S256_S256x1_0 : S256.BroadcastsInDim S256x1 (![0] : Fin 1 → Fin S256x1.rank)
  transposes_S64x128_S128x64_1_0 : S64x128.Transposes [1, 0] S128x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  transposes_S1x64_S64x1_1_0 : S1x64.Transposes [1, 0] S64x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S200000x128 : S_.BroadcastsInDim S200000x128 (![] : Fin 0 → Fin S200000x128.rank)
  transposes_S128x128_S128x128_1_0 : S128x128.Transposes [1, 0] S128x128
  transposes_S384x128_S128x384_1_0 : S384x128.Transposes [1, 0] S128x384
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  transposes_S1x128_S128x1_1_0 : S1x128.Transposes [1, 0] S128x1
  shapeCasts_S200000x1_S200000 : S200000x1.ShapeCasts S200000
  gather_S200000x128_S500000x1_S500000x128_1_0_n_n_0_1_1128_wf : GatherDims.WF S200000x128 S500000x1 S500000x128 [1] [0] [] [0] [] 1 ![1, 128]
  gather_S67x128_S500000x1_S500000x128_1_0_n_n_0_1_1128_wf : GatherDims.WF S67x128 S500000x1 S500000x128 [1] [0] [] [0] [] 1 ![1, 128]
  gather_S67x128_S256x1_S256x128_1_0_n_n_0_1_1128_wf : GatherDims.WF S67x128 S256x1 S256x128 [1] [0] [] [0] [] 1 ![1, 128]
  gather_S256x128_S500000x1_S500000x128_1_0_n_n_0_1_1128_wf : GatherDims.WF S256x128 S500000x1 S500000x128 [1] [0] [] [0] [] 1 ![1, 128]
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []
  scatter_S200000x128_S500000x1_S500000x128_1_0_0_1_wf : ScatterDims.WF S200000x128 S500000x1 S500000x128 [1] [0] [0] 1
  dot_S200000x128_S128x128_S200000x128_1_0_0_1_n_n_wf : DotDims.WF S200000x128 S128x128 S200000x128 [1] [0] [0] [1] [] []
  dot_S200000x128_S128x384_S200000x384_1_0_0_1_n_n_wf : DotDims.WF S200000x128 S128x384 S200000x384 [1] [0] [0] [1] [] []
  dot_S200000x128_S128x1_S200000x1_1_0_0_1_n_n_wf : DotDims.WF S200000x128 S128x1 S200000x1 [1] [0] [0] [1] [] []

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S67x128_S500000x1_S500000x128_1_0_n_n_0_1_1128 : GatherDims S67x128 S500000x1 S500000x128 where
  offsetDims := [1]
  collapsedSliceDims := [0]
  operandBatchingDims := []
  startIndicesBatchingDims := []
  startIndexMap := [0]
  indexVectorDim := 1
  sliceSizes := ![1, 128]
  wf := gather_S67x128_S500000x1_S500000x128_1_0_n_n_0_1_1128_wf
def gather_S67x128_S256x1_S256x128_1_0_n_n_0_1_1128 : GatherDims S67x128 S256x1 S256x128 where
  offsetDims := [1]
  collapsedSliceDims := [0]
  operandBatchingDims := []
  startIndicesBatchingDims := []
  startIndexMap := [0]
  indexVectorDim := 1
  sliceSizes := ![1, 128]
  wf := gather_S67x128_S256x1_S256x128_1_0_n_n_0_1_1128_wf
def gather_S256x128_S500000x1_S500000x128_1_0_n_n_0_1_1128 : GatherDims S256x128 S500000x1 S500000x128 where
  offsetDims := [1]
  collapsedSliceDims := [0]
  operandBatchingDims := []
  startIndicesBatchingDims := []
  startIndexMap := [0]
  indexVectorDim := 1
  sliceSizes := ![1, 128]
  wf := gather_S256x128_S500000x1_S500000x128_1_0_n_n_0_1_1128_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.RowSpec.lean ====
/-
  The function both programs compute, one row at a time, over the extended reals.

  An edge `e` with head row `hs`, relation row `hr` (both of length 128) and projected query term `qa` (length 64)
  has attention features  att a = max (Σ_k hs k · WsT[k,a] + Σ_k hr k · WrT[k,a] + qa a + bqr a) 0,
  gate  alpha = logistic (Σ_a att a · wal a + bal)  and message  msg d = alpha · (hs d + hr d).
  A node with aggregated message row `ag` and previous state row `h0` (length 128) has
  hnew j = max (Σ_k ag k · WhT[k,j]) 0,  gi c = Σ_j hnew j · WihT[j,c] + bih c,  gh c = Σ_j h0 j · WhhT[j,c] + bhh c,
  r = logistic (gi d + gh d),  z = logistic (gi (128+d) + gh (128+d)),  n = tanh (gi (256+d) + r · gh (256+d)),
  hout d = (1 - z) · n + z · h0 d  and score  Σ_d hout d · wf d.
  The weight arrays are the transposed ones both programs form on the host; the constants 0 and 1 are kept as the
  words both programs print.
-/
import Idealize.ShloMosaic.PureOps.Ideal
import Idealize.ShloMosaic.Lib.ValueIdx

noncomputable section

open scoped BigOperators

namespace Cert.RowSpec

open Idealize.ShloMosaic Idealize.ShloMosaic.ValueIdx

/-- The word of the float zero, read at the ideal instance. -/
abbrev zeroW : EReal := Ideal.ofBits .f32 0x00000000#32
/-- The word of the float one, read at the ideal instance. -/
abbrev oneW : EReal := Ideal.ofBits .f32 0x3F800000#32

/-! ## One edge -/

/-- Attention feature `a` of an edge: the rectified sum of the three projections and the bias. -/
def att (hs hr : Fin 128 → EReal) (qa : Fin 64 → EReal)
    (WsT WrT : (⟨2, ![128, 64]⟩ : Shape).Idx → EReal) (bqr : Fin 64 → EReal) (a : Fin 64) : EReal :=
  max ((∑ k : Fin 128, hs k * WsT (ix2 k a)) + (∑ k : Fin 128, hr k * WrT (ix2 k a)) + qa a + bqr a) zeroW

/-- The edge's gate: the logistic of the features' weighted sum plus the bias. -/
def alpha (hs hr : Fin 128 → EReal) (qa : Fin 64 → EReal)
    (WsT WrT : (⟨2, ![128, 64]⟩ : Shape).Idx → EReal) (bqr wal : Fin 64 → EReal) (bal : EReal) : EReal :=
  Ideal.logistic ((∑ a : Fin 64, att hs hr qa WsT WrT bqr a * wal a) + bal)

/-- Component `d` of the edge's message: the gate times the sum of head row and relation row. -/
def msg (hs hr : Fin 128 → EReal) (qa : Fin 64 → EReal)
    (WsT WrT : (⟨2, ![128, 64]⟩ : Shape).Idx → EReal) (bqr wal : Fin 64 → EReal) (bal : EReal) (d : Fin 128) : EReal :=
  alpha hs hr qa WsT WrT bqr wal bal * (hs d + hr d)

/-! ## One node -/

/-- The node's new hidden row: the rectified projection of its aggregated messages. -/
def hnew (ag : Fin 128 → EReal) (WhT : (⟨2, ![128, 128]⟩ : Shape).Idx → EReal) (j : Fin 128) : EReal :=
  max (∑ k : Fin 128, ag k * WhT (ix2 k j)) zeroW

/-- Input-side gate pre-activation `c` (three blocks of 128). -/
def gi (ag : Fin 128 → EReal) (WhT : (⟨2, ![128, 128]⟩ : Shape).Idx → EReal)
    (WihT : (⟨2, ![128, 384]⟩ : Shape).Idx → EReal) (bih : Fin 384 → EReal) (c : Fin 384) : EReal :=
  (∑ j : Fin 128, hnew ag WhT j * WihT (ix2 j c)) + bih c

/-- State-side gate pre-activation `c` (three blocks of 128). -/
def gh (h0 : Fin 128 → EReal) (WhhT : (⟨2, ![128, 384]⟩ : Shape).Idx → EReal) (bhh : Fin 384 → EReal) (c : Fin 384) : EReal :=
  (∑ j : Fin 128, h0 j * WhhT (ix2 j c)) + bhh c

/-- Column `d` of block `b` (0, 1 or 2) of the 384 gate columns. -/
abbrev col (b : Nat) (hb : b < 3) (d : Fin 128) : Fin 384 := ⟨128 * b + d.val, by have := d.isLt; omega⟩

/-- Component `d` of the node's updated state. -/
def hout (ag h0 : Fin 128 → EReal) (WhT : (⟨2, ![128, 128]⟩ : Shape).Idx → EReal)
    (WihT WhhT : (⟨2, ![128, 384]⟩ : Shape).Idx → EReal) (bih bhh : Fin 384 → EReal) (d : Fin 128) : EReal :=
  let r := Ideal.logistic (gi ag WhT WihT bih (col 0 (by omega) d) + gh h0 WhhT bhh (col 0 (by omega) d))
  let z := Ideal.logistic (gi ag WhT WihT bih (col 1 (by omega) d) + gh h0 WhhT bhh (col 1 (by omega) d))
  let n := Ideal.tanh (gi ag WhT WihT bih (col 2 (by omega) d) + r * gh h0 WhhT bhh (col 2 (by omega) d))
  (oneW - z) * n + z * h0 d

/-- The node's score: its updated state against the final weight row. -/
def score (ag h0 : Fin 128 → EReal) (WhT : (⟨2, ![128, 128]⟩ : Shape).Idx → EReal)
    (WihT WhhT : (⟨2, ![128, 384]⟩ : Shape).Idx → EReal) (bih bhh : Fin 384 → EReal) (wf : Fin 128 → EReal) : EReal :=
  ∑ d : Fin 128, hout ag h0 WhT WihT WhhT bih bhh d * wf d

end Cert.RowSpec

end
-- ==== Proof.KerEdgeBody.lean ====
/-
  What the edge kernel's body leaves in its output block, read at row p and column d: the message of the edge whose
  head row, relation row and projected query row are row p of the three input blocks.

  The body is one pure term over the whole blocks. Read at (p, d) it is a product: the left factor is a [4000,1] column
  spread over the 128 columns, so it only depends on p; the right factor is the sum of the head and relation blocks at
  (p, d). The column at p is the logistic of a lane sum over the 64 features plus the one-entry bias, and feature a of
  row p is the rectified sum of two contractions over the 128 columns of row p, the query term and the bias row.
  Changes of float format are the identity on ideal values, and a contraction into the zero block is the bare sum.
-/
import proofs.«404059_j34840774705590_3_alg».proof.Proof.Gen.KernelIdeal.Frame
import proofs.«404059_j34840774705590_3_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Idealize.ShloMosaic Idealize.ShloMosaic.ValueIdx Cert.KernelIdeal Cert.KernelIdeal.Gen

/-- The offsets of a whole-block rectangle of rank two are the zero offsets. -/
theorem zero_off : (![0, 0] : Fin 2 → Nat) = fun _ => 0 :=
  funext fun a => match a with | ⟨0, _⟩ => rfl | ⟨1, _⟩ => rfl

/-! ## The contraction [4000,128] × [128,64] at an entry

The left operand is read at (row of the output, contraction coordinate), the right operand at (contraction coordinate,
column of the output): one fact per operand axis, then the sum re-indexed by the contraction's one coordinate. -/

/-- Axis 0 of the left operand's index is the output's row. -/
theorem lhs_ax0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- Axis 1 of the left operand's index is the contraction coordinate. -/
theorem lhs_ax1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- Axis 0 of the right operand's index is the contraction coordinate. -/
theorem rhs_ax0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- Axis 1 of the right operand's index is the output's column. -/
theorem rhs_ax1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- A [4000,128] block times a [128,64] block, accumulated into the zero block, is at (p, a) the sum over k of the
    left block at (p, k) times the right block at (k, a), whatever the two operands' float formats. -/
theorem matmul_at {φ₁ φ₂ : FTy} (l : FVec Ideal S4000x128 φ₁) (r : FVec Ideal S128x64 φ₂) (p : Fin 4000) (a : Fin 64) :
    matmul dot_S4000x128_S128x64_S4000x64_1_0_0_1_n_n none l r (constant (F := Ideal) S4000x64 .f32 0x00000000#32) (ix2 p a)
      = ∑ k : Fin 128, l (ix2 p k) * r (ix2 k a) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p a) ((contrEquiv1 dot_S4000x128_S128x64_S4000x64_1_0_0_1_n_n 128 rfl rfl).symm k) = ix2 p k := funext fun b => Fin.ext (by
    match b with
    | ⟨0, _⟩ => exact lhs_ax0 _ _
    | ⟨1, _⟩ => exact (lhs_ax1 _ _).trans hk)
  have er : dot_S4000x128_S128x64_S4000x64_1_0_0_1_n_n.rhsIdx (ix2 p a) ((contrEquiv1 dot_S4000x128_S128x64_S4000x64_1_0_0_1_n_n 128 rfl rfl).symm k) = ix2 k a := funext fun b => Fin.ext (by
    match b with
    | ⟨0, _⟩ => exact (rhs_ax0 _ _).trans hk
    | ⟨1, _⟩ => exact rhs_ax1 _ _)
  rw [el, er]

/-! ## The lane sum and the three changes of layout around it -/

/-- The sum along axis 1 of a [4000,64] block is, at row p, the sum over the 64 lanes a of the block at (p, a): the
    reduced index with the lane put back is (p, a), coordinate by coordinate. The accumulator's word is the zero word,
    which is what a sum starts from. -/
theorem lanesum_at (src : FVec Ideal S4000x64 .f32) (hφ : FKind.Formats .f32)
    (hacc : (0x00000000#32 : BitVec 32) = 0x00000000#32) (p : Fin 4000) :
    multiReduction (F := Ideal) .add [1] S4000 src 0x00000000#32 reduces_S4000x64_S4000 hφ hacc (ix1 p)
      = ∑ a : Fin 64, src (ix2 p a) := by
  refine (Ideal.multiReduction_add_single src 0x00000000#32 reduces_S4000x64_S4000 hφ hacc (ix1 p)).trans ?_
  refine Finset.sum_congr rfl fun a _ => congrArg src (funext fun b => Fin.ext ?_)
  match b with
  | ⟨0, _⟩ => rfl
  | ⟨1, _⟩ => rfl

/-- A [4000] vector recast as a [4000,1] column reads, at (p, u), the vector at p: both sit at row-major position p. -/
theorem col_of_vec {α : Type} (x : S4000.Idx → α) (p : Fin 4000) (u : Fin 1) :
    shapeCast S4000x1 x shapeCasts_S4000_S4000x1 (ix2 p u) = x (ix1 p) :=
  shapeCast_apply x shapeCasts_S4000_S4000x1 _ _ (by
    have hu : u.val = 0 := by omega
    rw [Shape.rowMajor_val_two, Shape.rowMajor_val_one]
    show p.val = p.val * 1 + u.val
    rw [hu, Nat.mul_one, Nat.add_zero])

/-- A [1,1] block spread over a [4000,1] column reads its one entry everywhere. -/
theorem col_of_one {α : Type} (x : S1x1.Idx → α) (p : Fin 4000) (u : Fin 1) :
    broadcastTo S4000x1 x broadcasts_S1x1_S4000x1 (ix2 p u) = x (ix2 (0 : Fin 1) (0 : Fin 1)) := by
  refine broadcastTo_apply x broadcasts_S1x1_S4000x1 (ix2 p u) (ix2 (0 : Fin 1) (0 : Fin 1)) fun ax => ?_
  match ax with
  | ⟨0, _⟩ => rfl
  | ⟨1, _⟩ => rfl

/-- A [4000,1] column spread over 128 columns reads, at (p, d), the column at p. -/
theorem wide_of_col {α : Type} (x : S4000x1.Idx → α) (p : Fin 4000) (d : Fin 128) :
    broadcastTo S4000x128 x broadcasts_S4000x1_S4000x128 (ix2 p d) = x (ix2 p (0 : Fin 1)) := by
  refine broadcastTo_apply x broadcasts_S4000x1_S4000x128 (ix2 p d) (ix2 p (0 : Fin 1)) fun ax => ?_
  match ax with
  | ⟨0, _⟩ => rfl
  | ⟨1, _⟩ => rfl

/-- The logistic of a block is entrywise, and on ideal values it is 1 / (1 + exp (-x)). -/
theorem logistic_at {s : Shape} {φ : FTy} (x : FVec Ideal s φ) (i : s.Idx) : logistic x i = Ideal.logistic (x i) := rfl

/-! ## The body at (p, d) -/

/-- The output block of the edge kernel at (p, d). The one store covers the whole buffer from offset zero, so the
    buffer is the payload and each load is its block. The outer operations are entrywise down to the lane sum, which
    is read as a sum over the 64 features; inside the sum every operation is entrywise again, down to the two
    contractions over the 128 columns of row p. What is left is the row formula, term for term. -/
theorem out0_8_apply (x0 : Vec Ideal S4000x128 .f32) (x1 : Vec Ideal S4000x128 .bf16) (x2 : Vec Ideal S4000x64 .bf16)
    (x3 x4 : Vec Ideal S128x64 .f32) (x5 x6 : Vec Ideal S1x64 .f32) (x7 : Vec Ideal S1x1 .f32)
    (p : Fin 4000) (d : Fin 128) :
    out0_8 (F := Ideal) x0 x1 x2 x3 x4 x5 x6 x7 (ix2 p d)
      = RowSpec.msg (fun k => x0 (ix2 p k)) (fun k => x1 (ix2 p k)) (fun a => x2 (ix2 p a)) x3 x4
          (fun a => x5 (ix2 0 a)) (fun a => x6 (ix2 0 a)) (x7 (ix2 0 0)) d := by
  unfold out0_8
  rw [View.canon_unit_zero zero_off]
  simp only [View.ld_unit_zero (S := S4000x128) zero_off, View.ld_unit_zero (S := S4000x64) zero_off,
    View.ld_unit_zero (S := S128x64) zero_off, View.ld_unit_zero (S := S1x64) zero_off, View.ld_unit_zero (S := S1x1) zero_off]
  unfold k0_pay1
  -- from the product at (p, d) down to the lane sum at row p
  simp only [shapeCast_self, mulf_apply, wide_of_col, logistic_at, addf_apply, col_of_vec, col_of_one, extf_apply]
  -- the lane sum as a sum over the 64 features
  refine (congrArg (fun s => Ideal.logistic (s + x7 (ix2 0 0)) * (x0 (ix2 p d) + x1 (ix2 p d))) (lanesum_at _ _ _ p)).trans ?_
  -- feature a of row p: weight, rectifier, bias row, query term, the two contractions
  simp only [mulf_apply, addf_apply, maximumf_apply, broadcast_apply, broadcastTo_1b_ab_apply, matmul_at, extf_apply, truncf_apply]
  unfold RowSpec.msg RowSpec.alpha RowSpec.att
  rfl

end Cert.KernelIdeal.EdgeBody

end
-- ==== Proof.KerRegion0.lean ====
/-
  What the edge kernel's launch leaves in its output array: row e of the result is the message of the edge whose
  three input rows are row e of the three row-blocked input arrays.

  The launch walks 125 grid points; point t stages rows 4000·t … 4000·t + 3999 of the three edge arrays and the whole
  of the five weight arrays, and writes back the same rows of the result. Every row of the result lies in exactly
  the block of point (row / 4000), so the array ends as one function of the entry contents, row by row.
-/
import proofs.«404059_j34840774705590_3_alg».proof.Proof.Gen.KernelIdeal.Frame
import proofs.«404059_j34840774705590_3_alg».proof.Proof.KerEdgeBody
import proofs.«404059_j34840774705590_3_alg».proof.Proof.RowSpec
import Idealize.ShloMosaic.Lib.ValueIdx
import Idealize.ShloMosaic.Lib.Pipeline.Value

noncomputable section

namespace Cert.KernelIdeal.Region0

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-! ## The index maps over the grid -/

/-- The three edge arrays and the result move together: at point t their block index is (t, 0). -/
theorem row_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0 :=
  (by decide +kernel : ∀ t : Fin grid0.N, _)

/-- The five weight arrays stay at block (0, 0) at every point. -/
theorem fixed_idx : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks as rows of the entry arrays -/

/-- Row y₀ of the head-row block at point t is row 4000·t + y₀ of the head-row array. -/
theorem head_block (c : Dev nD) (t : Fin cfg0.N) (y : S4000x128.Idx) (i : S500000x128.Idx)
    (h0 : (i 0).val = t.val * 4000 + (y 0).val) (h1 : (i 1).val = (y 1).val) :
    (iblk0 V c 0 t : Vec Ideal S4000x128 .f32) y = (V c main_v0 : S500000x128.Idx → Elt Ideal .f32) i := by
  obtain ⟨e0, e1, -⟩ := row_idx t
  show V c main_v0 (((cfg0.win 0).blk t).view.emb y) = V c main_v0 i
  refine congrArg (V c main_v0) ?_
  funext a; apply Fin.ext
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- Row y₀ of the relation-row block at point t is row 4000·t + y₀ of the relation-row array. -/
theorem rel_block (c : Dev nD) (t : Fin cfg0.N) (y : S4000x128.Idx) (i : S500000x128.Idx)
    (h0 : (i 0).val = t.val * 4000 + (y 0).val) (h1 : (i 1).val = (y 1).val) :
    (iblk0 V c 1 t : Vec Ideal S4000x128 .bf16) y = (V c main_v2 : S500000x128.Idx → Elt Ideal .bf16) i := by
  obtain ⟨-, -, e0, e1, -⟩ := row_idx t
  show V c main_v2 (((cfg0.win 1).blk t).view.emb y) = V c main_v2 i
  refine congrArg (V c main_v2) ?_
  funext a; apply Fin.ext
  match a with
  | ⟨0, _⟩ => show win0_1.index t (0 : Fin 2) * 4000 + 1 * (y 0).val = (i 0).val; omega
  | ⟨1, _⟩ => show win0_1.index t (1 : Fin 2) * 128 + 1 * (y 1).val = (i 1).val; omega

/-- Row y₀ of the query-term block at point t is row 4000·t + y₀ of the query-term array. -/
theorem query_block (c : Dev nD) (t : Fin cfg0.N) (y : S4000x64.Idx) (i : S500000x64.Idx)
    (h0 : (i 0).val = t.val * 4000 + (y 0).val) (h1 : (i 1).val = (y 1).val) :
    (iblk0 V c 2 t : Vec Ideal S4000x64 .bf16) y = (V c main_v7 : S500000x64.Idx → Elt Ideal .bf16) i := by
  obtain ⟨-, -, -, -, e0, e1, -⟩ := row_idx t
  show V c main_v7 (((cfg0.win 2).blk t).view.emb y) = V c main_v7 i
  refine congrArg (V c main_v7) ?_
  funext a; apply Fin.ext
  match a with
  | ⟨0, _⟩ => show win0_2.index t (0 : Fin 2) * 4000 + 1 * (y 0).val = (i 0).val; omega
  | ⟨1, _⟩ => show win0_2.index t (1 : Fin 2) * 64 + 1 * (y 1).val = (i 1).val; omega

/-- The block of the head-side weight array is the whole array, at every point. -/
theorem ws_block (c : Dev nD) (t : Fin cfg0.N) :
    (iblk0 V c 3 t : Vec Ideal S128x64 .f32) = (V c main_v8 : S128x64.Idx → Elt Ideal .f32) := by
  obtain ⟨e0, e1, -⟩ := fixed_idx t
  funext y
  show V c main_v8 (((cfg0.win 3).blk t).view.emb y) = V c main_v8 y
  refine congrArg (V c main_v8) ?_
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The block of the relation-side weight array is the whole array, at every point. -/
theorem wr_block (c : Dev nD) (t : Fin cfg0.N) :
    (iblk0 V c 4 t : Vec Ideal S128x64 .f32) = (V c main_v9 : S128x64.Idx → Elt Ideal .f32) := by
  obtain ⟨-, -, e0, e1, -⟩ := fixed_idx t
  funext y
  show V c main_v9 (((cfg0.win 4).blk t).view.emb y) = V c main_v9 y
  refine congrArg (V c main_v9) ?_
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

/-- The block of the feature bias row is the whole row, at every point. -/
theorem bqr_block (c : Dev nD) (t : Fin cfg0.N) :
    (iblk0 V c 5 t : Vec Ideal S1x64 .f32) = (V c main_v10 : S1x64.Idx → Elt Ideal .f32) := by
  obtain ⟨-, -, -, -, e0, e1, -⟩ := fixed_idx t
  funext y
  show V c main_v10 (((cfg0.win 5).blk t).view.emb y) = V c main_v10 y
  refine congrArg (V c main_v10) ?_
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The block of the gate weight row is the whole row, at every point. -/
theorem wal_block (c : Dev nD) (t : Fin cfg0.N) :
    (iblk0 V c 6 t : Vec Ideal S1x64 .f32) = (V c main_arg6 : S1x64.Idx → Elt Ideal .f32) := by
  obtain ⟨-, -, -, -, -, -, e0, e1, -⟩ := fixed_idx t
  funext y
  show V c main_arg6 (((cfg0.win 6).blk t).view.emb y) = V c main_arg6 y
  refine congrArg (V c main_arg6) ?_
  funext a; apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- The block of the gate bias is the one-element array itself, at every point. -/
theorem bal_block (c : Dev nD) (t : Fin cfg0.N) :
    (iblk0 V c 7 t : Vec Ideal S1x1 .f32) = (V c main_v11 : S1x1.Idx → Elt Ideal .f32) := by
  obtain ⟨-, -, -, -, -, -, -, -, e0, e1⟩ := fixed_idx t
  funext y
  show V c main_v11 (((cfg0.win 7).blk t).view.emb y) = V c main_v11 y
  refine congrArg (V c main_v11) ?_
  funext a; apply Fin.ext
  match a with
  | ⟨0, _⟩ => show win0_7.index t (0 : Fin 2) * 1 + 1 * (y 0).val = (y 0).val; omega
  | ⟨1, _⟩ => show win0_7.index t (1 : Fin 2) * 1 + 1 * (y 1).val = (y 1).val; omega

/-! ## The result array as one function of the entry contents -/

/-- The message array: entry (e, d) is component d of the message of edge e, read off row e of the three edge
    arrays and the five weight arrays as the launch finds them. -/
def msgArr (c : Dev nD) : S500000x128.Idx → Elt Ideal .f32 := fun i =>
  RowSpec.msg (fun k => V c main_v0 (ix2 (i 0) k)) (fun k => V c main_v2 (ix2 (i 0) k)) (fun a => V c main_v7 (ix2 (i 0) a))
    (V c main_v8) (V c main_v9) (fun a => V c main_v10 (ix2 0 a)) (fun a => V c main_arg6 (ix2 0 a))
    (V c main_v11 (ix2 0 0)) (i 1)

/-- The body's result block at any index, over any eight input blocks: the body lemma with the index split into
    its two coordinates. -/
theorem out_at (x0 : Vec Ideal S4000x128 .f32) (x1 : Vec Ideal S4000x128 .bf16) (x2 : Vec Ideal S4000x64 .bf16)
    (x3 x4 : Vec Ideal S128x64 .f32) (x5 x6 : Vec Ideal S1x64 .f32) (x7 : Vec Ideal S1x1 .f32) (y : S4000x128.Idx) :
    out0_8 (F := Ideal) x0 x1 x2 x3 x4 x5 x6 x7 y
      = RowSpec.msg (fun k => x0 (ix2 (y 0) k)) (fun k => x1 (ix2 (y 0) k)) (fun a => x2 (ix2 (y 0) a)) x3 x4
          (fun a => x5 (ix2 0 a)) (fun a => x6 (ix2 0 a)) (x7 (ix2 0 0)) (y 1) := by
  obtain ⟨p, d, rfl⟩ : ∃ (p : Fin 4000) (d : Fin 128), y = ix2 p d := ⟨y 0, y 1, eq_ix2 y⟩
  exact EdgeBody.out0_8_apply x0 x1 x2 x3 x4 x5 x6 x7 p d

/-- What the body leaves at index y of point t's result block is the message array at the array index i that
    y sits at: row 4000·t + y₀, the same column. -/
theorem point_eq (c : Dev nD) (t : Fin cfg0.N) (y : S4000x128.Idx) (i : S500000x128.Idx)
    (h0 : (i 0).val = t.val * 4000 + (y 0).val) (h1 : (i 1).val = (y 1).val) :
    out0_8 (F := Ideal) (iblk0 V c 0 t) (iblk0 V c 1 t) (iblk0 V c 2 t) (iblk0 V c 3 t) (iblk0 V c 4 t) (iblk0 V c 5 t)
        (iblk0 V c 6 t) (iblk0 V c 7 t) y = msgArr V c i := by
  rw [out_at (iblk0 V c 0 t) (iblk0 V c 1 t) (iblk0 V c 2 t) (iblk0 V c 3 t) (iblk0 V c 4 t) (iblk0 V c 5 t)
    (iblk0 V c 6 t) (iblk0 V c 7 t) y]
  rw [ws_block V c t, wr_block V c t, bqr_block V c t, wal_block V c t, bal_block V c t]
  have eh : (fun k : Fin 128 => (iblk0 V c 0 t : Vec Ideal S4000x128 .f32) (ix2 (y 0) k))
      = fun k : Fin 128 => (V c main_v0 : S500000x128.Idx → Elt Ideal .f32) (ix2 (i 0) k) :=
    funext fun k => head_block V c t (ix2 (y 0) k) (ix2 (i 0) k) h0 rfl
  have er : (fun k : Fin 128 => (iblk0 V c 1 t : Vec Ideal S4000x128 .bf16) (ix2 (y 0) k))
      = fun k : Fin 128 => (V c main_v2 : S500000x128.Idx → Elt Ideal .bf16) (ix2 (i 0) k) :=
    funext fun k => rel_block V c t (ix2 (y 0) k) (ix2 (i 0) k) h0 rfl
  have eq : (fun a : Fin 64 => (iblk0 V c 2 t : Vec Ideal S4000x64 .bf16) (ix2 (y 0) a))
      = fun a : Fin 64 => (V c main_v7 : S500000x64.Idx → Elt Ideal .bf16) (ix2 (i 0) a) :=
    funext fun a => query_block V c t (ix2 (y 0) a) (ix2 (i 0) a) h0 rfl
  have ed : y 1 = i 1 := Fin.ext h1.symm
  rw [eh, er, eq, ed]
  rfl

/-- What point t writes back is block t of the message array. -/
theorem flushed_eq (c : Dev nD) (t : Fin cfg0.N) :
    (dat0 (F := Ideal) V c).flushed 8 t = ((cfg0.win 8).blk t).view.read (Elt Ideal) (msgArr V c) := by
  show (cfg0.win 8).cut (grid0.coords t) ((dat0 (F := Ideal) V c).after 8 t) = _
  rw [after0_8]
  obtain ⟨-, -, -, -, -, -, e0, e1⟩ := row_idx t
  funext j
  refine point_eq V c t ((cfg0.win 8).xinj (grid0.coords t) j) (((cfg0.win 8).blk t).view.emb j) ?_ ?_
  · show win0_8.index t (0 : Fin 2) * 4000 + 1 * (j 0).val = t.val * 4000 + (j 0).val; omega
  · show win0_8.index t (1 : Fin 2) * 128 + 1 * (j 1).val = (j 1).val; omega

/-! ## The blocks cover the array -/

/-- An index of the result array is in point t's block iff each coordinate is in the block's range on its axis. -/
theorem mem_blk (t : Fin cfg0.N) (i : S500000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v12).slice (win0_8.rect t)).set ↔ _
  rw [View.set_slice_whole, Rect.mem_set_unit]
  exact Iff.rfl

/-- Row r of the result lies in the block of point r / 4000. -/
theorem cover (i : S500000x128.Idx) :
    ∃ t : Fin cfg0.N, (cfg0.win 8).flush t = true ∧ i ∈ ((cfg0.win 8).blk t).view.set := by
  have hi0 : (i 0).val < 500000 := (i 0).isLt
  have hi1 : (i 1).val < 128 := (i 1).isLt
  obtain ⟨t, ht⟩ : ∃ t : Fin cfg0.N, t.val = (i 0).val / 4000 :=
    ⟨⟨(i 0).val / 4000, by rw [show cfg0.N = 125 from N_0]; omega⟩, rfl⟩
  obtain ⟨-, -, -, -, -, -, e0, e1⟩ := row_idx t
  refine ⟨t, flush0_8 t, ?_⟩
  rw [mem_blk]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- The result array after the launch is the message array. -/
theorem arr_eq (c : Dev nD) : (dat0 (F := Ideal) V c).arrAt 8 cfg0.N = msgArr V c :=
  (dat0 (F := Ideal) V c).arrAt_eq_of_cover 8 (msgArr V c) (fun t _ => flushed_eq V c t) cover

/-- Entry (e, d) of the result array after the launch: component d of the message of edge e. -/
theorem arr0 (c : Dev nD) (e : Fin 500000) (d : Fin 128) :
    (dat0 (F := Ideal) V c).arrAt 8 cfg0.N (ix2 e d)
      = RowSpec.msg (fun k => V c main_v0 (ix2 e k)) (fun k => V c main_v2 (ix2 e k)) (fun a => V c main_v7 (ix2 e a))
          (V c main_v8) (V c main_v9) (fun a => V c main_v10 (ix2 0 a)) (fun a => V c main_arg6 (ix2 0 a))
          (V c main_v11 (ix2 0 0)) d := by
  rw [arr_eq V c]
  rfl

end Cert.KernelIdeal.Region0

end
-- ==== Proof.KerNodeBody.lean ====
/-
  What the node kernel's body leaves in its packed output block, read at (g, l): the score of the node whose
  aggregated-message row and previous-state row are row 128 g + l of the two input blocks.

  The body is read one entry at a time, from the inside out. The two matrix products into a zero accumulator are sums
  over the 128 contraction coordinates, so entry (r, c) of the input-side pre-activations is gi of row r of the
  aggregated messages, and entry (r, c) of the state-side ones is gh of row r of the previous state (changes of float
  format are the identity on the extended reals). The three gates read the column blocks 0, 1 and 2 of those 384
  columns: a slice starting at column 128 b reads, at (r, d), column 128 b + d. The blended state, regrouped from 2048
  rows into 16 groups of 128 (entry (g, l, d) is entry (128 g + l, d)), is multiplied by the final weight row laid
  over every group and row, and summed over d.
-/
import proofs.«404059_j34840774705590_3_alg».proof.Proof.Gen.KernelIdeal.Frame
import proofs.«404059_j34840774705590_3_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBody

open Idealize.ShloMosaic Idealize.ShloMosaic.ValueIdx Cert.KernelIdeal Cert.KernelIdeal.Gen
open scoped BigOperators

/-- Row 128 g + l of a block of 2048 rows. -/
abbrev prow (g : Fin 16) (l : Fin 128) : Fin 2048 := ⟨128 * g.val + l.val, by have := g.isLt; have := l.isLt; omega⟩

/-! Operand coordinates of the 2048x128 by 128x128 product: the left operand is read at (row, k), the right at (k, column). -/

theorem lhsSq_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsSq_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsSq_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsSq_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product into a zero accumulator, read at (r, c): the sum over k of left (r, k) times right (k, c). -/
theorem matmulSq_apply (a : FVec Ideal S2048x128 .bf16) (b : FVec Ideal S128x128 .bf16) (r : Fin 2048) (c : Fin 128) :
    matmul dot_S2048x128_S128x128_S2048x128_1_0_0_1_n_n none a b (constant (F := Ideal) S2048x128 .f32 0x00000000#32) (ix2 r c)
      = ∑ k : Fin 128, a (ix2 r k) * b (ix2 k c) := by
  show FloatOps.matmul dot_S2048x128_S128x128_S2048x128_1_0_0_1_n_n none a b (constant (F := Ideal) S2048x128 .f32 0x00000000#32) (ix2 r c) = _
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 r c) ((contrEquiv1 dot_S2048x128_S128x128_S2048x128_1_0_0_1_n_n 128 rfl rfl).symm k) = ix2 r k := funext fun a => Fin.ext (by
    match a with
    | ⟨0, _⟩ => exact lhsSq_0 _ _
    | ⟨1, _⟩ => exact (lhsSq_1 _ _).trans hk)
  have er : dot_S2048x128_S128x128_S2048x128_1_0_0_1_n_n.rhsIdx (ix2 r c) ((contrEquiv1 dot_S2048x128_S128x128_S2048x128_1_0_0_1_n_n 128 rfl rfl).symm k) = ix2 k c := funext fun a => Fin.ext (by
    match a with
    | ⟨0, _⟩ => exact (rhsSq_0 _ _).trans hk
    | ⟨1, _⟩ => exact rhsSq_1 _ _)
  rw [el, er]

/-! Operand coordinates of the 2048x128 by 128x384 product: the left operand is read at (row, k), the right at (k, column). -/

theorem lhsWide_0 (i : S2048x384.Idx) (q : dot_S2048x128_S128x384_S2048x384_1_0_0_1_n_n.contr.Idx) :
    (dot_S2048x128_S128x384_S2048x384_1_0_0_1_n_n.lhsIdx i q 0).val = (i 0).val := by
  unfold DotDims.lhsIdx
  rw [dif_neg (show ¬(0 : Fin S2048x128.rank) ∈ dot_S2048x128_S128x384_S2048x384_1_0_0_1_n_n.lhsBatch by decide), dif_pos (show (0 : Fin S2048x128.rank) ∈ dot_S2048x128_S128x384_S2048x384_1_0_0_1_n_n.lhsNonContracting by decide)]
  rfl
theorem lhsWide_1 (i : S2048x384.Idx) (q : dot_S2048x128_S128x384_S2048x384_1_0_0_1_n_n.contr.Idx) :
    (dot_S2048x128_S128x384_S2048x384_1_0_0_1_n_n.lhsIdx i q 1).val = (q ⟨0, by decide⟩).val :=
  dot_S2048x128_S128x384_S2048x384_1_0_0_1_n_n.lhsIdx_val_of_single rfl i q
theorem rhsWide_0 (i : S2048x384.Idx) (q : dot_S2048x128_S128x384_S2048x384_1_0_0_1_n_n.contr.Idx) :
    (dot_S2048x128_S128x384_S2048x384_1_0_0_1_n_n.rhsIdx i q 0).val = (q ⟨0, by decide⟩).val :=
  dot_S2048x128_S128x384_S2048x384_1_0_0_1_n_n.rhsIdx_val_of_single rfl i q
theorem rhsWide_1 (i : S2048x384.Idx) (q : dot_S2048x128_S128x384_S2048x384_1_0_0_1_n_n.contr.Idx) :
    (dot_S2048x128_S128x384_S2048x384_1_0_0_1_n_n.rhsIdx i q 1).val = (i 1).val := by
  unfold DotDims.rhsIdx
  rw [dif_neg (show ¬(1 : Fin S128x384.rank) ∈ dot_S2048x128_S128x384_S2048x384_1_0_0_1_n_n.rhsBatch by decide), dif_pos (show (1 : Fin S128x384.rank) ∈ dot_S2048x128_S128x384_S2048x384_1_0_0_1_n_n.rhsNonContracting by decide)]
  rfl

/-- The product into a zero accumulator, read at (r, c): the sum over k of left (r, k) times right (k, c). -/
theorem matmulWide_apply (a : FVec Ideal S2048x128 .bf16) (b : FVec Ideal S128x384 .bf16) (r : Fin 2048) (c : Fin 384) :
    matmul dot_S2048x128_S128x384_S2048x384_1_0_0_1_n_n none a b (constant (F := Ideal) S2048x384 .f32 0x00000000#32) (ix2 r c)
      = ∑ k : Fin 128, a (ix2 r k) * b (ix2 k c) := by
  show FloatOps.matmul dot_S2048x128_S128x384_S2048x384_1_0_0_1_n_n none a b (constant (F := Ideal) S2048x384 .f32 0x00000000#32) (ix2 r c) = _
  rw [Ideal.matmul_constant_zero_apply, ← Equiv.sum_comp (contrEquiv1 dot_S2048x128_S128x384_S2048x384_1_0_0_1_n_n 128 rfl rfl).symm]
  refine Finset.sum_congr rfl fun k _ => ?_
  have hk := contrEquiv1_symm_val dot_S2048x128_S128x384_S2048x384_1_0_0_1_n_n 128 rfl rfl k
  have el : dot_S2048x128_S128x384_S2048x384_1_0_0_1_n_n.lhsIdx (ix2 r c) ((contrEquiv1 dot_S2048x128_S128x384_S2048x384_1_0_0_1_n_n 128 rfl rfl).symm k) = ix2 r k := funext fun a => Fin.ext (by
    match a with
    | ⟨0, _⟩ => exact lhsWide_0 _ _
    | ⟨1, _⟩ => exact (lhsWide_1 _ _).trans hk)
  have er : dot_S2048x128_S128x384_S2048x384_1_0_0_1_n_n.rhsIdx (ix2 r c) ((contrEquiv1 dot_S2048x128_S128x384_S2048x384_1_0_0_1_n_n 128 rfl rfl).symm k) = ix2 k c := funext fun a => Fin.ext (by
    match a with
    | ⟨0, _⟩ => exact (rhsWide_0 _ _).trans hk
    | ⟨1, _⟩ => exact rhsWide_1 _ _)
  rw [el, er]

/-- The zero offsets of a whole-buffer access, spelt as a constant function. -/
theorem hz2 : (![0, 0] : Fin 2 → Nat) = fun _ => 0 := funext fun a => match a with | ⟨0, _⟩ => rfl | ⟨1, _⟩ => rfl

/-- The input-side pre-activations: row r, column c of the rectified projection times the input weights plus the bias
    row is the row specification's gi of row r of the aggregated messages. -/
theorem pay3_apply (x0 : Vec Ideal S2048x128 .f32) (x2 : Vec Ideal S128x128 .f32) (x3 : Vec Ideal S128x384 .f32)
    (x5 : Vec Ideal S1x384 .f32) (r : Fin 2048) (c : Fin 384) :
    k1_pay3 (F := Ideal) x0 x2 x3 x5 (ix2 r c)
      = RowSpec.gi (fun k => x0 (ix2 r k)) x2 x3 (fun c => x5 (ix2 0 c)) c := by
  unfold k1_pay3 RowSpec.gi
  simp only [shapeCast_self]
  refine (congrArg₂ (· + ·) (matmulWide_apply _ _ r c) (broadcastTo_1b_ab_apply _ _ r c)).trans ?_
  refine congrArg₂ (· + ·) (Finset.sum_congr rfl fun j _ => congrArg₂ (· * ·) ?_ rfl) rfl
  exact congrArg₂ max (matmulSq_apply _ _ r j) rfl

/-- The state-side pre-activations: row r, column c of the previous state times the state weights plus the bias row is
    the row specification's gh of row r of the previous state. -/
theorem pay4_apply (x1 : Vec Ideal S2048x128 .f32) (x4 : Vec Ideal S128x384 .f32) (x6 : Vec Ideal S1x384 .f32)
    (r : Fin 2048) (c : Fin 384) :
    k1_pay4 (F := Ideal) x1 x4 x6 (ix2 r c) = RowSpec.gh (fun k => x1 (ix2 r k)) x4 (fun c => x6 (ix2 0 c)) c := by
  unfold k1_pay4 k1_pay2 RowSpec.gh
  simp only [shapeCast_self]
  exact congrArg₂ (· + ·) (matmulWide_apply _ _ r c) (broadcastTo_1b_ab_apply _ _ r c)

/-- The update gate z: at (r, d) the logistic of the sum of the two pre-activations' column 128 + d. -/
theorem pay5_apply (x0 x1 : Vec Ideal S2048x128 .f32) (x2 : Vec Ideal S128x128 .f32) (x3 : Vec Ideal S128x384 .f32)
    (x5 : Vec Ideal S1x384 .f32) (x4 : Vec Ideal S128x384 .f32) (x6 : Vec Ideal S1x384 .f32) (r : Fin 2048) (d : Fin 128) :
    k1_pay5 (F := Ideal) x0 x1 x2 x3 x5 x4 x6 (ix2 r d)
      = Ideal.logistic (RowSpec.gi (fun k => x0 (ix2 r k)) x2 x3 (fun c => x5 (ix2 0 c)) (RowSpec.col 1 (by omega) d)
          + RowSpec.gh (fun k => x1 (ix2 r k)) x4 (fun c => x6 (ix2 0 c)) (RowSpec.col 1 (by omega) d)) := by
  unfold k1_pay5
  refine (congrArg Ideal.logistic (congrArg₂ (· + ·)
    (slice2_axis1_apply 128 _ _ r d (RowSpec.col 1 (by omega) d) rfl)
    (slice2_axis1_apply 128 _ _ r d (RowSpec.col 1 (by omega) d) rfl))).trans ?_
  rw [pay3_apply, pay4_apply]

/-- The candidate's pre-activation: at (r, d) the input side's column 256 + d plus the reset gate (the logistic of the
    two sides' column d) times the state side's column 256 + d. -/
theorem pay6_apply (x0 x1 : Vec Ideal S2048x128 .f32) (x2 : Vec Ideal S128x128 .f32) (x3 : Vec Ideal S128x384 .f32)
    (x5 : Vec Ideal S1x384 .f32) (x4 : Vec Ideal S128x384 .f32) (x6 : Vec Ideal S1x384 .f32) (r : Fin 2048) (d : Fin 128) :
    k1_pay6 (F := Ideal) x0 x1 x2 x3 x5 x4 x6 (ix2 r d)
      = RowSpec.gi (fun k => x0 (ix2 r k)) x2 x3 (fun c => x5 (ix2 0 c)) (RowSpec.col 2 (by omega) d)
          + Ideal.logistic (RowSpec.gi (fun k => x0 (ix2 r k)) x2 x3 (fun c => x5 (ix2 0 c)) (RowSpec.col 0 (by omega) d)
              + RowSpec.gh (fun k => x1 (ix2 r k)) x4 (fun c => x6 (ix2 0 c)) (RowSpec.col 0 (by omega) d))
            * RowSpec.gh (fun k => x1 (ix2 r k)) x4 (fun c => x6 (ix2 0 c)) (RowSpec.col 2 (by omega) d) := by
  unfold k1_pay6
  refine (congrArg₂ (· + ·)
    (slice2_axis1_apply 256 _ _ r d (RowSpec.col 2 (by omega) d) rfl)
    (congrArg₂ (· * ·)
      (congrArg Ideal.logistic (congrArg₂ (· + ·)
        (slice2_axis1_apply 0 _ _ r d (RowSpec.col 0 (by omega) d) rfl)
        (slice2_axis1_apply 0 _ _ r d (RowSpec.col 0 (by omega) d) rfl)))
      (slice2_axis1_apply 256 _ _ r d (RowSpec.col 2 (by omega) d) rfl))).trans ?_
  rw [pay3_apply, pay3_apply, pay4_apply, pay4_apply]

/-- 2048 rows regrouped as 16 groups of 128: element (g, l, d) is element (128 g + l, d). -/
theorem regroup_apply {α : Type} (v : S2048x128.Idx → α) (h : S2048x128.ShapeCasts S16x128x128)
    (g : Fin 16) (l : Fin 128) (d : Fin 128) :
    shapeCast S16x128x128 v h (ix3 g l d) = v (ix2 (prow g l) d) :=
  shapeCast_apply v h _ _ (by
    rw [Shape.rowMajor_val_three, Shape.rowMajor_val_two]
    show (128 * g.val + l.val) * 128 + d.val = (g.val * 128 + l.val) * 128 + d.val
    omega)

/-- The one weight row laid over every group and every row of a group: element (g, l, d) is the row's entry d. -/
theorem spread_apply {α : Type} (w : S1x128.Idx → α) (h1 : S1x128.ShapeCasts S1x1x128) (h2 : S1x1x128.Broadcasts S16x128x128)
    (g : Fin 16) (l : Fin 128) (d : Fin 128) :
    broadcastTo S16x128x128 (shapeCast S1x1x128 w h1) h2 (ix3 g l d) = w (ix2 0 d) :=
  (broadcastTo_apply _ h2 (ix3 g l d) (ix3 (0 : Fin 1) (0 : Fin 1) d) (fun a => by
    match a with
    | ⟨0, _⟩ => rfl
    | ⟨1, _⟩ => rfl
    | ⟨2, _⟩ => rfl)).trans (shapeCast_ab_1ab_apply w h1 0 0 d)

/-- The sum over the last axis of a [16, 128, 128] array, read at (g, l). -/
theorem lane_sum (v : FVec Ideal S16x128x128 .f32) (h : S16x128x128.Reduces [2] S16x128) (hφ : FKind.Formats .f32)
    (hacc : (0x00000000#32 : BitVec 32) = FKind.add.neutral .f32 hφ) (g : Fin 16) (l : Fin 128) :
    multiReduction .add [2] S16x128 v 0x00000000#32 h hφ hacc (ix2 g l) = ∑ d : Fin 128, v (ix3 g l d) := by
  refine (Ideal.multiReduction_add_single v 0x00000000#32 h hφ hacc (ix2 g l)).trans ?_
  refine Finset.sum_congr rfl fun d _ => congrArg v ?_
  funext c
  apply Fin.ext
  match c with
  | ⟨0, _⟩ => rfl
  | ⟨1, _⟩ => rfl
  | ⟨2, _⟩ => rfl

/-- The packed scores: at (g, l) the sum over d of the blended state of row 128 g + l times the weight row's entry d. -/
theorem pay1_apply (h0 z n : FVec Ideal S2048x128 .f32) (x7 : Vec Ideal S1x128 .f32) (g : Fin 16) (l : Fin 128) :
    k1_pay1 (F := Ideal) h0 z n x7 (ix2 g l)
      = ∑ d : Fin 128, ((RowSpec.oneW - z (ix2 (prow g l) d)) * Ideal.tanh (n (ix2 (prow g l) d))
          + z (ix2 (prow g l) d) * h0 (ix2 (prow g l) d)) * x7 (ix2 0 d) := by
  unfold k1_pay1
  refine (lane_sum _ _ _ _ g l).trans ?_
  refine Finset.sum_congr rfl fun d _ => ?_
  exact congrArg₂ (· * ·) (regroup_apply _ _ g l d) (spread_apply x7 _ _ g l d)

/-- The packed output block of the node kernel at (g, l). -/
theorem out1_8_apply (x0 x1 : Vec Ideal S2048x128 .f32) (x2 : Vec Ideal S128x128 .f32)
    (x3 x4 : Vec Ideal S128x384 .f32) (x5 x6 : Vec Ideal S1x384 .f32) (x7 : Vec Ideal S1x128 .f32)
    (g : Fin 16) (l : Fin 128) :
    out1_8 (F := Ideal) x0 x1 x2 x3 x4 x5 x6 x7 (ix2 g l)
      = RowSpec.score (fun k => x0 (ix2 (prow g l) k)) (fun k => x1 (ix2 (prow g l) k)) x2 x3 x4
          (fun c => x5 (ix2 0 c)) (fun c => x6 (ix2 0 c)) (fun d => x7 (ix2 0 d)) := by
  unfold out1_8
  rw [View.canon_unit_zero hz2]
  simp only [View.ld_unit_zero (S := S2048x128) hz2, View.ld_unit_zero (S := S128x128) hz2,
    View.ld_unit_zero (S := S128x384) hz2, View.ld_unit_zero (S := S1x384) hz2, View.ld_unit_zero (S := S1x128) hz2]
  rw [pay1_apply]
  unfold RowSpec.score RowSpec.hout
  refine Finset.sum_congr rfl fun d _ => ?_
  rw [pay5_apply, pay6_apply]
  unfold k1_pay2
  rw [shapeCast_self]

end Cert.KernelIdeal.NodeBody

end
-- ==== Proof.KerRegion1.lean ====
/-
  What the node kernel's launch leaves in its packed output array: entry (G, l) is the score of padded node 128 G + l.

  The launch runs 98 grid points. Point t stages rows 2048 t … 2048 t + 2047 of the aggregated-message array and of the
  previous-state array, every weight and bias array whole, and writes back rows 16 t … 16 t + 15 of the packed
  output. Output row G = 16 t + g holds, at lane l, the score of row 128 g + l of the two staged blocks, which is row
  2048 t + 128 g + l = 128 G + l of the two arrays. The 98 written blocks tile the 1568 output rows, so the array ends
  as one function of the entry contents.
-/
import proofs.«404059_j34840774705590_3_alg».proof.Proof.Gen.KernelIdeal.Frame
import proofs.«404059_j34840774705590_3_alg».proof.Proof.KerNodeBody
import proofs.«404059_j34840774705590_3_alg».proof.Proof.RowSpec
import Idealize.ShloMosaic.Lib.ValueIdx
import Idealize.ShloMosaic.Lib.Pipeline.Value

noncomputable section

namespace Cert.KernelIdeal.Region1

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- Node 128 G + l among the 200704 padded nodes. -/
abbrev nrow (G : Fin 1568) (l : Fin 128) : Fin 200704 := ⟨128 * G.val + l.val, by have := G.isLt; have := l.isLt; omega⟩

/-! ## The block indices over the grid -/

/-- At grid point t the two row-blocked inputs and the output sit at block row t, block column 0; every weight and
    bias window sits at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## Each staged block as a read of its array -/

/-- Row y of the aggregated-message block at point t is row 2048 t + y of the array. -/
theorem msgBlock_apply (c : Dev nD) (t : Fin cfg1.N) (y : S2048x128.Idx) (i : S200704x128.Idx)
    (h0 : (i 0).val = 2048 * t.val + (y 0).val) (h1 : (i 1).val = (y 1).val) :
    (iblk1 V c 0 t : Vec Ideal S2048x128 .f32) y = (V c main_v21 : S200704x128.Idx → Elt Ideal .f32) i := by
  obtain ⟨e0, e1, -⟩ := block_index t
  unfold iblk1
  show V c main_v21 (((cfg1.win 0).blk t).view.emb y) = V c main_v21 i
  congr 1
  funext a
  apply Fin.ext
  match a with
  | ⟨0, _⟩ => show win1_0.index t (0 : Fin 2) * 2048 + 1 * (y 0).val = (i 0).val; omega
  | ⟨1, _⟩ => show win1_0.index t (1 : Fin 2) * 128 + 1 * (y 1).val = (i 1).val; omega

/-- Row y of the previous-state block at point t is row 2048 t + y of the array. -/
theorem stateBlock_apply (c : Dev nD) (t : Fin cfg1.N) (y : S2048x128.Idx) (i : S200704x128.Idx)
    (h0 : (i 0).val = 2048 * t.val + (y 0).val) (h1 : (i 1).val = (y 1).val) :
    (iblk1 V c 1 t : Vec Ideal S2048x128 .f32) y = (V c main_v22 : S200704x128.Idx → Elt Ideal .f32) i := by
  obtain ⟨-, -, e0, e1, -⟩ := block_index t
  unfold iblk1
  show V c main_v22 (((cfg1.win 1).blk t).view.emb y) = V c main_v22 i
  congr 1
  funext a
  apply Fin.ext
  match a with
  | ⟨0, _⟩ => show win1_1.index t (0 : Fin 2) * 2048 + 1 * (y 0).val = (i 0).val; omega
  | ⟨1, _⟩ => show win1_1.index t (1 : Fin 2) * 128 + 1 * (y 1).val = (i 1).val; omega

/-- The hidden-projection weights are staged whole. -/
theorem whBlock_eq (c : Dev nD) (t : Fin cfg1.N) :
    (iblk1 V c 2 t : Vec Ideal S128x128 .f32) = (V c main_v16 : S128x128.Idx → Elt Ideal .f32) := by
  obtain ⟨-, -, -, -, e0, e1, -⟩ := block_index t
  funext y
  unfold iblk1
  show V c main_v16 (((cfg1.win 2).blk t).view.emb y) = V c main_v16 y
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The input-side gate weights are staged whole. -/
theorem wihBlock_eq (c : Dev nD) (t : Fin cfg1.N) :
    (iblk1 V c 3 t : Vec Ideal S128x384 .f32) = (V c main_v17 : S128x384.Idx → Elt Ideal .f32) := by
  obtain ⟨-, -, -, -, -, -, e0, e1, -⟩ := block_index t
  funext y
  unfold iblk1
  show V c main_v17 (((cfg1.win 3).blk t).view.emb y) = V c main_v17 y
  congr 1
  funext a
  apply Fin.ext
  match a with
  | ⟨0, _⟩ => show win1_3.index t (0 : Fin 2) * 128 + 1 * (y 0).val = (y 0).val; omega
  | ⟨1, _⟩ => show win1_3.index t (1 : Fin 2) * 384 + 1 * (y 1).val = (y 1).val; omega

/-- The state-side gate weights are staged whole. -/
theorem whhBlock_eq (c : Dev nD) (t : Fin cfg1.N) :
    (iblk1 V c 4 t : Vec Ideal S128x384 .f32) = (V c main_v18 : S128x384.Idx → Elt Ideal .f32) := by
  obtain ⟨-, -, -, -, -, -, -, -, e0, e1, -⟩ := block_index t
  funext y
  unfold iblk1
  show V c main_v18 (((cfg1.win 4).blk t).view.emb y) = V c main_v18 y
  congr 1
  funext a
  apply Fin.ext
  match a with
  | ⟨0, _⟩ => show win1_4.index t (0 : Fin 2) * 128 + 1 * (y 0).val = (y 0).val; omega
  | ⟨1, _⟩ => show win1_4.index t (1 : Fin 2) * 384 + 1 * (y 1).val = (y 1).val; omega

/-- The input-side gate bias row is staged whole. -/
theorem bihBlock_eq (c : Dev nD) (t : Fin cfg1.N) :
    (iblk1 V c 5 t : Vec Ideal S1x384 .f32) = (V c main_v19 : S1x384.Idx → Elt Ideal .f32) := by
  obtain ⟨-, -, -, -, -, -, -, -, -, -, e0, e1, -⟩ := block_index t
  funext y
  unfold iblk1
  show V c main_v19 (((cfg1.win 5).blk t).view.emb y) = V c main_v19 y
  congr 1
  funext a
  apply Fin.ext
  match a with
  | ⟨0, _⟩ => show win1_5.index t (0 : Fin 2) * 1 + 1 * (y 0).val = (y 0).val; omega
  | ⟨1, _⟩ => show win1_5.index t (1 : Fin 2) * 384 + 1 * (y 1).val = (y 1).val; omega

/-- The state-side gate bias row is staged whole. -/
theorem bhhBlock_eq (c : Dev nD) (t : Fin cfg1.N) :
    (iblk1 V c 6 t : Vec Ideal S1x384 .f32) = (V c main_v20 : S1x384.Idx → Elt Ideal .f32) := by
  obtain ⟨-, -, -, -, -, -, -, -, -, -, -, -, e0, e1, -⟩ := block_index t
  funext y
  unfold iblk1
  show V c main_v20 (((cfg1.win 6).blk t).view.emb y) = V c main_v20 y
  congr 1
  funext a
  apply Fin.ext
  match a with
  | ⟨0, _⟩ => show win1_6.index t (0 : Fin 2) * 1 + 1 * (y 0).val = (y 0).val; omega
  | ⟨1, _⟩ => show win1_6.index t (1 : Fin 2) * 384 + 1 * (y 1).val = (y 1).val; omega

/-- The final weight row is staged whole. -/
theorem wfBlock_eq (c : Dev nD) (t : Fin cfg1.N) :
    (iblk1 V c 7 t : Vec Ideal S1x128 .f32) = (V c main_arg13 : S1x128.Idx → Elt Ideal .f32) := by
  obtain ⟨-, -, -, -, -, -, -, -, -, -, -, -, -, -, e0, e1, -⟩ := block_index t
  funext y
  unfold iblk1
  show V c main_arg13 (((cfg1.win 7).blk t).view.emb y) = V c main_arg13 y
  congr 1
  funext a
  apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-! ## The output array as one function of the entry contents -/

/-- The packed score array: entry (G, l) is the score of padded node 128 G + l, from that node's rows of the
    aggregated-message and previous-state arrays and the whole weight and bias arrays. -/
def scoreArr (c : Dev nD) : S1568x128.Idx → Elt Ideal .f32 := fun i =>
  RowSpec.score (fun k => V c main_v21 (ix2 (nrow (i 0) (i 1)) k)) (fun k => V c main_v22 (ix2 (nrow (i 0) (i 1)) k))
    (V c main_v16) (V c main_v17) (V c main_v18) (fun j => V c main_v19 (ix2 0 j)) (fun j => V c main_v20 (ix2 0 j))
    (fun d => V c main_arg13 (ix2 0 d))

/-- Output row 16 t + g. -/
abbrev orow (t : Fin cfg1.N) (g : Fin 16) : Fin 1568 :=
  ⟨16 * t.val + g.val, by have hN : cfg1.N = 98 := N_1; have := t.isLt; have := g.isLt; omega⟩

/-- What the body leaves at (g, l) of its output block at point t is entry (16 t + g, l) of the score array:
    row 128 g + l of block t is row 128 (16 t + g) + l of the arrays. -/
theorem body_at (c : Dev nD) (t : Fin cfg1.N) (g : Fin 16) (l : Fin 128) :
    out1_8 (F := Ideal) (iblk1 V c 0 t) (iblk1 V c 1 t) (iblk1 V c 2 t) (iblk1 V c 3 t) (iblk1 V c 4 t) (iblk1 V c 5 t)
        (iblk1 V c 6 t) (iblk1 V c 7 t) (ix2 g l)
      = scoreArr V c (ix2 (orow t g) l) := by
  refine (NodeBody.out1_8_apply (iblk1 V c 0 t) (iblk1 V c 1 t) (iblk1 V c 2 t) (iblk1 V c 3 t) (iblk1 V c 4 t)
    (iblk1 V c 5 t) (iblk1 V c 6 t) (iblk1 V c 7 t) g l).trans ?_
  have r0 : (fun k : Fin 128 => (iblk1 V c 0 t : Vec Ideal S2048x128 .f32) (ix2 (NodeBody.prow g l) k))
      = fun k : Fin 128 => (V c main_v21 : S200704x128.Idx → Elt Ideal .f32) (ix2 (nrow (orow t g) l) k) :=
    funext fun k => msgBlock_apply V c t (ix2 (NodeBody.prow g l) k) (ix2 (nrow (orow t g) l) k)
      (by show 128 * (16 * t.val + g.val) + l.val = 2048 * t.val + (128 * g.val + l.val); omega) rfl
  have r1 : (fun k : Fin 128 => (iblk1 V c 1 t : Vec Ideal S2048x128 .f32) (ix2 (NodeBody.prow g l) k))
      = fun k : Fin 128 => (V c main_v22 : S200704x128.Idx → Elt Ideal .f32) (ix2 (nrow (orow t g) l) k) :=
    funext fun k => stateBlock_apply V c t (ix2 (NodeBody.prow g l) k) (ix2 (nrow (orow t g) l) k)
      (by show 128 * (16 * t.val + g.val) + l.val = 2048 * t.val + (128 * g.val + l.val); omega) rfl
  show RowSpec.score (fun k : Fin 128 => (iblk1 V c 0 t : Vec Ideal S2048x128 .f32) (ix2 (NodeBody.prow g l) k))
      (fun k : Fin 128 => (iblk1 V c 1 t : Vec Ideal S2048x128 .f32) (ix2 (NodeBody.prow g l) k))
      (iblk1 V c 2 t : Vec Ideal S128x128 .f32) (iblk1 V c 3 t : Vec Ideal S128x384 .f32) (iblk1 V c 4 t : Vec Ideal S128x384 .f32)
      (fun j : Fin 384 => (iblk1 V c 5 t : Vec Ideal S1x384 .f32) (ix2 0 j))
      (fun j : Fin 384 => (iblk1 V c 6 t : Vec Ideal S1x384 .f32) (ix2 0 j))
      (fun d : Fin 128 => (iblk1 V c 7 t : Vec Ideal S1x128 .f32) (ix2 0 d))
    = RowSpec.score (fun k : Fin 128 => (V c main_v21 : S200704x128.Idx → Elt Ideal .f32) (ix2 (nrow (orow t g) l) k))
      (fun k : Fin 128 => (V c main_v22 : S200704x128.Idx → Elt Ideal .f32) (ix2 (nrow (orow t g) l) k))
      (V c main_v16) (V c main_v17) (V c main_v18) (fun j => V c main_v19 (ix2 0 j)) (fun j => V c main_v20 (ix2 0 j))
      (fun d => V c main_arg13 (ix2 0 d))
  rw [r0, r1, whBlock_eq V c t, wihBlock_eq V c t, whhBlock_eq V c t, bihBlock_eq V c t, bhhBlock_eq V c t, wfBlock_eq V c t]

/-- What point t writes back is block t of the score array. -/
theorem flushed_eq (c : Dev nD) (t : Fin cfg1.N) :
    (dat1 (F := Ideal) V c).flushed 8 t = ((cfg1.win 8).blk t).view.read (Elt Ideal) (scoreArr V c) := by
  show (cfg1.win 8).cut (grid1.coords t) ((dat1 (F := Ideal) V c).after 8 t) = _
  rw [after1_8]
  obtain ⟨-, -, -, -, -, -, -, -, -, -, -, -, -, -, -, -, e0, e1⟩ := block_index t
  funext y
  obtain ⟨g, l, rfl⟩ : ∃ (g : Fin 16) (l : Fin 128), y = ix2 g l := ⟨y 0, y 1, eq_ix2 y⟩
  show out1_8 (F := Ideal) (iblk1 V c 0 t) (iblk1 V c 1 t) (iblk1 V c 2 t) (iblk1 V c 3 t) (iblk1 V c 4 t) (iblk1 V c 5 t)
      (iblk1 V c 6 t) (iblk1 V c 7 t) (ix2 g l) = scoreArr V c (((cfg1.win 8).blk t).view.emb (ix2 g l))
  refine (body_at V c t g l).trans (congrArg (scoreArr V c) ?_)
  funext a
  apply Fin.ext
  match a with
  | ⟨0, _⟩ => show 16 * t.val + g.val = win1_8.index t (0 : Fin 2) * 16 + 1 * g.val; omega
  | ⟨1, _⟩ => show l.val = win1_8.index t (1 : Fin 2) * 128 + 1 * l.val; omega

/-- An index of the output array is in point t's block iff each coordinate is in the block's range on its axis. -/
theorem mem_block (t : Fin cfg1.N) (i : S1568x128.Idx) :
    i ∈ ((cfg1.win 8).blk t).view.set ↔ ∀ a : Fin 2, win1_8.index t a * S16x128.size a ≤ (i a).val
      ∧ (i a).val < win1_8.index t a * S16x128.size a + S16x128.size a := by
  show i ∈ ((View.whole main_v23).slice (win1_8.rect t)).set ↔ _
  rw [View.set_slice_whole, Rect.mem_set_unit]
  exact Iff.rfl

/-- Output row r is written by point r / 16: the 98 blocks of 16 rows tile the 1568 rows. -/
theorem covered (i : S1568x128.Idx) :
    ∃ t : Fin cfg1.N, (cfg1.win 8).flush t = true ∧ i ∈ ((cfg1.win 8).blk t).view.set := by
  have hi0 : (i 0).val < 1568 := (i 0).isLt
  have hi1 : (i 1).val < 128 := (i 1).isLt
  have hN : cfg1.N = 98 := N_1
  obtain ⟨t, ht⟩ : ∃ t : Fin cfg1.N, t.val = (i 0).val / 16 := ⟨⟨(i 0).val / 16, by rw [hN]; omega⟩, rfl⟩
  obtain ⟨-, -, -, -, -, -, -, -, -, -, -, -, -, -, -, -, e0, e1⟩ := block_index t
  refine ⟨t, flush1_8 t, ?_⟩
  rw [mem_block]
  intro a
  match a with
  | ⟨0, _⟩ => show win1_8.index t (0 : Fin 2) * 16 ≤ (i 0).val ∧ (i 0).val < win1_8.index t (0 : Fin 2) * 16 + 16; omega
  | ⟨1, _⟩ => show win1_8.index t (1 : Fin 2) * 128 ≤ (i 1).val ∧ (i 1).val < win1_8.index t (1 : Fin 2) * 128 + 128; omega

/-- After the launch the output array is the score array. -/
theorem final (c : Dev nD) : (dat1 (F := Ideal) V c).arrAt 8 cfg1.N = scoreArr V c :=
  (dat1 (F := Ideal) V c).arrAt_eq_of_cover 8 (scoreArr V c) (fun t _ => flushed_eq V c t) covered

theorem arr1 (c : Dev nD) (G : Fin 1568) (l : Fin 128) :
    (dat1 (F := Ideal) V c).arrAt 8 cfg1.N (ix2 G l)
      = RowSpec.score (fun k => V c main_v21 (ix2 (nrow G l) k)) (fun k => V c main_v22 (ix2 (nrow G l) k))
          (V c main_v16) (V c main_v17) (V c main_v18) (fun j => V c main_v19 (ix2 0 j)) (fun j => V c main_v20 (ix2 0 j))
          (fun d => V c main_arg13 (ix2 0 d)) := by
  rw [final V c]
  rfl

end Cert.KernelIdeal.Region1

end
-- ==== Proof.KerArgs.lean ====
/-
  The kernel program's argument arrays at the ideal instance, each named with its literal shape: the node table, the
  relation table, the attention weights and biases, the recurrent cell's weights and biases, the final weight row,
  the previous state, and the five index arrays.
-/
import proofs.«404059_j34840774705590_3_alg».proof.Proof.Gen.KernelIdeal.Frame
import Idealize.ShloMosaic.PureOps.Ideal

noncomputable section

namespace Cert.KernelIdeal.Args

open Idealize.ShloMosaic Idealize.ShloMosaic.TcCoe Cert.KernelIdeal Cert.KernelIdeal.Gen

variable (m : (ℓ : Loc nD τ sig) → Buf (Elt Ideal) ℓ) (c : Dev nD)

abbrev a0 : Vec Ideal S200000x128 .f32 := m ((c : Thread nD τ).loc main_arg0)
abbrev a1 : Vec Ideal S67x128 .f32 := m ((c : Thread nD τ).loc main_arg1)
abbrev a2 : Vec Ideal S64x128 .f32 := m ((c : Thread nD τ).loc main_arg2)
abbrev a3 : Vec Ideal S64x128 .f32 := m ((c : Thread nD τ).loc main_arg3)
abbrev a4 : Vec Ideal S64x128 .f32 := m ((c : Thread nD τ).loc main_arg4)
abbrev a5 : Vec Ideal S64 .f32 := m ((c : Thread nD τ).loc main_arg5)
abbrev a6 : Vec Ideal S1x64 .f32 := m ((c : Thread nD τ).loc main_arg6)
abbrev a7 : Vec Ideal S1 .f32 := m ((c : Thread nD τ).loc main_arg7)
abbrev a8 : Vec Ideal S128x128 .f32 := m ((c : Thread nD τ).loc main_arg8)
abbrev a9 : Vec Ideal S384x128 .f32 := m ((c : Thread nD τ).loc main_arg9)
abbrev a10 : Vec Ideal S384x128 .f32 := m ((c : Thread nD τ).loc main_arg10)
abbrev a11 : Vec Ideal S384 .f32 := m ((c : Thread nD τ).loc main_arg11)
abbrev a12 : Vec Ideal S384 .f32 := m ((c : Thread nD τ).loc main_arg12)
abbrev a13 : Vec Ideal S1x128 .f32 := m ((c : Thread nD τ).loc main_arg13)
abbrev a14 : Vec Ideal S200000x128 .f32 := m ((c : Thread nD τ).loc main_arg14)
abbrev a15 : IVec S500000 32 := m ((c : Thread nD τ).loc main_arg15)
abbrev a16 : IVec S500000 32 := m ((c : Thread nD τ).loc main_arg16)
abbrev a17 : IVec S500000 32 := m ((c : Thread nD τ).loc main_arg17)
abbrev a18 : IVec S500000 32 := m ((c : Thread nD τ).loc main_arg18)
abbrev a19 : IVec S256 32 := m ((c : Thread nD τ).loc main_arg19)

end Cert.KernelIdeal.Args

end
-- ==== Proof.Rows.lean ====
/-
  The whole-array form of the row functions: which table row an index word selects, and the message and score
  arrays as functions of the argument arrays.

  A start-index word selects, in a table of N rows, the row of its signed value clamped into [0, N-1] (the gather's
  own reading); before that both programs wrap a negative word by adding N. For a word in [0, N) neither step
  changes it. Edge e reads row sub[e] of the node table, row rel[e] of the relation table, and, through its query
  number batch[e], row q_rel[batch[e]] of the relation table projected by the query weights.
-/
import proofs.«404059_j34840774705590_3_alg».proof.Proof.RowSpec

noncomputable section

open scoped BigOperators

namespace Cert.Rows

open Idealize.ShloMosaic Idealize.ShloMosaic.ValueIdx

/-- The row of an `N`-row table a start-index word selects: its signed value, clamped into the table. -/
def crow (N : Nat) (hN : 0 < N) (w : BitVec 32) : Fin N := ⟨min w.toInt.toNat (N - 1), by omega⟩

/-- The wrap of a negative index word by the table's height `N`, as both programs print it. -/
def wrapW (N : BitVec 32) (w : BitVec 32) : BitVec 32 :=
  Scalar.select (IntOp.cmpi .slt w 0#32) (IntOp.addi w N) w

/-- The word is a row number of an `N`-row table. -/
def InRange (N : Nat) (w : BitVec 32) : Prop := 0 ≤ w.toInt ∧ w.toInt < (N : Int)

/-- Edge `e`'s head row in the node table. -/
def subRow (sub : IVec ⟨1, ![500000]⟩ 32) (e : Fin 500000) : Fin 200000 :=
  crow 200000 (by decide) (wrapW 200000#32 (sub (ix1 e)))
/-- Edge `e`'s row in the relation table. -/
def relRow (rel : IVec ⟨1, ![500000]⟩ 32) (e : Fin 500000) : Fin 67 :=
  crow 67 (by decide) (wrapW 67#32 (rel (ix1 e)))
/-- Edge `e`'s query number. -/
def batchRow (eb : IVec ⟨1, ![500000]⟩ 32) (e : Fin 500000) : Fin 256 :=
  crow 256 (by decide) (wrapW 256#32 (eb (ix1 e)))
/-- Query `b`'s row in the relation table. -/
def qRow (qrel : IVec ⟨1, ![256]⟩ 32) (b : Fin 256) : Fin 67 :=
  crow 67 (by decide) (wrapW 67#32 (qrel (ix1 b)))

/-- Row `e` of the message array. -/
def msgAt (hidden : (⟨2, ![200000, 128]⟩ : Shape).Idx → EReal) (relEmb : (⟨2, ![67, 128]⟩ : Shape).Idx → EReal)
    (WsT WrT WqrT : (⟨2, ![128, 64]⟩ : Shape).Idx → EReal) (bqr : (⟨1, ![64]⟩ : Shape).Idx → EReal)
    (wal : (⟨2, ![1, 64]⟩ : Shape).Idx → EReal) (bal : (⟨1, ![1]⟩ : Shape).Idx → EReal)
    (sub rel eb : IVec ⟨1, ![500000]⟩ 32) (qrel : IVec ⟨1, ![256]⟩ 32) (e : Fin 500000) (d : Fin 128) : EReal :=
  RowSpec.msg (fun k => hidden (ix2 (subRow sub e) k)) (fun k => relEmb (ix2 (relRow rel e) k))
    (fun a => ∑ k : Fin 128, relEmb (ix2 (qRow qrel (batchRow eb e)) k) * WqrT (ix2 k a))
    WsT WrT (fun a => bqr (ix1 a)) (fun a => wal (ix2 0 a)) (bal (ix1 0)) d

/-- The message array: one row per edge. -/
def msgArr (hidden : (⟨2, ![200000, 128]⟩ : Shape).Idx → EReal) (relEmb : (⟨2, ![67, 128]⟩ : Shape).Idx → EReal)
    (WsT WrT WqrT : (⟨2, ![128, 64]⟩ : Shape).Idx → EReal) (bqr : (⟨1, ![64]⟩ : Shape).Idx → EReal)
    (wal : (⟨2, ![1, 64]⟩ : Shape).Idx → EReal) (bal : (⟨1, ![1]⟩ : Shape).Idx → EReal)
    (sub rel eb : IVec ⟨1, ![500000]⟩ 32) (qrel : IVec ⟨1, ![256]⟩ 32) : (⟨2, ![500000, 128]⟩ : Shape).Idx → EReal :=
  fun i => msgAt hidden relEmb WsT WrT WqrT bqr wal bal sub rel eb qrel (i 0) (i 1)

/-- Node `n`'s score from the aggregated messages and the previous state. -/
def scoreAt (agg h0 : (⟨2, ![200000, 128]⟩ : Shape).Idx → EReal) (WhT : (⟨2, ![128, 128]⟩ : Shape).Idx → EReal)
    (WihT WhhT : (⟨2, ![128, 384]⟩ : Shape).Idx → EReal) (bih bhh : (⟨1, ![384]⟩ : Shape).Idx → EReal)
    (wf : (⟨2, ![1, 128]⟩ : Shape).Idx → EReal) (n : Fin 200000) : EReal :=
  RowSpec.score (fun k => agg (ix2 n k)) (fun k => h0 (ix2 n k)) WhT WihT WhhT
    (fun c => bih (ix1 c)) (fun c => bhh (ix1 c)) (fun d => wf (ix2 0 d))

/-- The score vector: one entry per node. -/
def scoreArr (agg h0 : (⟨2, ![200000, 128]⟩ : Shape).Idx → EReal) (WhT : (⟨2, ![128, 128]⟩ : Shape).Idx → EReal)
    (WihT WhhT : (⟨2, ![128, 384]⟩ : Shape).Idx → EReal) (bih bhh : (⟨1, ![384]⟩ : Shape).Idx → EReal)
    (wf : (⟨2, ![1, 128]⟩ : Shape).Idx → EReal) : (⟨1, ![200000]⟩ : Shape).Idx → EReal :=
  fun i => scoreAt agg h0 WhT WihT WhhT bih bhh wf (i 0)

end Cert.Rows

end
-- ==== Proof.Take.lean ====
/-
  Taking rows of a table: a gather whose start indices are one column of row numbers reads, at (e, k), the table at
  the clamped row of edge e's index word and column k; and for an index word that already is a row number of the
  table, the wrap of negative indices leaves it alone and the two bound tests that guard the fill value both pass.
-/
import proofs.«404059_j34840774705590_3_alg».proof.Proof.Rows
import Idealize.ShloMosaic.PureOps.ShapeOps

noncomputable section

namespace Cert.Take

open Idealize.ShloMosaic Idealize.ShloMosaic.ValueIdx Cert.Rows

/-- The dimension numbers of a row take: operand [N, C], start indices [E, 1], result [E, C]; axis 0 of the operand
    is indexed and collapsed, axis 1 is copied whole. -/
abbrev rowTakeDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row take read at (e, k): the table at the clamped row of the index word `idx[e, 0]`, column `k`. -/
theorem gather_rows_apply {α : Type} {N E C : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (k : Fin C) :
    Host.gather (rowTakeDims N E C wf) x idx (ix2 e k) = x (ix2 (crow N hN (idx (ix2 e ⟨0, Nat.one_pos⟩))) k) := by
  -- The operand index is computed axis by axis as start + batching coordinate + offset coordinate. There is no
  -- batching axis. Axis 0 is the one indexed axis: its start is the signed index word clamped to [0, N - 1] (the
  -- slice there has one row), and being collapsed it has no offset. Axis 1 is not indexed, so its start is 0, and
  -- it is the one offset axis, so its offset is the result's column.
  unfold Host.gather
  congr 1
  funext a
  refine Fin.ext ?_
  match a with
  | ⟨0, _⟩ =>
    show (rowTakeDims N E C wf).start (ix2 e k) idx 0 + (rowTakeDims N E C wf).batchCoord (ix2 e k) 0
      + (rowTakeDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N E C wf).startIndexMap from List.mem_singleton.mpr rfl)]
    have hsi : (rowTakeDims N E C wf).siIdx (ix2 e k) ⟨List.idxOf (0 : Fin 2) (rowTakeDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowTakeDims N E C wf).start (ix2 e k) idx 1 + (rowTakeDims N E C wf).batchCoord (ix2 e k) 1
      + (rowTakeDims N E C wf).offCoord (ix2 e k) 1 = k.val
    have h10 : (1 : Fin 2) ≠ 0 := by decide
    have h1 : (1 : Fin 2) ∉ (rowTakeDims N E C wf).startIndexMap :=
      fun h => h10 (List.mem_singleton.mp h)
    have hk : (1 : Fin 2) ∈ (rowTakeDims N E C wf).sKept :=
      (GatherDims.mem_sKept _ _).mpr ⟨fun h => h10 (List.mem_singleton.mp h), List.not_mem_nil⟩
    rw [GatherDims.batchCoord_eq_zero _ _ _ List.not_mem_nil]
    unfold GatherDims.start
    rw [dif_neg h1]
    unfold GatherDims.offCoord
    rw [dif_pos hk]
    simp only [Nat.add_zero, Nat.zero_add]
    rfl

/-- A row number is not wrapped. -/
theorem wrapW_of_inRange (N : Nat) (hN : N < 2 ^ 31) (w : BitVec 32) (h : InRange N w) :
    wrapW (BitVec.ofNat 32 N) w = w := by
  have _ := hN
  have hs : w.slt 0#32 = false := by
    have h0 := h.1
    simp only [BitVec.slt, BitVec.toInt_zero, decide_eq_false_iff_not, not_lt]
    exact h0
  unfold wrapW IntOp.cmpi
  simp only [hs]
  exact select_zero _ _

/-- A row number passes the lower bound test against 0 … -/
theorem sge_zero_of_inRange (N : Nat) (w : BitVec 32) (h : InRange N w) : IntOp.cmpi .sge w 0#32 = 1#1 := by
  have hs : (0#32 : BitVec 32).sle w = true := by
    have h0 := h.1
    simp only [BitVec.sle, BitVec.toInt_zero, decide_eq_true_eq]
    exact h0
  unfold IntOp.cmpi
  simp only [hs]
  rfl

/-- The signed value of the word of a natural number below 2³¹ is that number. -/
theorem toInt_ofNat_lt (a : Nat) (ha : a < 2 ^ 31) : (BitVec.ofNat 32 a).toInt = (a : Int) := by
  have hm : (BitVec.ofNat 32 a).toNat = a := by
    rw [BitVec.toNat_ofNat]; exact Nat.mod_eq_of_lt (by omega)
  rw [BitVec.toInt_eq_toNat_of_lt (by rw [hm]; omega), hm]

/-- … and the upper bound test against N - 1. -/
theorem sle_pred_of_inRange (N : Nat) (hN0 : 0 < N) (hN : N < 2 ^ 31) (w : BitVec 32) (h : InRange N w) :
    IntOp.cmpi .sle w (BitVec.ofNat 32 (N - 1)) = 1#1 := by
  have hs : w.sle (BitVec.ofNat 32 (N - 1)) = true := by
    have h1 := h.2
    simp only [BitVec.sle, toInt_ofNat_lt (N - 1) (by omega), decide_eq_true_eq]
    omega
  unfold IntOp.cmpi
  simp only [hs]
  rfl

/-- The clamped row of a row number is that number. -/
theorem crow_val_of_inRange (N : Nat) (hN : 0 < N) (w : BitVec 32) (h : InRange N w) :
    ((crow N hN w : Fin N) : Nat) = w.toInt.toNat := by
  have h0 := h.1
  have h1 := h.2
  show min w.toInt.toNat (N - 1) = w.toInt.toNat
  omega

end Cert.Take

end
-- ==== Proof.KerHost0.lean ====
/-
  What the arrays the edge kernel reads hold when it is launched, as functions of the program's arguments: the
  gathered table rows (for index words that are row numbers), the projected query table gathered per edge, and the
  transposed and reshaped weights.

  A take of rows is printed as a wrap of negative index words, a gather, and a guard that replaces a row by a fill
  value when its word is out of range; for words that are row numbers the wrap is the identity and the guard passes,
  so the take reads the named row. The query projection is a product over the 128 columns of the relation table.
  The remaining arrays are transposes and reshapes of single arguments.
-/
import proofs.«404059_j34840774705590_3_alg».proof.Proof.KerArgs
import proofs.«404059_j34840774705590_3_alg».proof.Proof.Rows
import proofs.«404059_j34840774705590_3_alg».proof.Proof.Take
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Host0

open Idealize.ShloMosaic Idealize.ShloMosaic.TcCoe Idealize.ShloMosaic.ValueIdx Cert.KernelIdeal Cert.KernelIdeal.Gen Cert.Rows
open Cert.KernelIdeal.Args

/-! ## Taking rows of a table, as the program prints it

The program wraps a negative index word by the table's height, turns the index vector into a column, gathers the
rows the column names, and keeps a gathered row only where the wrapped word lies between 0 and the last row (a
reduction by "and" over the column's unit axis); elsewhere it writes a fill value. For index words that are row
numbers nothing is wrapped, every test passes, and the result is the gathered row. -/

section Take
variable {α : Type} {N E C : Nat}

/-- The column of wrapped index words. -/
def wrapCol (b1 : S_.BroadcastsInDim ⟨1, ![E]⟩ (![] : Fin S_.rank → Fin (⟨1, ![E]⟩ : Shape).rank))
    (b2 : (⟨1, ![E]⟩ : Shape).BroadcastsInDim ⟨2, ![E, 1]⟩ (![0] : Fin 1 → Fin 2))
    (Nw : BitVec 32) (idx : IVec ⟨1, ![E]⟩ 32) : IVec ⟨2, ![E, 1]⟩ 32 :=
  broadcastInDim ⟨2, ![E, 1]⟩ ![0] b2
    (select (cmpi .slt idx (broadcastInDim ⟨1, ![E]⟩ ![] b1 (constantI S_ 32 0#32)))
      (addi idx (broadcastInDim ⟨1, ![E]⟩ ![] b1 (constantI S_ 32 Nw))) idx)

/-- Per index word: does the wrapped word lie between 0 and the last row? -/
def inBounds (b3 : S_.BroadcastsInDim ⟨2, ![E, 1]⟩ (![] : Fin S_.rank → Fin (⟨2, ![E, 1]⟩ : Shape).rank))
    (b4 : S1.BroadcastsInDim S1x1 (![1] : Fin 1 → Fin 2))
    (b5 : S1x1.BroadcastsInDim ⟨2, ![E, 1]⟩ (![0, 1] : Fin 2 → Fin 2))
    (r : (⟨2, ![E, 1]⟩ : Shape).ReducesTo [1] ⟨1, ![E]⟩) (hS : 0 < S_.numel)
    (Mw : BitVec 32) (I : IVec ⟨2, ![E, 1]⟩ 32) : IVec ⟨1, ![E]⟩ 1 :=
  Host.reduce IntOp.andi
    (andi (cmpi .sge I (broadcastInDim ⟨2, ![E, 1]⟩ ![] b3 (constantI S_ 32 0#32)))
      (cmpi .sle I (broadcastInDim ⟨2, ![E, 1]⟩ ![0, 1] b5 (broadcastInDim S1x1 ![1] b4 (constantI S1 32 Mw)))))
    (constantI S_ 1 1#1) r hS

/-- The rows of `x` the index words name, the fill value where a word is out of range. -/
def takeRows (b1 : S_.BroadcastsInDim ⟨1, ![E]⟩ (![] : Fin S_.rank → Fin (⟨1, ![E]⟩ : Shape).rank))
    (b2 : (⟨1, ![E]⟩ : Shape).BroadcastsInDim ⟨2, ![E, 1]⟩ (![0] : Fin 1 → Fin 2))
    (b3 : S_.BroadcastsInDim ⟨2, ![E, 1]⟩ (![] : Fin S_.rank → Fin (⟨2, ![E, 1]⟩ : Shape).rank))
    (b4 : S1.BroadcastsInDim S1x1 (![1] : Fin 1 → Fin 2))
    (b5 : S1x1.BroadcastsInDim ⟨2, ![E, 1]⟩ (![0, 1] : Fin 2 → Fin 2))
    (r : (⟨2, ![E, 1]⟩ : Shape).ReducesTo [1] ⟨1, ![E]⟩) (hS : 0 < S_.numel)
    (G : GatherDims ⟨2, ![N, C]⟩ ⟨2, ![E, 1]⟩ ⟨2, ![E, C]⟩)
    (b6 : (⟨1, ![E]⟩ : Shape).BroadcastsInDim ⟨2, ![E, C]⟩ (![0] : Fin 1 → Fin 2))
    (Nw Mw : BitVec 32) (x : (⟨2, ![N, C]⟩ : Shape).Idx → α) (idx : IVec ⟨1, ![E]⟩ 32)
    (fill : (⟨2, ![E, C]⟩ : Shape).Idx → α) : (⟨2, ![E, C]⟩ : Shape).Idx → α :=
  select (broadcastInDim ⟨2, ![E, C]⟩ ![0] b6 (inBounds b3 b4 b5 r hS Mw (wrapCol b1 b2 Nw idx)))
    (Host.gather G x (wrapCol b1 b2 Nw idx)) fill

/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A reduction by "and", started at 1, of an array of 1s is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_one x hx _

/-- The take read at (e, k), for index words that are row numbers: row `idx[e]` of the table, column k. -/
theorem takeRows_apply (hN0 : 0 < N) (hN : N < 2 ^ 31)
    (b1 : S_.BroadcastsInDim ⟨1, ![E]⟩ (![] : Fin S_.rank → Fin (⟨1, ![E]⟩ : Shape).rank))
    (b2 : (⟨1, ![E]⟩ : Shape).BroadcastsInDim ⟨2, ![E, 1]⟩ (![0] : Fin 1 → Fin 2))
    (b3 : S_.BroadcastsInDim ⟨2, ![E, 1]⟩ (![] : Fin S_.rank → Fin (⟨2, ![E, 1]⟩ : Shape).rank))
    (b4 : S1.BroadcastsInDim S1x1 (![1] : Fin 1 → Fin 2))
    (b5 : S1x1.BroadcastsInDim ⟨2, ![E, 1]⟩ (![0, 1] : Fin 2 → Fin 2))
    (r : (⟨2, ![E, 1]⟩ : Shape).ReducesTo [1] ⟨1, ![E]⟩) (hS : 0 < S_.numel)
    (wf : GatherDims.WF ⟨2, ![N, C]⟩ ⟨2, ![E, 1]⟩ ⟨2, ![E, C]⟩ [1] [0] [] [0] [] 1 ![1, C])
    (b6 : (⟨1, ![E]⟩ : Shape).BroadcastsInDim ⟨2, ![E, C]⟩ (![0] : Fin 1 → Fin 2))
    (x : (⟨2, ![N, C]⟩ : Shape).Idx → α) (idx : IVec ⟨1, ![E]⟩ 32) (fill : (⟨2, ![E, C]⟩ : Shape).Idx → α)
    (h : ∀ i, InRange N (idx i)) (e : Fin E) (k : Fin C) :
    takeRows b1 b2 b3 b4 b5 r hS (Take.rowTakeDims N E C wf) b6 (BitVec.ofNat 32 N) (BitVec.ofNat 32 (N - 1)) x idx fill
        (ix2 e k)
      = x (ix2 (crow N hN0 (wrapW (BitVec.ofNat 32 N) (idx (ix1 e)))) k) := by
  -- the wrapped column at (i, 0) is the wrapped word of entry i
  have hw : ∀ i : (⟨2, ![E, 1]⟩ : Shape).Idx,
      wrapCol b1 b2 (BitVec.ofNat 32 N) idx i = wrapW (BitVec.ofNat 32 N) (idx (ix1 (n := E) (i 0))) := fun i => by
    unfold wrapCol
    refine (broadcastInDim_apply _ b2 _ i (ix1 (n := E) (i 0)) fun a => ?_).trans rfl
    match a with
    | ⟨0, _⟩ =>
      show (i 0).val = if E = 1 then 0 else (i 0).val
      split_ifs with hE
      · have : (i 0).val < E := (i 0).isLt
        omega
      · rfl
  -- every bound test passes
  have hm : ∀ j, inBounds b3 b4 b5 r hS (BitVec.ofNat 32 (N - 1)) (wrapCol b1 b2 (BitVec.ofNat 32 N) idx) j = 1#1 :=
    fun j => by
      unfold inBounds
      refine reduce_andi_one _ _ r hS (fun i => ?_) rfl j
      show IntOp.andi (IntOp.cmpi .sge (wrapCol b1 b2 (BitVec.ofNat 32 N) idx i) 0#32)
        (IntOp.cmpi .sle (wrapCol b1 b2 (BitVec.ofNat 32 N) idx i) (BitVec.ofNat 32 (N - 1))) = 1#1
      rw [hw i, Take.wrapW_of_inRange N hN _ (h _), Take.sge_zero_of_inRange N _ (h _),
        Take.sle_pred_of_inRange N hN0 hN _ (h _)]
      decide
  have hb : broadcastInDim ⟨2, ![E, C]⟩ ![0] b6
      (inBounds b3 b4 b5 r hS (BitVec.ofNat 32 (N - 1)) (wrapCol b1 b2 (BitVec.ofNat 32 N) idx)) (ix2 e k) = 1#1 := hm _
  unfold takeRows
  rw [select_apply, hb, select_one, Take.gather_rows_apply hN0 wf, hw]
  rfl

end Take

/-! ## The four takes, over any contents

Each take is twenty-three operations. Its first nineteen compute the column of wrapped index words, the bound
tests and the gathered rows; the last four broadcast the tests along the rows and keep a gathered row where they
passed. The long takes are read in these two parts; the short one (the 256 query rows) in one. -/

section Generic
variable (V : Valuation τ sig (Elt Ideal))

/-- The head take's bound tests, after its first nineteen operations. -/
theorem take0_mask (sub : IVec S500000 32) (hi : V (Proc.devRef .tc main_arg15) = sub) :
    StableHlo.after ((hostOps0 (F := Ideal)).take 19) V (Proc.devRef .tc main_call0_v12)
      = inBounds (E := 500000) bcast_S_S500000x1 bcast_S1_S1x1_1 bcast_S1x1_S500000x1_0_1
          reducesTo_S500000x1_S500000_d1 h_S_ 199999#32
          (wrapCol (E := 500000) bcast_S_S500000 bcast_S500000_S500000x1_0 200000#32 sub) := by
  subst hi
  dsimp only [hostOps0, List.take]
  after_results_simp
  simp only [cast_cast, cast_eq]
  rfl

/-- The head take's gathered rows, after its first nineteen operations. -/
theorem take0_rows (hidden : Vec Ideal S200000x128 .f32) (sub : IVec S500000 32)
    (ht : V (Proc.devRef .tc main_arg0) = hidden) (hi : V (Proc.devRef .tc main_arg15) = sub) :
    StableHlo.after ((hostOps0 (F := Ideal)).take 19) V (Proc.devRef .tc main_call0_v13)
      = Host.gather gather_S200000x128_S500000x1_S500000x128_1_0_n_n_0_1_1128 hidden
          (wrapCol (E := 500000) bcast_S_S500000 bcast_S500000_S500000x1_0 200000#32 sub) := by
  subst ht hi
  dsimp only [hostOps0, List.take]
  after_results_simp
  simp only [cast_cast, cast_eq]
  rfl

/-- The head take's last four operations keep a gathered row where the tests passed. -/
theorem take0_keep (mask : IVec S500000 1) (g : Vec Ideal S500000x128 .f32)
    (hm : V (Proc.devRef .tc main_call0_v12) = mask) (hg : V (Proc.devRef .tc main_call0_v13) = g) :
    StableHlo.after ((hostOps0 (F := Ideal)).drop 19) V (Proc.devRef .tc main_v0)
      = select (broadcastInDim S500000x128 ![0] bcast_S500000_S500000x128_0 mask) g
          (broadcastInDim S500000x128 ![] bcast_S_S500000x128 (constant (F := Ideal) S_ .f32 0x7FC00000#32)) := by
  subst hm hg
  dsimp only [hostOps0, List.drop]
  after_results_simp
  rfl

theorem take0_of (hidden : Vec Ideal S200000x128 .f32) (sub : IVec S500000 32)
    (ht : V (Proc.devRef .tc main_arg0) = hidden) (hi : V (Proc.devRef .tc main_arg15) = sub) :
    StableHlo.after hostOps0 V (Proc.devRef .tc main_v0)
      = takeRows (N := 200000) (E := 500000) (C := 128) bcast_S_S500000 bcast_S500000_S500000x1_0 bcast_S_S500000x1
          bcast_S1_S1x1_1 bcast_S1x1_S500000x1_0_1 reducesTo_S500000x1_S500000_d1 h_S_
          gather_S200000x128_S500000x1_S500000x128_1_0_n_n_0_1_1128 bcast_S500000_S500000x128_0 200000#32 199999#32
          hidden sub (broadcastInDim S500000x128 ![] bcast_S_S500000x128 (constant (F := Ideal) S_ .f32 0x7FC00000#32)) := by
  rw [← List.take_append_drop 19 (hostOps0 (F := Ideal)), StableHlo.after_append]
  exact take0_keep _ _ _ (take0_mask V sub hi) (take0_rows V hidden sub ht hi)

/-- The relation take's bound tests, after its first nineteen operations. -/
theorem take1_mask (rel : IVec S500000 32) (hi : V (Proc.devRef .tc main_arg16) = rel) :
    StableHlo.after ((hostOps0_1 (F := Ideal)).take 19) V (Proc.devRef .tc main_call1_v12)
      = inBounds (E := 500000) bcast_S_S500000x1 bcast_S1_S1x1_1 bcast_S1x1_S500000x1_0_1
          reducesTo_S500000x1_S500000_d1 h_S_ 66#32
          (wrapCol (E := 500000) bcast_S_S500000 bcast_S500000_S500000x1_0 67#32 rel) := by
  subst hi
  dsimp only [hostOps0_1, List.take]
  after_results_simp
  simp only [cast_cast, cast_eq]
  rfl

/-- The relation take's gathered rows, after its first nineteen operations. -/
theorem take1_rows (tbl : Vec Ideal S67x128 .f32) (rel : IVec S500000 32)
    (ht : V (Proc.devRef .tc main_arg1) = tbl) (hi : V (Proc.devRef .tc main_arg16) = rel) :
    StableHlo.after ((hostOps0_1 (F := Ideal)).take 19) V (Proc.devRef .tc main_call1_v13)
      = Host.gather gather_S67x128_S500000x1_S500000x128_1_0_n_n_0_1_1128 tbl
          (wrapCol (E := 500000) bcast_S_S500000 bcast_S500000_S500000x1_0 67#32 rel) := by
  subst ht hi
  dsimp only [hostOps0_1, List.take]
  after_results_simp
  simp only [cast_cast, cast_eq]
  rfl

/-- The relation take's last four operations keep a gathered row where the tests passed. -/
theorem take1_keep (mask : IVec S500000 1) (g : Vec Ideal S500000x128 .f32)
    (hm : V (Proc.devRef .tc main_call1_v12) = mask) (hg : V (Proc.devRef .tc main_call1_v13) = g) :
    StableHlo.after ((hostOps0_1 (F := Ideal)).drop 19) V (Proc.devRef .tc main_v1)
      = select (broadcastInDim S500000x128 ![0] bcast_S500000_S500000x128_0 mask) g
          (broadcastInDim S500000x128 ![] bcast_S_S500000x128 (constant (F := Ideal) S_ .f32 0x7FC00000#32)) := by
  subst hm hg
  dsimp only [hostOps0_1, List.drop]
  after_results_simp
  rfl

theorem take1_of (tbl : Vec Ideal S67x128 .f32) (rel : IVec S500000 32)
    (ht : V (Proc.devRef .tc main_arg1) = tbl) (hi : V (Proc.devRef .tc main_arg16) = rel) :
    StableHlo.after hostOps0_1 V (Proc.devRef .tc main_v1)
      = takeRows (N := 67) (E := 500000) (C := 128) bcast_S_S500000 bcast_S500000_S500000x1_0 bcast_S_S500000x1
          bcast_S1_S1x1_1 bcast_S1x1_S500000x1_0_1 reducesTo_S500000x1_S500000_d1 h_S_
          gather_S67x128_S500000x1_S500000x128_1_0_n_n_0_1_1128 bcast_S500000_S500000x128_0 67#32 66#32
          tbl rel (broadcastInDim S500000x128 ![] bcast_S_S500000x128 (constant (F := Ideal) S_ .f32 0x7FC00000#32)) := by
  rw [← List.take_append_drop 19 (hostOps0_1 (F := Ideal)), StableHlo.after_append]
  exact take1_keep _ _ _ (take1_mask V rel hi) (take1_rows V tbl rel ht hi)

theorem take3_of (tbl : Vec Ideal S67x128 .f32) (qrel : IVec S256 32)
    (ht : V (Proc.devRef .tc main_arg1) = tbl) (hi : V (Proc.devRef .tc main_arg19) = qrel) :
    StableHlo.after hostOps0_3 V (Proc.devRef .tc main_v3)
      = takeRows (N := 67) (E := 256) (C := 128) bcast_S_S256 bcast_S256_S256x1_0 bcast_S_S256x1
          bcast_S1_S1x1_1 bcast_S1x1_S256x1_0_1 reducesTo_S256x1_S256_d1 h_S_
          gather_S67x128_S256x1_S256x128_1_0_n_n_0_1_1128 bcast_S256_S256x128_0 67#32 66#32
          tbl qrel (broadcastInDim S256x128 ![] bcast_S_S256x128 (constant (F := Ideal) S_ .f32 0x7FC00000#32)) := by
  subst ht hi
  after_results_simp
  simp only [cast_cast, cast_eq]
  rfl

/-- The per-edge query take's bound tests, after its first nineteen operations. -/
theorem take5_mask (eb : IVec S500000 32) (hi : V (Proc.devRef .tc main_arg18) = eb) :
    StableHlo.after ((hostOps0_5 (F := Ideal)).take 19) V (Proc.devRef .tc main_call3_v12)
      = inBounds (E := 500000) bcast_S_S500000x1 bcast_S1_S1x1_1 bcast_S1x1_S500000x1_0_1
          reducesTo_S500000x1_S500000_d1 h_S_ 255#32
          (wrapCol (E := 500000) bcast_S_S500000 bcast_S500000_S500000x1_0 256#32 eb) := by
  subst hi
  dsimp only [hostOps0_5, List.take]
  after_results_simp
  simp only [cast_cast, cast_eq]
  rfl

/-- The per-edge query take's gathered rows, after its first nineteen operations. -/
theorem take5_rows (proj : Vec Ideal S256x64 .f32) (eb : IVec S500000 32)
    (ht : V (Proc.devRef .tc main_v5) = proj) (hi : V (Proc.devRef .tc main_arg18) = eb) :
    StableHlo.after ((hostOps0_5 (F := Ideal)).take 19) V (Proc.devRef .tc main_call3_v13)
      = Host.gather gather_S256x64_S500000x1_S500000x64_1_0_n_n_0_1_164 proj
          (wrapCol (E := 500000) bcast_S_S500000 bcast_S500000_S500000x1_0 256#32 eb) := by
  subst ht hi
  dsimp only [hostOps0_5, List.take]
  after_results_simp
  simp only [cast_cast, cast_eq]
  rfl

/-- The per-edge query take's last four operations keep a gathered row where the tests passed. -/
theorem take5_keep (mask : IVec S500000 1) (g : Vec Ideal S500000x64 .f32)
    (hm : V (Proc.devRef .tc main_call3_v12) = mask) (hg : V (Proc.devRef .tc main_call3_v13) = g) :
    StableHlo.after ((hostOps0_5 (F := Ideal)).drop 19) V (Proc.devRef .tc main_v6)
      = select (broadcastInDim S500000x64 ![0] bcast_S500000_S500000x64_0 mask) g
          (broadcastInDim S500000x64 ![] bcast_S_S500000x64 (constant (F := Ideal) S_ .f32 0x7FC00000#32)) := by
  subst hm hg
  dsimp only [hostOps0_5, List.drop]
  after_results_simp
  rfl

theorem take5_of (proj : Vec Ideal S256x64 .f32) (eb : IVec S500000 32)
    (ht : V (Proc.devRef .tc main_v5) = proj) (hi : V (Proc.devRef .tc main_arg18) = eb) :
    StableHlo.after hostOps0_5 V (Proc.devRef .tc main_v6)
      = takeRows (N := 256) (E := 500000) (C := 64) bcast_S_S500000 bcast_S500000_S500000x1_0 bcast_S_S500000x1
          bcast_S1_S1x1_1 bcast_S1x1_S500000x1_0_1 reducesTo_S500000x1_S500000_d1 h_S_
          gather_S256x64_S500000x1_S500000x64_1_0_n_n_0_1_164 bcast_S500000_S500000x64_0 256#32 255#32
          proj eb (broadcastInDim S500000x64 ![] bcast_S_S500000x64 (constant (F := Ideal) S_ .f32 0x7FC00000#32)) := by
  rw [← List.take_append_drop 19 (hostOps0_5 (F := Ideal)), StableHlo.after_append]
  exact take5_keep _ _ _ (take5_mask V eb hi) (take5_rows V proj eb ht hi)

end Generic

/-! ## The four takes at the printed records -/

section TakeAt
variable {α : Type}

theorem take_sub_apply (hidden : (⟨2, ![200000, 128]⟩ : Shape).Idx → α) (sub : IVec S500000 32)
    (fill : (⟨2, ![500000, 128]⟩ : Shape).Idx → α) (h : ∀ i, InRange 200000 (sub i)) (e : Fin 500000) (k : Fin 128) :
    takeRows (N := 200000) (E := 500000) (C := 128) bcast_S_S500000 bcast_S500000_S500000x1_0 bcast_S_S500000x1
        bcast_S1_S1x1_1 bcast_S1x1_S500000x1_0_1 reducesTo_S500000x1_S500000_d1 h_S_
        gather_S200000x128_S500000x1_S500000x128_1_0_n_n_0_1_1128 bcast_S500000_S500000x128_0 200000#32 199999#32
        hidden sub fill (ix2 e k)
      = hidden (ix2 (subRow sub e) k) :=
  takeRows_apply (N := 200000) (E := 500000) (C := 128) (by decide) (by decide) _ _ _ _ _ _ _ _ _ hidden sub fill h e k

theorem take_rel_apply (tbl : (⟨2, ![67, 128]⟩ : Shape).Idx → α) (rel : IVec S500000 32)
    (fill : (⟨2, ![500000, 128]⟩ : Shape).Idx → α) (h : ∀ i, InRange 67 (rel i)) (e : Fin 500000) (k : Fin 128) :
    takeRows (N := 67) (E := 500000) (C := 128) bcast_S_S500000 bcast_S500000_S500000x1_0 bcast_S_S500000x1
        bcast_S1_S1x1_1 bcast_S1x1_S500000x1_0_1 reducesTo_S500000x1_S500000_d1 h_S_
        gather_S67x128_S500000x1_S500000x128_1_0_n_n_0_1_1128 bcast_S500000_S500000x128_0 67#32 66#32
        tbl rel fill (ix2 e k)
      = tbl (ix2 (relRow rel e) k) :=
  takeRows_apply (N := 67) (E := 500000) (C := 128) (by decide) (by decide) _ _ _ _ _ _ _ _ _ tbl rel fill h e k

theorem take_qrel_apply (tbl : (⟨2, ![67, 128]⟩ : Shape).Idx → α) (qrel : IVec S256 32)
    (fill : (⟨2, ![256, 128]⟩ : Shape).Idx → α) (h : ∀ i, InRange 67 (qrel i)) (b : Fin 256) (k : Fin 128) :
    takeRows (N := 67) (E := 256) (C := 128) bcast_S_S256 bcast_S256_S256x1_0 bcast_S_S256x1
        bcast_S1_S1x1_1 bcast_S1x1_S256x1_0_1 reducesTo_S256x1_S256_d1 h_S_
        gather_S67x128_S256x1_S256x128_1_0_n_n_0_1_1128 bcast_S256_S256x128_0 67#32 66#32
        tbl qrel fill (ix2 b k)
      = tbl (ix2 (qRow qrel b) k) :=
  takeRows_apply (N := 67) (E := 256) (C := 128) (by decide) (by decide) _ _ _ _ _ _ _ _ _ tbl qrel fill h b k

theorem take_batch_apply (proj : (⟨2, ![256, 64]⟩ : Shape).Idx → α) (eb : IVec S500000 32)
    (fill : (⟨2, ![500000, 64]⟩ : Shape).Idx → α) (h : ∀ i, InRange 256 (eb i)) (e : Fin 500000) (a : Fin 64) :
    takeRows (N := 256) (E := 500000) (C := 64) bcast_S_S500000 bcast_S500000_S500000x1_0 bcast_S_S500000x1
        bcast_S1_S1x1_1 bcast_S1x1_S500000x1_0_1 reducesTo_S500000x1_S500000_d1 h_S_
        gather_S256x64_S500000x1_S500000x64_1_0_n_n_0_1_164 bcast_S500000_S500000x64_0 256#32 255#32
        proj eb fill (ix2 e a)
      = proj (ix2 (batchRow eb e) a) :=
  takeRows_apply (N := 256) (E := 500000) (C := 64) (by decide) (by decide) _ _ _ _ _ _ _ _ _ proj eb fill h e a

end TakeAt

/-! ## The query projection: the gathered query rows times the transposed weight

At the ideal instance the host's product is the sum over the contracted axis; its operand indices at output (b, a)
and contraction coordinate k are (b, k) and (k, a). -/

theorem projL_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide),
    dif_pos (show (0 : Fin S256x128.rank) ∈ dot_S256x128_S128x64_S256x64_1_0_0_1_n_n.lhsNonContracting by decide)]
  rfl
theorem projL_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem projR_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem projR_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide),
    dif_pos (show (1 : Fin S128x64.rank) ∈ dot_S256x128_S128x64_S256x64_1_0_0_1_n_n.rhsNonContracting by decide)]
  rfl

theorem proj_apply (l : FVec Ideal S256x128 .f32) (r : FVec Ideal S128x64 .f32) (b : Fin 256) (a : Fin 64) :
    Host.dotGeneral dot_S256x128_S128x64_S256x64_1_0_0_1_n_n none l r (ix2 b a) = ∑ k : Fin 128, l (ix2 b k) * r (ix2 k a) := by
  simp only [Host.dotGeneral]
  rw [Ideal.dotGeneral_apply, ← Equiv.sum_comp (contrEquiv1 dot_S256x128_S128x64_S256x64_1_0_0_1_n_n 128 rfl rfl).symm]
  refine Finset.sum_congr rfl fun k _ => ?_
  have hk := contrEquiv1_symm_val dot_S256x128_S128x64_S256x64_1_0_0_1_n_n 128 rfl rfl k
  have el : dot_S256x128_S128x64_S256x64_1_0_0_1_n_n.lhsIdx (ix2 b a)
      ((contrEquiv1 dot_S256x128_S128x64_S256x64_1_0_0_1_n_n 128 rfl rfl).symm k) = ix2 b k := funext fun x => Fin.ext (by
    match x with
    | ⟨0, _⟩ => exact projL_0 _ _
    | ⟨1, _⟩ => exact (projL_1 _ _).trans hk)
  have er : dot_S256x128_S128x64_S256x64_1_0_0_1_n_n.rhsIdx (ix2 b a)
      ((contrEquiv1 dot_S256x128_S128x64_S256x64_1_0_0_1_n_n 128 rfl rfl).symm k) = ix2 k a := funext fun x => Fin.ext (by
    match x with
    | ⟨0, _⟩ => exact (projR_0 _ _).trans hk
    | ⟨1, _⟩ => exact projR_1 _ _)
  rw [el, er]

/-! ## The short stretches, over any contents -/

section Generic2
variable (V : Valuation τ sig (Elt Ideal))

theorem v2_of (x : FVec Ideal S500000x128 .f32) (hx : V (Proc.devRef .tc main_v1) = x) :
    StableHlo.after hostOps0_2 V (Proc.devRef .tc main_v2) = truncf .bf16 x bitsLt_bf16_f32 := by
  subst hx
  after_results

theorem v5_of (t : FVec Ideal S256x128 .f32) (w : FVec Ideal S64x128 .f32)
    (ht : V (Proc.devRef .tc main_v3) = t) (hw : V (Proc.devRef .tc main_arg4) = w) :
    StableHlo.after hostOps0_4 V (Proc.devRef .tc main_v5)
      = Host.dotGeneral dot_S256x128_S128x64_S256x64_1_0_0_1_n_n none t
          (transpose S128x64 [1, 0] w transposes_S64x128_S128x64_1_0) := by
  subst ht hw
  after_results

theorem v7_of (x : FVec Ideal S500000x64 .f32) (hx : V (Proc.devRef .tc main_v6) = x) :
    StableHlo.after hostOps0_6 V (Proc.devRef .tc main_v7) = truncf .bf16 x bitsLt_bf16_f32 := by
  subst hx
  after_results

theorem v8_of (w : FVec Ideal S64x128 .f32) (hw : V (Proc.devRef .tc main_arg2) = w) :
    StableHlo.after hostOps0_6 V (Proc.devRef .tc main_v8) = transpose S128x64 [1, 0] w transposes_S64x128_S128x64_1_0 := by
  subst hw
  after_results

theorem v9_of (w : FVec Ideal S64x128 .f32) (hw : V (Proc.devRef .tc main_arg3) = w) :
    StableHlo.after hostOps0_6 V (Proc.devRef .tc main_v9) = transpose S128x64 [1, 0] w transposes_S64x128_S128x64_1_0 := by
  subst hw
  after_results

theorem v10_of (x : FVec Ideal S64 .f32) (hx : V (Proc.devRef .tc main_arg5) = x) :
    StableHlo.after hostOps0_6 V (Proc.devRef .tc main_v10) = shapeCast S1x64 x shapeCasts_S64_S1x64 := by
  subst hx
  after_results
  rfl

theorem v11_of (x : FVec Ideal S1 .f32) (hx : V (Proc.devRef .tc main_arg7) = x) :
    StableHlo.after hostOps0_6 V (Proc.devRef .tc main_v11) = shapeCast S1x1 x shapeCasts_S1_S1x1 := by
  subst hx
  after_results
  rfl

end Generic2

/-! ## The contents at the edge kernel's entry

The contents at each boundary are the previous boundary's with one stretch of host operations applied. A buffer a
stretch does not write is read one boundary earlier; an argument is written by no stretch and is read at the
launch. -/

/-- One boundary back, over a stretch that does not write the buffer read. -/
local macro "back1" : tactic =>
  `(tactic| refine (StableHlo.after_of_forall_not_mem _ _ (List.forall_iff_forall_mem.mp (by
      simp only [hostOps0, hostOps0_1, hostOps0_2, hostOps0_3, hostOps0_4, hostOps0_5, hostOps0_6,
        List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))).trans ?_)

variable (m : (ℓ : Loc nD τ sig) → Buf (Elt Ideal) ℓ) (ρ : Dev nD → PrngReg) (c : Dev nD)

theorem arg1_at1 : W1 m ρ c (Proc.devRef .tc main_arg1) = a1 m c := by
  back1; rfl
theorem arg16_at1 : W1 m ρ c (Proc.devRef .tc main_arg16) = a16 m c := by
  back1; rfl
theorem arg1_at3 : W3 m ρ c (Proc.devRef .tc main_arg1) = a1 m c := by
  back1; back1; exact arg1_at1 m ρ c
theorem arg19_at3 : W3 m ρ c (Proc.devRef .tc main_arg19) = a19 m c := by
  back1; back1; back1; rfl
theorem arg4_at4 : W4 m ρ c (Proc.devRef .tc main_arg4) = a4 m c := by
  back1; back1; back1; back1; rfl
theorem arg18_at5 : W5 m ρ c (Proc.devRef .tc main_arg18) = a18 m c := by
  back1; back1; back1; back1; back1; rfl
theorem arg2_at6 : W6 m ρ c (Proc.devRef .tc main_arg2) = a2 m c := by
  back1; back1; back1; back1; back1; back1; rfl
theorem arg3_at6 : W6 m ρ c (Proc.devRef .tc main_arg3) = a3 m c := by
  back1; back1; back1; back1; back1; back1; rfl
theorem arg5_at6 : W6 m ρ c (Proc.devRef .tc main_arg5) = a5 m c := by
  back1; back1; back1; back1; back1; back1; rfl
theorem arg7_at6 : W6 m ρ c (Proc.devRef .tc main_arg7) = a7 m c := by
  back1; back1; back1; back1; back1; back1; rfl

/-- The gathered head rows, written by the first stretch, are untouched by the six after it. -/
theorem v0_at7 : W7 m ρ c (Proc.devRef .tc main_v0) = W1 m ρ c (Proc.devRef .tc main_v0) := by
  back1; back1; back1; back1; back1; back1; rfl
/-- The gathered relation rows, written by the third stretch, are untouched by the four after it. -/
theorem v2_at7 : W7 m ρ c (Proc.devRef .tc main_v2) = W3 m ρ c (Proc.devRef .tc main_v2) := by
  back1; back1; back1; back1; rfl

theorem v0_eq (h : ∀ i, InRange 200000 (a15 m c i)) (e : Fin 500000) (k : Fin 128) :
    W7 m ρ c (Proc.devRef .tc main_v0) (ix2 e k) = a0 m c (ix2 (subRow (a15 m c) e) k) := by
  rw [v0_at7, show W1 m ρ c (Proc.devRef .tc main_v0) = _ from take0_of (W0 m ρ c) (a0 m c) (a15 m c) rfl rfl]
  exact take_sub_apply (a0 m c) (a15 m c) _ h e k

theorem v2_eq (h : ∀ i, InRange 67 (a16 m c i)) (e : Fin 500000) (k : Fin 128) :
    W7 m ρ c (Proc.devRef .tc main_v2) (ix2 e k) = a1 m c (ix2 (relRow (a16 m c) e) k) := by
  rw [v2_at7, show W3 m ρ c (Proc.devRef .tc main_v2) = _ from v2_of (W2 m ρ c) _
    (take1_of (W1 m ρ c) (a1 m c) (a16 m c) (arg1_at1 m ρ c) (arg16_at1 m ρ c)), truncf_apply]
  exact take_rel_apply (a1 m c) (a16 m c) _ h e k

theorem v7_eq (hb : ∀ i, InRange 256 (a18 m c i)) (hq : ∀ i, InRange 67 (a19 m c i)) (e : Fin 500000) (a : Fin 64) :
    W7 m ρ c (Proc.devRef .tc main_v7) (ix2 e a)
      = ∑ k : Fin 128, a1 m c (ix2 (qRow (a19 m c) (batchRow (a18 m c) e)) k)
          * (transpose S128x64 [1, 0] (a4 m c) transposes_S64x128_S128x64_1_0) (ix2 k a) := by
  have e3 := take3_of (W3 m ρ c) (a1 m c) (a19 m c) (arg1_at3 m ρ c) (arg19_at3 m ρ c)
  have e5 := v5_of (W4 m ρ c) _ (a4 m c) e3 (arg4_at4 m ρ c)
  have e6 := take5_of (W5 m ρ c) _ (a18 m c) e5 (arg18_at5 m ρ c)
  rw [show W7 m ρ c (Proc.devRef .tc main_v7) = _ from v7_of (W6 m ρ c) _ e6, truncf_apply,
    take_batch_apply _ (a18 m c) _ hb e a, proj_apply]
  refine Finset.sum_congr (M := Ideal .f32) rfl fun k _ => ?_
  rw [take_qrel_apply (a1 m c) (a19 m c) _ hq _ k]

theorem v8_eq : W7 m ρ c (Proc.devRef .tc main_v8) = transpose S128x64 [1, 0] (a2 m c) transposes_S64x128_S128x64_1_0 :=
  v8_of (W6 m ρ c) (a2 m c) (arg2_at6 m ρ c)
theorem v9_eq : W7 m ρ c (Proc.devRef .tc main_v9) = transpose S128x64 [1, 0] (a3 m c) transposes_S64x128_S128x64_1_0 :=
  v9_of (W6 m ρ c) (a3 m c) (arg3_at6 m ρ c)
theorem v10_eq (a : Fin 64) : W7 m ρ c (Proc.devRef .tc main_v10) (ix2 0 a) = a5 m c (ix1 a) := by
  rw [show W7 m ρ c (Proc.devRef .tc main_v10) = _ from v10_of (W6 m ρ c) (a5 m c) (arg5_at6 m ρ c)]
  exact shapeCast_a_1a_apply (a5 m c) shapeCasts_S64_S1x64 0 a
theorem arg6_eq : W7 m ρ c (Proc.devRef .tc main_arg6) = a6 m c := by
  back1; back1; back1; back1; back1; back1; back1; rfl
theorem v11_eq : W7 m ρ c (Proc.devRef .tc main_v11) (ix2 0 0) = a7 m c (ix1 0) := by
  rw [show W7 m ρ c (Proc.devRef .tc main_v11) = _ from v11_of (W6 m ρ c) (a7 m c) (arg7_at6 m ρ c)]
  exact shapeCast_a_1a_apply (a7 m c) shapeCasts_S1_S1x1 0 0

end Cert.KernelIdeal.Host0

end
-- ==== Proof.KerHost1.lean ====
/-
  What the arrays the node kernel reads hold when it is launched — the scatter-added messages and the previous state,
  each padded with zero rows to a whole number of blocks, and the transposed and reshaped weights — and the program's
  result: the first 200000 entries of the row-major flattening of the node kernel's packed output.

  Every buffer is read by walking the boundary contents back: a stretch of host operations that does not write the
  buffer leaves it as it was, a launch leaves every buffer that is not one of its arrays as it was, and at the stretch
  that writes the buffer its contents are the operation applied to the previous boundary's contents of the operands.
-/
import proofs.«404059_j34840774705590_3_alg».proof.Proof.KerArgs

import Idealize.ShloMosaic.Lib.ValueIdx
import Idealize.ShloMosaic.Lib.Pipeline.Value
import Idealize.ShloMosaic.Lib.ValueLayout
import Idealize.ShloMosaic.Lib.KernelVsHost
import Idealize.ShloMosaic.Lib.StableHlo.Run
import Idealize.ShloMosaic.PureOps.Ideal.Laws

noncomputable section

namespace Cert.KernelIdeal.Host1

open Idealize.ShloMosaic Idealize.ShloMosaic.TcCoe Idealize.ShloMosaic.ValueIdx Cert.KernelIdeal Cert.KernelIdeal.Gen
open Cert.KernelIdeal.Args

variable (m : (ℓ : Loc nD τ sig) → Buf (Elt Ideal) ℓ) (ρ : Dev nD → PrngReg) (c : Dev nD)

/-- The edge kernel's output array at the first launch's exit. -/
abbrev msgK : Vec Ideal S500000x128 .f32 := W8 m ρ c (Proc.devRef .tc main_v12)

/-- The value the two pads fill with: the integer zero converted to a float. -/
abbrev padV : FVec Ideal S_ .f32 := sitofp (F := Ideal) .f32 (constantI S_ 32 0#32)

/-! ## Walking a buffer back over what does not write it -/

/-- A buffer that no operation of a host stretch writes holds after the stretch what it held before: the stretch's
    operations are listed, each one's written buffer is read off, and each is a different reference. -/
local macro "skip_host" : tactic => `(tactic| (
  refine StableHlo.after_of_forall_not_mem _ _ (List.forall_iff_forall_mem.mp ?_)
  simp only [hostOps0, hostOps0_1, hostOps0_2, hostOps0_3, hostOps0_4, hostOps0_5, hostOps0_6, hostOps1, hostOps1_1,
    hostOps1_2, hostOps1_3, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option hygiene false in
/-- An argument array that neither the first seven host stretches nor the edge kernel's launch write holds at that
    launch's exit what was launched. -/
local macro "arg_at_W8" b:ident : term => `(
  (calc W8 m ρ c (Proc.devRef .tc $b)
    _ = W7 m ρ c (Proc.devRef .tc $b) := W8_of_ne m ρ c $b (by decide)
    _ = W6 m ρ c (Proc.devRef .tc $b) := by skip_host
    _ = W5 m ρ c (Proc.devRef .tc $b) := by skip_host
    _ = W4 m ρ c (Proc.devRef .tc $b) := by skip_host
    _ = W3 m ρ c (Proc.devRef .tc $b) := by skip_host
    _ = W2 m ρ c (Proc.devRef .tc $b) := by skip_host
    _ = W1 m ρ c (Proc.devRef .tc $b) := by skip_host
    _ = W0 m ρ c (Proc.devRef .tc $b) := by skip_host
    _ = m ((c : Thread nD τ).loc $b) := rfl))

set_option hygiene false in
/-- A buffer that the three short stretches before the node kernel's launch do not write holds at that launch's
    entry what it held after the stretch that follows the edge kernel. -/
local macro "W12_eq_W9" b:ident : term => `(
  (calc W12 m ρ c (Proc.devRef .tc $b)
    _ = W11 m ρ c (Proc.devRef .tc $b) := by skip_host
    _ = W10 m ρ c (Proc.devRef .tc $b) := by skip_host
    _ = W9 m ρ c (Proc.devRef .tc $b) := by skip_host))

theorem W8_arg8 : W8 m ρ c (Proc.devRef .tc main_arg8) = a8 m c := arg_at_W8 main_arg8
theorem W8_arg9 : W8 m ρ c (Proc.devRef .tc main_arg9) = a9 m c := arg_at_W8 main_arg9
theorem W8_arg10 : W8 m ρ c (Proc.devRef .tc main_arg10) = a10 m c := arg_at_W8 main_arg10
theorem W8_arg11 : W8 m ρ c (Proc.devRef .tc main_arg11) = a11 m c := arg_at_W8 main_arg11
theorem W8_arg12 : W8 m ρ c (Proc.devRef .tc main_arg12) = a12 m c := arg_at_W8 main_arg12
theorem W8_arg13 : W8 m ρ c (Proc.devRef .tc main_arg13) = a13 m c := arg_at_W8 main_arg13
theorem W8_arg14 : W8 m ρ c (Proc.devRef .tc main_arg14) = a14 m c := arg_at_W8 main_arg14
theorem W8_arg17 : W8 m ρ c (Proc.devRef .tc main_arg17) = a17 m c := arg_at_W8 main_arg17

/-! ## The stretch after the edge kernel -/

theorem W9_v16 : W9 m ρ c (Proc.devRef .tc main_v16)
    = transpose S128x128 [1, 0] (a8 m c) transposes_S128x128_S128x128_1_0 := by
  show StableHlo.after hostOps1 (W8 m ρ c) (Proc.devRef .tc main_v16) = _
  after_results
  rw [W8_arg8]

theorem W9_v17 : W9 m ρ c (Proc.devRef .tc main_v17)
    = transpose S128x384 [1, 0] (a9 m c) transposes_S384x128_S128x384_1_0 := by
  show StableHlo.after hostOps1 (W8 m ρ c) (Proc.devRef .tc main_v17) = _
  after_results
  rw [W8_arg9]

theorem W9_v18 : W9 m ρ c (Proc.devRef .tc main_v18)
    = transpose S128x384 [1, 0] (a10 m c) transposes_S384x128_S128x384_1_0 := by
  show StableHlo.after hostOps1 (W8 m ρ c) (Proc.devRef .tc main_v18) = _
  after_results
  rw [W8_arg10]

theorem W9_v19 : W9 m ρ c (Proc.devRef .tc main_v19) = shapeCast S1x384 (a11 m c) shapeCasts_S384_S1x384 := by
  show StableHlo.after hostOps1 (W8 m ρ c) (Proc.devRef .tc main_v19) = _
  after_results
  rw [W8_arg11]
  rfl

theorem W9_v20 : W9 m ρ c (Proc.devRef .tc main_v20) = shapeCast S1x384 (a12 m c) shapeCasts_S384_S1x384 := by
  show StableHlo.after hostOps1 (W8 m ρ c) (Proc.devRef .tc main_v20) = _
  after_results
  rw [W8_arg12]
  rfl

/-- The integer zero the first pad's fill value is converted from. -/
theorem W9_c : W9 m ρ c (Proc.devRef .tc main_c) = constantI S_ 32 0#32 := by
  show StableHlo.after hostOps1 (W8 m ρ c) (Proc.devRef .tc main_c) = _
  after_results

/-- The messages added up per target node: the zero array, with row `e` of the edge kernel's output added into the
    row the edge's index word names. -/
theorem W9_v15 : W9 m ρ c (Proc.devRef .tc main_v15)
    = Host.scatterAdd scatter_S200000x128_S500000x1_S500000x128_1_0_0_1
        (broadcastInDim S200000x128 ![] bcast_S_S200000x128 (constant (F := Ideal) S_ .f32 0x00000000#32))
        (broadcastInDim S500000x1 ![0] bcast_S500000_S500000x1_0 (a17 m c))
        (msgK m ρ c) := by
  show StableHlo.after hostOps1 (W8 m ρ c) (Proc.devRef .tc main_v15) = _
  after_results
  rw [W8_arg17]

/-! ## The two pads -/

theorem W10_v21 : W10 m ρ c (Proc.devRef .tc main_v21)
    = pad S200704x128 ![0, 0] ![704, 0] ![0, 0] (W9 m ρ c (Proc.devRef .tc main_v15))
        (sitofp (F := Ideal) .f32 (W9 m ρ c (Proc.devRef .tc main_c))) pads_S200000x128_S200704x128_07040_000 h_S_ := by
  show StableHlo.after hostOps1_1 (W9 m ρ c) (Proc.devRef .tc main_v21) = _
  after_results
  rfl

theorem W11_c_0 : W11 m ρ c (Proc.devRef .tc main_c_0) = constantI S_ 32 0#32 := by
  show StableHlo.after hostOps1_2 (W10 m ρ c) (Proc.devRef .tc main_c_0) = _
  after_results

theorem W11_arg14 : W11 m ρ c (Proc.devRef .tc main_arg14) = a14 m c :=
  calc W11 m ρ c (Proc.devRef .tc main_arg14)
    _ = W10 m ρ c (Proc.devRef .tc main_arg14) := by skip_host
    _ = W9 m ρ c (Proc.devRef .tc main_arg14) := by skip_host
    _ = W8 m ρ c (Proc.devRef .tc main_arg14) := by skip_host
    _ = a14 m c := W8_arg14 m ρ c

theorem W12_v22 : W12 m ρ c (Proc.devRef .tc main_v22)
    = pad S200704x128 ![0, 0] ![704, 0] ![0, 0] (W11 m ρ c (Proc.devRef .tc main_arg14))
        (sitofp (F := Ideal) .f32 (W11 m ρ c (Proc.devRef .tc main_c_0))) pads_S200000x128_S200704x128_07040_000 h_S_ := by
  show StableHlo.after hostOps1_3 (W11 m ρ c) (Proc.devRef .tc main_v22) = _
  after_results
  rfl

/-! ## What the node kernel's arrays hold at its launch -/

theorem v21_eq : W12 m ρ c (Proc.devRef .tc main_v21)
    = pad S200704x128 ![0, 0] ![704, 0] ![0, 0]
        (Host.scatterAdd scatter_S200000x128_S500000x1_S500000x128_1_0_0_1
          (broadcastInDim S200000x128 ![] bcast_S_S200000x128 (constant (F := Ideal) S_ .f32 0x00000000#32))
          (broadcastInDim S500000x1 ![0] bcast_S500000_S500000x1_0 (a17 m c))
          (msgK m ρ c))
        padV pads_S200000x128_S200704x128_07040_000 h_S_ :=
  calc W12 m ρ c (Proc.devRef .tc main_v21)
    _ = W11 m ρ c (Proc.devRef .tc main_v21) := by skip_host
    _ = W10 m ρ c (Proc.devRef .tc main_v21) := by skip_host
    _ = _ := by rw [W10_v21, W9_v15, W9_c]

theorem v22_eq : W12 m ρ c (Proc.devRef .tc main_v22)
    = pad S200704x128 ![0, 0] ![704, 0] ![0, 0] (a14 m c) padV pads_S200000x128_S200704x128_07040_000 h_S_ := by
  rw [W12_v22, W11_arg14, W11_c_0]

/-- A row below 200000 of an array padded with 704 rows at the end is the array's own row. -/
theorem pad_row (x : Vec Ideal S200000x128 .f32) (v : FVec Ideal S_ .f32) (n : Fin 200000) (k : Fin 128) :
    pad S200704x128 ![0, 0] ![704, 0] ![0, 0] x v pads_S200000x128_S200704x128_07040_000 h_S_
        (ix2 (⟨n.val, by have := n.isLt; omega⟩ : Fin 200704) k) = x (ix2 n k) :=
  pad_apply_of_inside _ _ _ x v pads_S200000x128_S200704x128_07040_000 h_S_ _ (ix2 n k) fun a => by
    match a with
    | ⟨0, _⟩ => show n.val = 0 + n.val * (0 + 1); omega
    | ⟨1, _⟩ => show k.val = 0 + k.val * (0 + 1); omega

theorem v16_eq : W12 m ρ c (Proc.devRef .tc main_v16) = transpose S128x128 [1, 0] (a8 m c) transposes_S128x128_S128x128_1_0 :=
  (W12_eq_W9 main_v16).trans (W9_v16 m ρ c)
theorem v17_eq : W12 m ρ c (Proc.devRef .tc main_v17) = transpose S128x384 [1, 0] (a9 m c) transposes_S384x128_S128x384_1_0 :=
  (W12_eq_W9 main_v17).trans (W9_v17 m ρ c)
theorem v18_eq : W12 m ρ c (Proc.devRef .tc main_v18) = transpose S128x384 [1, 0] (a10 m c) transposes_S384x128_S128x384_1_0 :=
  (W12_eq_W9 main_v18).trans (W9_v18 m ρ c)
theorem v19_eq (j : Fin 384) : W12 m ρ c (Proc.devRef .tc main_v19) (ix2 0 j) = a11 m c (ix1 j) :=
  (congrFun ((W12_eq_W9 main_v19).trans (W9_v19 m ρ c)) (ix2 0 j)).trans
    (shapeCast_a_1a_apply (a11 m c) shapeCasts_S384_S1x384 0 j)
theorem v20_eq (j : Fin 384) : W12 m ρ c (Proc.devRef .tc main_v20) (ix2 0 j) = a12 m c (ix1 j) :=
  (congrFun ((W12_eq_W9 main_v20).trans (W9_v20 m ρ c)) (ix2 0 j)).trans
    (shapeCast_a_1a_apply (a12 m c) shapeCasts_S384_S1x384 0 j)
theorem arg13_eq : W12 m ρ c (Proc.devRef .tc main_arg13) = a13 m c :=
  ((W12_eq_W9 main_arg13).trans (by skip_host)).trans (W8_arg13 m ρ c)

/-! ## The result -/

/-- The result buffer after the last stretch: the node kernel's output flattened row-major, its first 200000 entries. -/
theorem W14_v25 : W14 m ρ c (Proc.devRef .tc main_v25)
    = extractStridedSlice S200000 ![0]
        (shapeCast S200704 (W13 m ρ c (Proc.devRef .tc main_v23)) shapeCasts_S1568x128_S200704)
        slices_S200704_S200000_0 := by
  show StableHlo.after hostOps2 (W13 m ρ c) (Proc.devRef .tc main_v25) = _
  after_results
  rfl

theorem tail_eq (n : Fin 200000) :
    W14 m ρ c (Proc.devRef .tc main_v25) (ix1 n)
      = W13 m ρ c (Proc.devRef .tc main_v23)
          (ix2 (⟨n.val / 128, by have := n.isLt; omega⟩ : Fin 1568) (⟨n.val % 128, Nat.mod_lt _ (by decide)⟩ : Fin 128)) := by
  refine (congrFun (W14_v25 m ρ c) (ix1 n)).trans ?_
  refine (extractStridedSlice_apply ![0] _ slices_S200704_S200000_0 (ix1 n)
    (ix1 (⟨n.val, by have := n.isLt; omega⟩ : Fin 200704)) fun a => ?_).trans ?_
  · match a with
    | ⟨0, _⟩ => exact (Nat.zero_add _).symm
  refine shapeCast_apply _ shapeCasts_S1568x128_S200704 _ _ ?_
  rw [Shape.rowMajor_val_two, Shape.rowMajor_val_one]
  show n.val / 128 * 128 + n.val % 128 = n.val
  omega

end Cert.KernelIdeal.Host1

end
-- ==== Proof.KerValue.lean ====
/-
  The kernel program's result as a function of its arguments, for index words that are row numbers of their tables.

  The edge kernel's output array, at the first launch's exit, is the message array: its row e is the message of the
  edge whose head row is row sub[e] of the node table, whose relation row is row rel[e] of the relation table, and
  whose projected query term is row q_rel[batch[e]] of the relation table times the query weights. The program's
  result at node n is entry (n / 128, n mod 128) of the node kernel's packed output, which is the score of padded
  node 128 (n / 128) + n mod 128 = n; below 200000 the padded arrays are the scatter-added messages and the previous
  state themselves.
-/
import proofs.«404059_j34840774705590_3_alg».proof.Proof.KerRegion0
import proofs.«404059_j34840774705590_3_alg».proof.Proof.KerRegion1
import proofs.«404059_j34840774705590_3_alg».proof.Proof.KerHost0
import proofs.«404059_j34840774705590_3_alg».proof.Proof.KerHost1
import proofs.«404059_j34840774705590_3_alg».proof.Proof.Rows
import proofs.«404059_j34840774705590_3_alg».proof.Proof.KerArgs

noncomputable section

namespace Cert.KernelIdeal.Result

open Idealize.ShloMosaic Idealize.ShloMosaic.TcCoe Idealize.ShloMosaic.ValueIdx Cert.KernelIdeal Cert.KernelIdeal.Gen Cert.Rows
open Cert.KernelIdeal.Args

variable (m : (ℓ : Loc nD τ sig) → Buf (Elt Ideal) ℓ) (ρ : Dev nD → PrngReg) (c : Dev nD)

/-- The message array of the program's arguments. -/
abbrev msgOfArgs : S500000x128.Idx → EReal :=
  msgArr (a0 m c) (a1 m c)
    (transpose S128x64 [1, 0] (a2 m c) transposes_S64x128_S128x64_1_0)
    (transpose S128x64 [1, 0] (a3 m c) transposes_S64x128_S128x64_1_0)
    (transpose S128x64 [1, 0] (a4 m c) transposes_S64x128_S128x64_1_0)
    (a5 m c) (a6 m c) (a7 m c)
    (a15 m c) (a16 m c) (a18 m c)
    (a19 m c)

/-- The edge kernel's output array is the message array of the arguments. -/
theorem msgK_eq (h15 : ∀ i, InRange 200000 (a15 m c i))
    (h16 : ∀ i, InRange 67 (a16 m c i))
    (h18 : ∀ i, InRange 256 (a18 m c i))
    (h19 : ∀ i, InRange 67 (a19 m c i)) :
    W8 m ρ c (Proc.devRef .tc main_v12) = msgOfArgs m c := by
  refine (W8_arr m ρ c 8).trans ?_
  funext i
  obtain ⟨e, d, rfl⟩ : ∃ (e : Fin 500000) (d : Fin 128), i = ix2 e d := ⟨i 0, i 1, eq_ix2 i⟩
  refine (Region0.arr0 (V7 m ρ) c e d).trans ?_
  show _ = msgAt _ _ _ _ _ _ _ _ _ _ _ _ e d
  unfold msgAt
  have e0 : (fun k : Fin 128 => V7 m ρ c main_v0 (ix2 e k))
      = fun k => (a0 m c) (ix2 (subRow (a15 m c) e) k) :=
    funext fun k => Host0.v0_eq m ρ c h15 e k
  have e1 : (fun k : Fin 128 => V7 m ρ c main_v2 (ix2 e k))
      = fun k => (a1 m c) (ix2 (relRow (a16 m c) e) k) :=
    funext fun k => Host0.v2_eq m ρ c h16 e k
  have e2 : (fun a : Fin 64 => V7 m ρ c main_v7 (ix2 e a))
      = fun a => ∑ k : Fin 128, (a1 m c)
            (ix2 (qRow (a19 m c) (batchRow (a18 m c) e)) k)
          * (transpose S128x64 [1, 0] (a4 m c) transposes_S64x128_S128x64_1_0) (ix2 k a) :=
    funext fun a => Host0.v7_eq m ρ c h18 h19 e a
  have e5 : (fun a : Fin 64 => V7 m ρ c main_v10 (ix2 0 a)) = fun a => (a5 m c) (ix1 a) :=
    funext fun a => Host0.v10_eq m ρ c a
  have e6 : (fun a : Fin 64 => V7 m ρ c main_arg6 (ix2 0 a)) = fun a => (a6 m c) (ix2 0 a) :=
    funext fun a => congrFun (Host0.arg6_eq m ρ c) (ix2 0 a)
  rw [e0, e1, e2, e5, e6]
  rw [show V7 m ρ c main_v8 = _ from Host0.v8_eq m ρ c, show V7 m ρ c main_v9 = _ from Host0.v9_eq m ρ c,
    show V7 m ρ c main_v11 (ix2 0 0) = _ from Host0.v11_eq m ρ c]

/-- The scatter-added messages of the program's arguments. -/
abbrev aggOfArgs : S200000x128.Idx → EReal :=
  Host.scatterAdd scatter_S200000x128_S500000x1_S500000x128_1_0_0_1
    (broadcastInDim S200000x128 ![] bcast_S_S200000x128 (constant (F := Ideal) S_ .f32 0x00000000#32))
    (broadcastInDim S500000x1 ![0] bcast_S500000_S500000x1_0 (a17 m c))
    (msgOfArgs m c)

/-- The program's result is the score array of the scatter-added messages and the previous state. -/
theorem result_eq (h15 : ∀ i, InRange 200000 (a15 m c i))
    (h16 : ∀ i, InRange 67 (a16 m c i))
    (h18 : ∀ i, InRange 256 (a18 m c i))
    (h19 : ∀ i, InRange 67 (a19 m c i)) :
    W14 m ρ c (Proc.devRef .tc main_v25)
      = scoreArr (aggOfArgs m c) (a14 m c)
          (transpose S128x128 [1, 0] (a8 m c) transposes_S128x128_S128x128_1_0)
          (transpose S128x384 [1, 0] (a9 m c) transposes_S384x128_S128x384_1_0)
          (transpose S128x384 [1, 0] (a10 m c) transposes_S384x128_S128x384_1_0)
          (a11 m c) (a12 m c) (a13 m c) := by
  funext i
  obtain ⟨n, rfl⟩ : ∃ n : Fin 200000, i = ix1 n := ⟨i 0, eq_ix1 i⟩
  refine (Host1.tail_eq m ρ c n).trans ?_
  refine (congrFun (W13_arr m ρ c 8) _).trans ?_
  refine (Region1.arr1 (V12 m ρ) c _ _).trans ?_
  show _ = scoreAt _ _ _ _ _ _ _ _ n
  unfold scoreAt
  have hn : Region1.nrow (⟨n.val / 128, by have := n.isLt; omega⟩ : Fin 1568) (⟨n.val % 128, Nat.mod_lt _ (by decide)⟩ : Fin 128)
      = (⟨n.val, by have := n.isLt; omega⟩ : Fin 200704) := Fin.ext (by show 128 * (n.val / 128) + n.val % 128 = n.val; omega)
  rw [hn]
  have e0 : (fun k : Fin 128 => V12 m ρ c main_v21 (ix2 (⟨n.val, by have := n.isLt; omega⟩ : Fin 200704) k))
      = fun k => aggOfArgs m c (ix2 n k) := funext fun k => by
    rw [show V12 m ρ c main_v21 = _ from Host1.v21_eq m ρ c, Host1.pad_row,
      show Host1.msgK m ρ c = msgOfArgs m c from msgK_eq m ρ c h15 h16 h18 h19]
  have e1 : (fun k : Fin 128 => V12 m ρ c main_v22 (ix2 (⟨n.val, by have := n.isLt; omega⟩ : Fin 200704) k))
      = fun k => (a14 m c) (ix2 n k) := funext fun k => by
    rw [show V12 m ρ c main_v22 = _ from Host1.v22_eq m ρ c, Host1.pad_row]
  have e5 : (fun j : Fin 384 => V12 m ρ c main_v19 (ix2 0 j)) = fun j => (a11 m c) (ix1 j) :=
    funext fun j => Host1.v19_eq m ρ c j
  have e6 : (fun j : Fin 384 => V12 m ρ c main_v20 (ix2 0 j)) = fun j => (a12 m c) (ix1 j) :=
    funext fun j => Host1.v20_eq m ρ c j
  have e7 : (fun d : Fin 128 => V12 m ρ c main_arg13 (ix2 0 d)) = fun d => (a13 m c) (ix2 0 d) :=
    funext fun d => congrFun (Host1.arg13_eq m ρ c) (ix2 0 d)
  rw [e0, e1, e5, e6, e7]
  rw [show V12 m ρ c main_v16 = _ from Host1.v16_eq m ρ c, show V12 m ρ c main_v17 = _ from Host1.v17_eq m ρ c,
    show V12 m ρ c main_v18 = _ from Host1.v18_eq m ρ c]

end Cert.KernelIdeal.Result

end
-- ==== Proof.RefEdge.lean ====
/-
  The reference program's message stage, read edge by edge, is the message array.

  Edge e takes three rows of 128 columns: row sub[e] of the node table, row rel[e] of the relation table, and row
  q_rel[batch[e]] of the relation table (through the table of the queries' rows). Each index word is first wrapped
  (a negative word gets the table's height added) and the take itself clamps the result into the table, which is the
  clamped row of the wrapped word. The three rows are projected to 64 features by sums over the 128 columns against
  the transposed weight arrays, summed with the bias and rectified against the zero word; the gate is
  1 / (1 + exp (-(Σ_a feature a · w a + b))) with the word 0x3F800000 for 1, which is the logistic of that sum; and
  entry (e, d) of the message is the gate times (head row + relation row) at column d. Every step is read at an
  index with explicit coordinates, so the two sides meet term by term with no reordering of a sum.
-/
import proofs.«404059_j34840774705590_3_alg».proof.Proof.Gen.ReferenceIdeal.Read
import proofs.«404059_j34840774705590_3_alg».proof.Proof.Rows
import proofs.«404059_j34840774705590_3_alg».proof.Proof.Take
import Idealize.ShloMosaic.Lib.ValueIdx
import Idealize.ShloMosaic.Lib.Pipeline.Value
import Idealize.ShloMosaic.PureOps.Ideal.Laws

noncomputable section

open scoped BigOperators

namespace Cert.ReferenceIdeal.RefEdge

open Idealize.ShloMosaic Idealize.ShloMosaic.ValueIdx Cert.ReferenceIdeal Cert.ReferenceIdeal.Read

/-! ## The two constant words and the wrapped index words -/

/-- The word 0x3F800000 is the float one. -/
theorem oneW_eq : Ideal.ofBits .f32 0x3F800000#32 = (1 : EReal) := by
  simp [Ideal.ofBits, Ideal.ieee, -EReal.coe_mul]; norm_num

/-- The wrapped head-row word of edge `e`: the reference adds 200000 to a negative word. -/
theorem wrap_sub (x15 : (⟨S500000, .i32⟩ : BufTy).Contents (Elt Ideal)) (e : Fin 500000) :
    val_main_v4 (F := Ideal) x15 (ix1 e) = Cert.Rows.wrapW 200000#32 (x15 (ix1 e)) := by
  rw [val_main_v4_apply, val_main_v1_apply, val_main_v3_apply, val_main_v0_apply, val_main_v2_apply,
    val_main_c_apply, val_main_c_0_apply]
  rfl

/-- The wrapped relation word of edge `e` (table of 67 rows). -/
theorem wrap_rel (x16 : (⟨S500000, .i32⟩ : BufTy).Contents (Elt Ideal)) (e : Fin 500000) :
    val_main_v11 (F := Ideal) x16 (ix1 e) = Cert.Rows.wrapW 67#32 (x16 (ix1 e)) := by
  rw [val_main_v11_apply, val_main_v8_apply, val_main_v10_apply, val_main_v7_apply, val_main_v9_apply,
    val_main_c_1_apply, val_main_c_2_apply]
  rfl

/-- The wrapped query-relation word of query `b` (table of 67 rows). -/
theorem wrap_qrel (x19 : (⟨S256, .i32⟩ : BufTy).Contents (Elt Ideal)) (b : Fin 256) :
    val_main_v18 (F := Ideal) x19 (ix1 b) = Cert.Rows.wrapW 67#32 (x19 (ix1 b)) := by
  rw [val_main_v18_apply, val_main_v15_apply, val_main_v17_apply, val_main_v14_apply, val_main_v16_apply,
    val_main_c_3_apply, val_main_c_4_apply]
  rfl

/-- The wrapped query number of edge `e` (256 queries). -/
theorem wrap_batch (x18 : (⟨S500000, .i32⟩ : BufTy).Contents (Elt Ideal)) (e : Fin 500000) :
    val_main_v25 (F := Ideal) x18 (ix1 e) = Cert.Rows.wrapW 256#32 (x18 (ix1 e)) := by
  rw [val_main_v25_apply, val_main_v22_apply, val_main_v24_apply, val_main_v21_apply, val_main_v23_apply,
    val_main_c_5_apply, val_main_c_6_apply]
  rfl

/-! ## The four row takes

Each is a take of whole rows: entry (e, k) of the result is the table at the clamped row of the wrapped word and
column k. -/

/-- Edge `e`'s head row, column `k`. -/
theorem v6_at (x0 : (⟨S200000x128, .f32⟩ : BufTy).Contents (Elt Ideal)) (x15 : (⟨S500000, .i32⟩ : BufTy).Contents (Elt Ideal)) (e : Fin 500000) (k : Fin 128) :
    val_main_v6 (F := Ideal) x0 x15 (ix2 e k) = x0 (ix2 (Cert.Rows.subRow x15 e) k) := by
  unfold val_main_v6
  have hrec : gather_S200000x128_S500000x1_S500000x128_1_0_n_n_0_1_1128
      = Cert.Take.rowTakeDims 200000 500000 128 Gen.gather_S200000x128_S500000x1_S500000x128_1_0_n_n_0_1_1128_wf := rfl
  rw [hrec, Cert.Take.gather_rows_apply (by decide), val_main_v5_apply]
  have hi : idx_main_v5 (ix2 e ⟨0, Nat.one_pos⟩) = ix1 e := by
    funext b; match b with | ⟨0, _⟩ => rfl
  rw [hi, wrap_sub]
  rfl

/-- Edge `e`'s relation row, column `k`. -/
theorem v13_at (x1 : (⟨S67x128, .f32⟩ : BufTy).Contents (Elt Ideal)) (x16 : (⟨S500000, .i32⟩ : BufTy).Contents (Elt Ideal)) (e : Fin 500000) (k : Fin 128) :
    val_main_v13 (F := Ideal) x1 x16 (ix2 e k) = x1 (ix2 (Cert.Rows.relRow x16 e) k) := by
  unfold val_main_v13
  have hrec : gather_S67x128_S500000x1_S500000x128_1_0_n_n_0_1_1128
      = Cert.Take.rowTakeDims 67 500000 128 Gen.gather_S67x128_S500000x1_S500000x128_1_0_n_n_0_1_1128_wf := rfl
  rw [hrec, Cert.Take.gather_rows_apply (by decide), val_main_v12_apply]
  have hi : idx_main_v12 (ix2 e ⟨0, Nat.one_pos⟩) = ix1 e := by
    funext b; match b with | ⟨0, _⟩ => rfl
  rw [hi, wrap_rel]
  rfl

/-- Query `b`'s relation row, column `k`. -/
theorem v20_at (x1 : (⟨S67x128, .f32⟩ : BufTy).Contents (Elt Ideal)) (x19 : (⟨S256, .i32⟩ : BufTy).Contents (Elt Ideal)) (b : Fin 256) (k : Fin 128) :
    val_main_v20 (F := Ideal) x1 x19 (ix2 b k) = x1 (ix2 (Cert.Rows.qRow x19 b) k) := by
  unfold val_main_v20
  have hrec : gather_S67x128_S256x1_S256x128_1_0_n_n_0_1_1128
      = Cert.Take.rowTakeDims 67 256 128 Gen.gather_S67x128_S256x1_S256x128_1_0_n_n_0_1_1128_wf := rfl
  rw [hrec, Cert.Take.gather_rows_apply (by decide), val_main_v19_apply]
  have hi : idx_main_v19 (ix2 b ⟨0, Nat.one_pos⟩) = ix1 b := by
    funext b; match b with | ⟨0, _⟩ => rfl
  rw [hi, wrap_qrel]
  rfl

/-- The relation row of edge `e`'s query, column `k`: a row take out of the table of the queries' rows. -/
theorem v27_at (x1 : (⟨S67x128, .f32⟩ : BufTy).Contents (Elt Ideal)) (x18 : (⟨S500000, .i32⟩ : BufTy).Contents (Elt Ideal)) (x19 : (⟨S256, .i32⟩ : BufTy).Contents (Elt Ideal)) (e : Fin 500000) (k : Fin 128) :
    val_main_v27 (F := Ideal) x1 x18 x19 (ix2 e k)
      = x1 (ix2 (Cert.Rows.qRow x19 (Cert.Rows.batchRow x18 e)) k) := by
  unfold val_main_v27
  have hrec : gather_S256x128_S500000x1_S500000x128_1_0_n_n_0_1_1128
      = Cert.Take.rowTakeDims 256 500000 128 Gen.gather_S256x128_S500000x1_S500000x128_1_0_n_n_0_1_1128_wf := rfl
  rw [hrec, Cert.Take.gather_rows_apply (by decide), val_main_v26_apply]
  have hi : idx_main_v26 (ix2 e ⟨0, Nat.one_pos⟩) = ix1 e := by
    funext b; match b with | ⟨0, _⟩ => rfl
  rw [hi, wrap_batch]
  exact v20_at x1 x19 _ k

/-! ## The three projections

Each product of a taken row with a transposed weight array is, at (e, a), the sum over the 128 columns. -/

/-- The head row's projection. -/
theorem v29_at (x0 : (⟨S200000x128, .f32⟩ : BufTy).Contents (Elt Ideal)) (x2 : (⟨S64x128, .f32⟩ : BufTy).Contents (Elt Ideal)) (x15 : (⟨S500000, .i32⟩ : BufTy).Contents (Elt Ideal)) (e : Fin 500000) (a : Fin 64) :
    val_main_v29 (F := Ideal) x0 x2 x15 (ix2 e a)
      = ∑ k : Fin 128, x0 (ix2 (Cert.Rows.subRow x15 e) k) * val_main_v28 (F := Ideal) x2 (ix2 k a) := by
  rw [val_main_v29_apply]
  refine Finset.sum_congr rfl fun k _ => ?_
  have hl : lidx_main_v29 (ix2 e a) k = ix2 e k := by
    funext b; match b with | ⟨0, _⟩ => rfl | ⟨1, _⟩ => rfl
  have hr : ridx_main_v29 (ix2 e a) k = ix2 k a := by
    funext b; match b with | ⟨0, _⟩ => rfl | ⟨1, _⟩ => rfl
  rw [hl, hr, v6_at]

/-- The relation row's projection. -/
theorem v31_at (x1 : (⟨S67x128, .f32⟩ : BufTy).Contents (Elt Ideal)) (x3 : (⟨S64x128, .f32⟩ : BufTy).Contents (Elt Ideal)) (x16 : (⟨S500000, .i32⟩ : BufTy).Contents (Elt Ideal)) (e : Fin 500000) (a : Fin 64) :
    val_main_v31 (F := Ideal) x1 x3 x16 (ix2 e a)
      = ∑ k : Fin 128, x1 (ix2 (Cert.Rows.relRow x16 e) k) * val_main_v30 (F := Ideal) x3 (ix2 k a) := by
  rw [val_main_v31_apply]
  refine Finset.sum_congr rfl fun k _ => ?_
  have hl : lidx_main_v31 (ix2 e a) k = ix2 e k := by
    funext b; match b with | ⟨0, _⟩ => rfl | ⟨1, _⟩ => rfl
  have hr : ridx_main_v31 (ix2 e a) k = ix2 k a := by
    funext b; match b with | ⟨0, _⟩ => rfl | ⟨1, _⟩ => rfl
  rw [hl, hr, v13_at]

/-- The query's relation row's projection. -/
theorem v34_at (x1 : (⟨S67x128, .f32⟩ : BufTy).Contents (Elt Ideal)) (x4 : (⟨S64x128, .f32⟩ : BufTy).Contents (Elt Ideal)) (x18 : (⟨S500000, .i32⟩ : BufTy).Contents (Elt Ideal)) (x19 : (⟨S256, .i32⟩ : BufTy).Contents (Elt Ideal)) (e : Fin 500000) (a : Fin 64) :
    val_main_v34 (F := Ideal) x1 x4 x18 x19 (ix2 e a)
      = ∑ k : Fin 128, x1 (ix2 (Cert.Rows.qRow x19 (Cert.Rows.batchRow x18 e)) k)
          * val_main_v33 (F := Ideal) x4 (ix2 k a) := by
  rw [val_main_v34_apply]
  refine Finset.sum_congr rfl fun k _ => ?_
  have hl : lidx_main_v34 (ix2 e a) k = ix2 e k := by
    funext b; match b with | ⟨0, _⟩ => rfl | ⟨1, _⟩ => rfl
  have hr : ridx_main_v34 (ix2 e a) k = ix2 k a := by
    funext b; match b with | ⟨0, _⟩ => rfl | ⟨1, _⟩ => rfl
  rw [hl, hr, v27_at]

/-! ## Features, gate, message -/

/-- The rectified feature `a` of edge `e`: the three projections, the bias, and the maximum with the zero word. -/
theorem v39_at (x0 : (⟨S200000x128, .f32⟩ : BufTy).Contents (Elt Ideal)) (x1 : (⟨S67x128, .f32⟩ : BufTy).Contents (Elt Ideal)) (x2 : (⟨S64x128, .f32⟩ : BufTy).Contents (Elt Ideal)) (x3 : (⟨S64x128, .f32⟩ : BufTy).Contents (Elt Ideal)) (x4 : (⟨S64x128, .f32⟩ : BufTy).Contents (Elt Ideal)) (x5 : (⟨S64, .f32⟩ : BufTy).Contents (Elt Ideal)) (x15 : (⟨S500000, .i32⟩ : BufTy).Contents (Elt Ideal)) (x16 : (⟨S500000, .i32⟩ : BufTy).Contents (Elt Ideal)) (x18 : (⟨S500000, .i32⟩ : BufTy).Contents (Elt Ideal)) (x19 : (⟨S256, .i32⟩ : BufTy).Contents (Elt Ideal)) (e : Fin 500000) (a : Fin 64) :
    val_main_v39 (F := Ideal) x0 x1 x2 x3 x4 x5 x15 x16 x18 x19 (ix2 e a)
      = Cert.RowSpec.att (fun k => x0 (ix2 (Cert.Rows.subRow x15 e) k)) (fun k => x1 (ix2 (Cert.Rows.relRow x16 e) k))
          (fun a => ∑ k : Fin 128, x1 (ix2 (Cert.Rows.qRow x19 (Cert.Rows.batchRow x18 e)) k) * val_main_v33 (F := Ideal) x4 (ix2 k a))
          (val_main_v28 (F := Ideal) x2) (val_main_v30 (F := Ideal) x3) (fun a => x5 (ix1 a)) a := by
  rw [val_main_v39_apply, val_main_v38_apply, val_main_v35_apply, val_main_v32_apply, v29_at, v31_at, v34_at,
    val_main_v37_apply, val_main_v36_apply, val_main_call0_v0_apply, val_main_call0_cst_apply]
  have h5 : idx_main_v36 (idx_main_v37 (ix2 e a)) = ix1 a := by
    funext b; match b with | ⟨0, _⟩ => rfl
  rw [h5]
  rfl

/-- The gate of edge `e`: one over one plus the exponential of the negated weighted feature sum, with the word
    0x3F800000 for one, is the logistic of that sum. -/
theorem v50_at (x0 : (⟨S200000x128, .f32⟩ : BufTy).Contents (Elt Ideal)) (x1 : (⟨S67x128, .f32⟩ : BufTy).Contents (Elt Ideal)) (x2 : (⟨S64x128, .f32⟩ : BufTy).Contents (Elt Ideal)) (x3 : (⟨S64x128, .f32⟩ : BufTy).Contents (Elt Ideal)) (x4 : (⟨S64x128, .f32⟩ : BufTy).Contents (Elt Ideal)) (x5 : (⟨S64, .f32⟩ : BufTy).Contents (Elt Ideal)) (x6 : (⟨S1x64, .f32⟩ : BufTy).Contents (Elt Ideal)) (x7 : (⟨S1, .f32⟩ : BufTy).Contents (Elt Ideal)) (x15 : (⟨S500000, .i32⟩ : BufTy).Contents (Elt Ideal)) (x16 : (⟨S500000, .i32⟩ : BufTy).Contents (Elt Ideal)) (x18 : (⟨S500000, .i32⟩ : BufTy).Contents (Elt Ideal)) (x19 : (⟨S256, .i32⟩ : BufTy).Contents (Elt Ideal)) (e : Fin 500000) :
    val_main_v50 (F := Ideal) x0 x1 x2 x3 x4 x5 x6 x7 x15 x16 x18 x19 (ix2 e (0 : Fin 1))
      = Cert.RowSpec.alpha (fun k => x0 (ix2 (Cert.Rows.subRow x15 e) k)) (fun k => x1 (ix2 (Cert.Rows.relRow x16 e) k))
          (fun a => ∑ k : Fin 128, x1 (ix2 (Cert.Rows.qRow x19 (Cert.Rows.batchRow x18 e)) k) * val_main_v33 (F := Ideal) x4 (ix2 k a))
          (val_main_v28 (F := Ideal) x2) (val_main_v30 (F := Ideal) x3) (fun a => x5 (ix1 a))
          (fun a => x6 (ix2 (0 : Fin 1) a)) (x7 (ix1 (0 : Fin 1))) := by
  have h41 : val_main_v41 (F := Ideal) x0 x1 x2 x3 x4 x5 x6 x15 x16 x18 x19 (ix2 e (0 : Fin 1))
      = ∑ a : Fin 64, Cert.RowSpec.att (fun k => x0 (ix2 (Cert.Rows.subRow x15 e) k)) (fun k => x1 (ix2 (Cert.Rows.relRow x16 e) k))
          (fun a => ∑ k : Fin 128, x1 (ix2 (Cert.Rows.qRow x19 (Cert.Rows.batchRow x18 e)) k) * val_main_v33 (F := Ideal) x4 (ix2 k a))
          (val_main_v28 (F := Ideal) x2) (val_main_v30 (F := Ideal) x3) (fun a => x5 (ix1 a)) a * x6 (ix2 (0 : Fin 1) a) := by
    rw [val_main_v41_apply]
    refine Finset.sum_congr rfl fun a _ => ?_
    have hl : lidx_main_v41 (ix2 e (0 : Fin 1)) a = ix2 e a := by
      funext b; match b with | ⟨0, _⟩ => rfl | ⟨1, _⟩ => rfl
    have hr : idx_main_v40 (ridx_main_v41 (ix2 e (0 : Fin 1)) a) = ix2 (0 : Fin 1) a := by
      funext b; match b with | ⟨0, _⟩ => rfl | ⟨1, _⟩ => rfl
    rw [hl, val_main_v40_apply, hr, v39_at]
  have h7 : idx_main_v42 (idx_main_v43 (ix2 e (0 : Fin 1))) = ix1 (0 : Fin 1) := by
    funext b; match b with | ⟨0, _⟩ => rfl
  rw [val_main_v50_apply, val_main_v49_apply, val_main_cst_7_apply, val_main_v48_apply, val_main_v47_apply,
    val_main_cst_apply, val_main_v46_apply, val_main_v45_apply, val_main_v44_apply, h41, val_main_v43_apply,
    val_main_v42_apply, h7]
  unfold Cert.RowSpec.alpha Ideal.logistic
  rw [Ideal.hostDivf_def, Ideal.ofBits_def, oneW_eq]
  rfl

/-- The reference's message stage is the message array: at (e, d) the gate of edge `e` times the sum of its head
    row and relation row at column `d`. -/
theorem msg_eq (x0 : (⟨S200000x128, .f32⟩ : BufTy).Contents (Elt Ideal)) (x1 : (⟨S67x128, .f32⟩ : BufTy).Contents (Elt Ideal)) (x2 x3 x4 : (⟨S64x128, .f32⟩ : BufTy).Contents (Elt Ideal)) (x5 : (⟨S64, .f32⟩ : BufTy).Contents (Elt Ideal)) (x6 : (⟨S1x64, .f32⟩ : BufTy).Contents (Elt Ideal)) (x7 : (⟨S1, .f32⟩ : BufTy).Contents (Elt Ideal))
    (x15 x16 x18 : (⟨S500000, .i32⟩ : BufTy).Contents (Elt Ideal)) (x19 : (⟨S256, .i32⟩ : BufTy).Contents (Elt Ideal)) :
    val_main_v53 (F := Ideal) x0 x1 x2 x3 x4 x5 x6 x7 x15 x16 x18 x19
      = Cert.Rows.msgArr x0 x1 (val_main_v28 (F := Ideal) x2) (val_main_v30 (F := Ideal) x3) (val_main_v33 (F := Ideal) x4)
          x5 x6 x7 x15 x16 x18 x19 := by
  funext i
  obtain ⟨e, d, rfl⟩ : ∃ (e : Fin 500000) (d : Fin 128), i = ix2 e d := ⟨i 0, i 1, eq_ix2 i⟩
  have h52 : idx_main_v52 (ix2 e d) = ix2 e (0 : Fin 1) := by
    funext b; match b with | ⟨0, _⟩ => rfl | ⟨1, _⟩ => rfl
  rw [val_main_v53_apply, val_main_v52_apply, val_main_v51_apply, h52, v50_at, v6_at, v13_at]
  rfl

end Cert.ReferenceIdeal.RefEdge

end
-- ==== Proof.RefNode.lean ====
/-
  The reference program's final stage, read node by node, is the score array of its aggregated messages.

  Node n's row of aggregated messages is projected and rectified (hnew), the new row and the previous state row are
  each projected to 384 gate columns (gi, gh), the three blocks of 128 columns give the reset gate r, the update gate
  z and the candidate tanh(gi + r * gh), the updated state is (1 - z) * candidate + z * previous, and the score is
  its product with the final weight row. Each stage of the program is read at one index and identified with the row
  function of the same name; the aggregated messages and the three transposed weight arrays stay opaque arrays.
-/
import proofs.«404059_j34840774705590_3_alg».proof.Proof.Gen.ReferenceIdeal.Read
import proofs.«404059_j34840774705590_3_alg».proof.Proof.Rows

import Idealize.ShloMosaic.Lib.ValueIdx
import Idealize.ShloMosaic.Lib.Pipeline.Value
import Idealize.ShloMosaic.PureOps.Ideal.Laws

noncomputable section

open scoped BigOperators

namespace Cert.ReferenceIdeal.RefNode

open Idealize.ShloMosaic Idealize.ShloMosaic.ValueIdx Cert.ReferenceIdeal Cert.ReferenceIdeal.Read

/-! ## The word of one, and the logistic spelt with it -/

/-- The word 0x3F800000 denotes the real number one. -/
theorem one_word : Ideal.ofBits .f32 0x3F800000#32 = 1 := IdealRules.sign_bit.ideal_onePat .f32

/-- One over one plus the exponential of the negation, with both ones given as words, is the logistic function. -/
theorem logistic_words (a : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf a)))
      = Ideal.logistic a := by
  simp only [Ideal.hostDivf_def, Ideal.addf_def, Ideal.hostUnary_exp_def, Ideal.hostNegf_def, Ideal.negf_def,
    Ideal.ofBits_def, one_word, Ideal.logistic]

/-! ## The index maps of the stages, at an index given by its coordinates -/

theorem lidx58 (n : Fin 200000) (j k : Fin 128) : lidx_main_v58 (ix2 n j) k = ix2 n k := funext fun a => by match a with | ⟨0, _⟩ => rfl | ⟨1, _⟩ => rfl
theorem ridx58 (n : Fin 200000) (j k : Fin 128) : ridx_main_v58 (ix2 n j) k = ix2 k j := funext fun a => by match a with | ⟨0, _⟩ => rfl | ⟨1, _⟩ => rfl
theorem lidx61 (n : Fin 200000) (c : Fin 384) (k : Fin 128) : lidx_main_v61 (ix2 n c) k = ix2 n k := funext fun a => by match a with | ⟨0, _⟩ => rfl | ⟨1, _⟩ => rfl
theorem ridx61 (n : Fin 200000) (c : Fin 384) (k : Fin 128) : ridx_main_v61 (ix2 n c) k = ix2 k c := funext fun a => by match a with | ⟨0, _⟩ => rfl | ⟨1, _⟩ => rfl
theorem lidx66 (n : Fin 200000) (c : Fin 384) (k : Fin 128) : lidx_main_v66 (ix2 n c) k = ix2 n k := funext fun a => by match a with | ⟨0, _⟩ => rfl | ⟨1, _⟩ => rfl
theorem ridx66 (n : Fin 200000) (c : Fin 384) (k : Fin 128) : ridx_main_v66 (ix2 n c) k = ix2 k c := funext fun a => by match a with | ⟨0, _⟩ => rfl | ⟨1, _⟩ => rfl
theorem bias63 (n : Fin 200000) (c : Fin 384) : idx_main_v62 (idx_main_v63 (ix2 n c)) = ix1 c :=
  funext fun a => by match a with | ⟨0, _⟩ => rfl
theorem bias68 (n : Fin 200000) (c : Fin 384) : idx_main_v67 (idx_main_v68 (ix2 n c)) = ix1 c :=
  funext fun a => by match a with | ⟨0, _⟩ => rfl
theorem slice70 (n : Fin 200000) (d : Fin 128) : idx_main_v70 (ix2 n d) = ix2 n (Cert.RowSpec.col 0 (by omega) d) :=
  funext fun a => by
    match a with
    | ⟨0, _⟩ => rfl
    | ⟨1, _⟩ => exact Fin.ext (by show d.val = 128 * 0 + d.val; omega)
theorem slice71 (n : Fin 200000) (d : Fin 128) : idx_main_v71 (ix2 n d) = ix2 n (Cert.RowSpec.col 1 (by omega) d) :=
  funext fun a => by
    match a with
    | ⟨0, _⟩ => rfl
    | ⟨1, _⟩ => exact Fin.ext (by show 128 + d.val = 128 * 1 + d.val; omega)
theorem slice72 (n : Fin 200000) (d : Fin 128) : idx_main_v72 (ix2 n d) = ix2 n (Cert.RowSpec.col 2 (by omega) d) :=
  funext fun a => by
    match a with
    | ⟨0, _⟩ => rfl
    | ⟨1, _⟩ => exact Fin.ext (by show 256 + d.val = 128 * 2 + d.val; omega)
theorem slice73 (n : Fin 200000) (d : Fin 128) : idx_main_v73 (ix2 n d) = ix2 n (Cert.RowSpec.col 0 (by omega) d) :=
  funext fun a => by
    match a with
    | ⟨0, _⟩ => rfl
    | ⟨1, _⟩ => exact Fin.ext (by show d.val = 128 * 0 + d.val; omega)
theorem slice74 (n : Fin 200000) (d : Fin 128) : idx_main_v74 (ix2 n d) = ix2 n (Cert.RowSpec.col 1 (by omega) d) :=
  funext fun a => by
    match a with
    | ⟨0, _⟩ => rfl
    | ⟨1, _⟩ => exact Fin.ext (by show 128 + d.val = 128 * 1 + d.val; omega)
theorem slice75 (n : Fin 200000) (d : Fin 128) : idx_main_v75 (ix2 n d) = ix2 n (Cert.RowSpec.col 2 (by omega) d) :=
  funext fun a => by
    match a with
    | ⟨0, _⟩ => rfl
    | ⟨1, _⟩ => exact Fin.ext (by show 256 + d.val = 128 * 2 + d.val; omega)
theorem lidx99 (n : Fin 200000) (k : Fin 128) : lidx_main_v99 (idx_main_v100 (ix1 n)) k = ix2 n k :=
  funext fun a => by
    match a with
    | ⟨0, _⟩ => exact Fin.ext (by show n.val / 1 = n.val; omega)
    | ⟨1, _⟩ => rfl
theorem ridx99 (n : Fin 200000) (k : Fin 128) : idx_main_v98 (ridx_main_v99 (idx_main_v100 (ix1 n)) k) = ix2 0 k := funext fun a => by match a with | ⟨0, _⟩ => rfl | ⟨1, _⟩ => rfl

section
variable (x0 : (⟨S200000x128, .f32⟩ : BufTy).Contents (Elt Ideal)) (x1 : (⟨S67x128, .f32⟩ : BufTy).Contents (Elt Ideal)) (x2 : (⟨S64x128, .f32⟩ : BufTy).Contents (Elt Ideal)) (x3 : (⟨S64x128, .f32⟩ : BufTy).Contents (Elt Ideal)) (x4 : (⟨S64x128, .f32⟩ : BufTy).Contents (Elt Ideal)) (x5 : (⟨S64, .f32⟩ : BufTy).Contents (Elt Ideal)) (x6 : (⟨S1x64, .f32⟩ : BufTy).Contents (Elt Ideal)) (x7 : (⟨S1, .f32⟩ : BufTy).Contents (Elt Ideal)) (x8 : (⟨S128x128, .f32⟩ : BufTy).Contents (Elt Ideal)) (x9 : (⟨S384x128, .f32⟩ : BufTy).Contents (Elt Ideal)) (x10 : (⟨S384x128, .f32⟩ : BufTy).Contents (Elt Ideal)) (x11 : (⟨S384, .f32⟩ : BufTy).Contents (Elt Ideal)) (x12 : (⟨S384, .f32⟩ : BufTy).Contents (Elt Ideal)) (x13 : (⟨S1x128, .f32⟩ : BufTy).Contents (Elt Ideal)) (x14 : (⟨S200000x128, .f32⟩ : BufTy).Contents (Elt Ideal)) (x15 : (⟨S500000, .i32⟩ : BufTy).Contents (Elt Ideal)) (x16 : (⟨S500000, .i32⟩ : BufTy).Contents (Elt Ideal)) (x17 : (⟨S500000, .i32⟩ : BufTy).Contents (Elt Ideal)) (x18 : (⟨S500000, .i32⟩ : BufTy).Contents (Elt Ideal)) (x19 : (⟨S256, .i32⟩ : BufTy).Contents (Elt Ideal))

/-! ## The stages, one named quantity at a time -/

/-- The rectified projection of node n's aggregated row. -/
theorem hnew_at (n : Fin 200000) (j : Fin 128) :
    val_main_v59 (F := Ideal) x0 x1 x2 x3 x4 x5 x6 x7 x8 x15 x16 x17 x18 x19 (ix2 n j) = Cert.RowSpec.hnew (fun k => val_main_v56 (F := Ideal) x0 x1 x2 x3 x4 x5 x6 x7 x15 x16 x17 x18 x19 (ix2 n k)) (val_main_v57 (F := Ideal) x8) j := by
  rw [val_main_v59_apply, val_main_v58_apply, val_main_call1_v0_apply, val_main_call1_cst_apply]
  simp only [lidx58, ridx58, Ideal.maximumf_def, Ideal.ofBits_def, Cert.RowSpec.hnew]

/-- Gate column c on the input side. -/
theorem gi_at (n : Fin 200000) (c : Fin 384) :
    val_main_v64 (F := Ideal) x0 x1 x2 x3 x4 x5 x6 x7 x8 x9 x11 x15 x16 x17 x18 x19 (ix2 n c) = Cert.RowSpec.gi (fun k => val_main_v56 (F := Ideal) x0 x1 x2 x3 x4 x5 x6 x7 x15 x16 x17 x18 x19 (ix2 n k)) (val_main_v57 (F := Ideal) x8) (val_main_v60 (F := Ideal) x9) (fun c => x11 (ix1 c)) c := by
  rw [val_main_v64_apply, val_main_v61_apply, val_main_v63_apply, val_main_v62_apply, bias63]
  simp only [lidx61, ridx61, hnew_at, Ideal.addf_def, Cert.RowSpec.gi]

/-- Gate column c on the state side. -/
theorem gh_at (n : Fin 200000) (c : Fin 384) :
    val_main_v69 (F := Ideal) x10 x12 x14 (ix2 n c) = Cert.RowSpec.gh (fun k => x14 (ix2 n k)) (val_main_v65 (F := Ideal) x10) (fun c => x12 (ix1 c)) c := by
  rw [val_main_v69_apply, val_main_v66_apply, val_main_v68_apply, val_main_v67_apply, bias68]
  simp only [lidx66, ridx66, Ideal.addf_def, Cert.RowSpec.gh]

/-- The reset gate. -/
theorem r_at (n : Fin 200000) (d : Fin 128) :
    val_main_v82 (F := Ideal) x0 x1 x2 x3 x4 x5 x6 x7 x8 x9 x10 x11 x12 x14 x15 x16 x17 x18 x19 (ix2 n d) = Ideal.logistic (Cert.RowSpec.gi (fun k => val_main_v56 (F := Ideal) x0 x1 x2 x3 x4 x5 x6 x7 x15 x16 x17 x18 x19 (ix2 n k)) (val_main_v57 (F := Ideal) x8) (val_main_v60 (F := Ideal) x9) (fun c => x11 (ix1 c)) (Cert.RowSpec.col 0 (by omega) d) + Cert.RowSpec.gh (fun k => x14 (ix2 n k)) (val_main_v65 (F := Ideal) x10) (fun c => x12 (ix1 c)) (Cert.RowSpec.col 0 (by omega) d)) := by
  rw [val_main_v82_apply, val_main_v81_apply, val_main_cst_10_apply, val_main_v80_apply, val_main_v79_apply,
    val_main_cst_9_apply, val_main_v78_apply, val_main_v77_apply, logistic_words, val_main_v76_apply,
    val_main_v70_apply, val_main_v73_apply, slice70, slice73, gi_at, gh_at, Ideal.addf_def]

/-- The update gate. -/
theorem z_at (n : Fin 200000) (d : Fin 128) :
    val_main_v89 (F := Ideal) x0 x1 x2 x3 x4 x5 x6 x7 x8 x9 x10 x11 x12 x14 x15 x16 x17 x18 x19 (ix2 n d) = Ideal.logistic (Cert.RowSpec.gi (fun k => val_main_v56 (F := Ideal) x0 x1 x2 x3 x4 x5 x6 x7 x15 x16 x17 x18 x19 (ix2 n k)) (val_main_v57 (F := Ideal) x8) (val_main_v60 (F := Ideal) x9) (fun c => x11 (ix1 c)) (Cert.RowSpec.col 1 (by omega) d) + Cert.RowSpec.gh (fun k => x14 (ix2 n k)) (val_main_v65 (F := Ideal) x10) (fun c => x12 (ix1 c)) (Cert.RowSpec.col 1 (by omega) d)) := by
  rw [val_main_v89_apply, val_main_v88_apply, val_main_cst_12_apply, val_main_v87_apply, val_main_v86_apply,
    val_main_cst_11_apply, val_main_v85_apply, val_main_v84_apply, logistic_words, val_main_v83_apply,
    val_main_v71_apply, val_main_v74_apply, slice71, slice74, gi_at, gh_at, Ideal.addf_def]

/-- The candidate state. -/
theorem cand_at (n : Fin 200000) (d : Fin 128) :
    val_main_v92 (F := Ideal) x0 x1 x2 x3 x4 x5 x6 x7 x8 x9 x10 x11 x12 x14 x15 x16 x17 x18 x19 (ix2 n d)
      = Ideal.tanh (Cert.RowSpec.gi (fun k => val_main_v56 (F := Ideal) x0 x1 x2 x3 x4 x5 x6 x7 x15 x16 x17 x18 x19 (ix2 n k)) (val_main_v57 (F := Ideal) x8) (val_main_v60 (F := Ideal) x9) (fun c => x11 (ix1 c)) (Cert.RowSpec.col 2 (by omega) d) + Ideal.logistic (Cert.RowSpec.gi (fun k => val_main_v56 (F := Ideal) x0 x1 x2 x3 x4 x5 x6 x7 x15 x16 x17 x18 x19 (ix2 n k)) (val_main_v57 (F := Ideal) x8) (val_main_v60 (F := Ideal) x9) (fun c => x11 (ix1 c)) (Cert.RowSpec.col 0 (by omega) d) + Cert.RowSpec.gh (fun k => x14 (ix2 n k)) (val_main_v65 (F := Ideal) x10) (fun c => x12 (ix1 c)) (Cert.RowSpec.col 0 (by omega) d)) * Cert.RowSpec.gh (fun k => x14 (ix2 n k)) (val_main_v65 (F := Ideal) x10) (fun c => x12 (ix1 c)) (Cert.RowSpec.col 2 (by omega) d)) := by
  rw [val_main_v92_apply, val_main_v91_apply, val_main_v90_apply, r_at, val_main_v72_apply, val_main_v75_apply,
    slice72, slice75, gi_at, gh_at, Ideal.hostUnary_tanh_def, Ideal.addf_def, Ideal.mulf_def]

/-- Component d of node n's updated state; the one in "one minus z" stays the printed word. -/
theorem hout_at (n : Fin 200000) (d : Fin 128) :
    val_main_v97 (F := Ideal) x0 x1 x2 x3 x4 x5 x6 x7 x8 x9 x10 x11 x12 x14 x15 x16 x17 x18 x19 (ix2 n d)
      = Cert.RowSpec.hout (fun k => val_main_v56 (F := Ideal) x0 x1 x2 x3 x4 x5 x6 x7 x15 x16 x17 x18 x19 (ix2 n k)) (fun k => x14 (ix2 n k)) (val_main_v57 (F := Ideal) x8) (val_main_v60 (F := Ideal) x9) (val_main_v65 (F := Ideal) x10) (fun c => x11 (ix1 c)) (fun c => x12 (ix1 c)) d := by
  rw [val_main_v97_apply, val_main_v95_apply, val_main_v94_apply, val_main_v93_apply, val_main_cst_13_apply,
    val_main_v96_apply, cand_at, z_at]
  simp only [Ideal.addf_def, Ideal.mulf_def, Ideal.subf_def, Ideal.ofBits_def, Cert.RowSpec.hout]

/-- Node n's score. -/
theorem score_at (n : Fin 200000) :
    val_main_v100 (F := Ideal) x0 x1 x2 x3 x4 x5 x6 x7 x8 x9 x10 x11 x12 x13 x14 x15 x16 x17 x18 x19 (ix1 n)
      = Cert.Rows.scoreAt (val_main_v56 (F := Ideal) x0 x1 x2 x3 x4 x5 x6 x7 x15 x16 x17 x18 x19) x14 (val_main_v57 (F := Ideal) x8) (val_main_v60 (F := Ideal) x9) (val_main_v65 (F := Ideal) x10) x11 x12 x13 n := by
  rw [val_main_v100_apply, val_main_v99_apply]
  simp only [lidx99, hout_at, val_main_v98_apply, ridx99, Cert.Rows.scoreAt, Cert.RowSpec.score]

end

theorem score_eq (x0 : (⟨S200000x128, .f32⟩ : BufTy).Contents (Elt Ideal)) (x1 : (⟨S67x128, .f32⟩ : BufTy).Contents (Elt Ideal)) (x2 x3 x4 : (⟨S64x128, .f32⟩ : BufTy).Contents (Elt Ideal)) (x5 : (⟨S64, .f32⟩ : BufTy).Contents (Elt Ideal)) (x6 : (⟨S1x64, .f32⟩ : BufTy).Contents (Elt Ideal)) (x7 : (⟨S1, .f32⟩ : BufTy).Contents (Elt Ideal))
    (x8 : (⟨S128x128, .f32⟩ : BufTy).Contents (Elt Ideal)) (x9 x10 : (⟨S384x128, .f32⟩ : BufTy).Contents (Elt Ideal))
    (x11 x12 : (⟨S384, .f32⟩ : BufTy).Contents (Elt Ideal)) (x13 : (⟨S1x128, .f32⟩ : BufTy).Contents (Elt Ideal))
    (x14 : (⟨S200000x128, .f32⟩ : BufTy).Contents (Elt Ideal))
    (x15 x16 x17 x18 : (⟨S500000, .i32⟩ : BufTy).Contents (Elt Ideal)) (x19 : (⟨S256, .i32⟩ : BufTy).Contents (Elt Ideal)) :
    val_main_v100 (F := Ideal) x0 x1 x2 x3 x4 x5 x6 x7 x8 x9 x10 x11 x12 x13 x14 x15 x16 x17 x18 x19
      = Cert.Rows.scoreArr (val_main_v56 (F := Ideal) x0 x1 x2 x3 x4 x5 x6 x7 x15 x16 x17 x18 x19) x14
          (val_main_v57 (F := Ideal) x8) (val_main_v60 (F := Ideal) x9) (val_main_v65 (F := Ideal) x10) x11 x12 x13 := by
  funext i
  obtain ⟨n, rfl⟩ : ∃ n : Fin 200000, i = ix1 n := ⟨i 0, eq_ix1 i⟩
  exact score_at x0 x1 x2 x3 x4 x5 x6 x7 x8 x9 x10 x11 x12 x13 x14 x15 x16 x17 x18 x19 n

end Cert.ReferenceIdeal.RefNode

end
-- ==== Proof.PreDecode.lean ====
/-
  From the precondition: each of the four gather index arrays holds row numbers of the table it indexes.
-/
import proofs.«404059_j34840774705590_3_alg».proof.Pre_finite_inputs
import proofs.«404059_j34840774705590_3_alg».proof.Proof.Gen.Pre_finite_inputs
import proofs.«404059_j34840774705590_3_alg».proof.Proof.Rows
import Idealize.ShloMosaic.Lib.ReduceAll
import Idealize.ShloMosaic.Lib.StableHlo.Predicate

noncomputable section

namespace Cert.PreDecode

open Idealize.ShloMosaic Cert.Pre_finite_inputs

/-- A one-bit conjunction read at an index is 1 only when both of its operands are 1 there. -/
theorem and_at {s : Shape} (x y : IVec s 1) (i : s.Idx) (e : andi x y i = 1#1) : x i = 1#1 ∧ y i = 1#1 :=
  IntOp.andi_eq_one.1 e

/-- A word that passes the signed tests 0 ≤ w and w < N, for N below 2³¹, is a row number of an N-row table: the
    first test is 0 ≤ w's signed value, and since N's word has signed value N the second is w's signed value < N. -/
theorem inRange_of_tests (N : Nat) (hN : N < 2 ^ 31) (w : BitVec 32)
    (h0 : IntOp.cmpi .sge w 0#32 = 1#1) (h1 : IntOp.cmpi .slt w (BitVec.ofNat 32 N) = 1#1) :
    Cert.Rows.InRange N w := by
  unfold IntOp.cmpi at h0 h1
  rw [StableHlo.Predicate.ofBool_eq_one_iff] at h0 h1
  simp only [BitVec.sle, BitVec.slt, decide_eq_true_eq, BitVec.toInt_zero,
    StableHlo.Predicate.toInt_ofNat_small N hN] at h0 h1
  exact ⟨h0, h1⟩

/-- One range conjunct of the precondition read back: if the conjunction over all positions of "0 ≤ a[i] and
    a[i] < N" (both signed, the bounds broadcast from scalars) is 1, then every a[i] is a row number of an N-row
    table. A conjunction over all positions that is 1 has a 1 at every position; there the two tests are the word
    tests above, the broadcast bounds reading their scalar. -/
theorem all_inRange {s : Shape} {axes : List (Fin s.rank)} (N : Nat) (hN : N < 2 ^ 31) (a : IVec s 32)
    (hb : S_.BroadcastsInDim s (![] : Fin 0 → Fin s.rank)) (hr : s.ReducesTo axes S_) (hu : 0 < S_.numel) (j : S_.Idx)
    (e : Host.reduce IntOp.andi
        (andi (cmpi .sge a (broadcastInDim s ![] hb (constantI S_ 32 0#32)))
          (cmpi .slt a (broadcastInDim s ![] hb (constantI S_ 32 (BitVec.ofNat 32 N)))))
        (constantI S_ 1 1#1) hr hu j = 1#1) :
    ∀ i, Cert.Rows.InRange N (a i) := by
  intro i
  haveI : Subsingleton S_.Idx := ⟨fun p q => funext fun d => d.elim0⟩
  obtain ⟨h0, h1⟩ := and_at _ _ i (Host.reduce_andi_all _ _ hr hu j e i)
  exact inRange_of_tests N hN (a i) h0 h1

theorem ranges {F : FTy → Type} [FloatOps F] [Cert.Pre_finite_inputs.Facts]
    (a0 : FVec F S200000x128 .f32) (a1 : FVec F S67x128 .f32) (a2 a3 a4 : FVec F S64x128 .f32) (a5 : FVec F S64 .f32)
    (a6 : FVec F S1x64 .f32) (a7 : FVec F S1 .f32) (a8 : FVec F S128x128 .f32) (a9 a10 : FVec F S384x128 .f32)
    (a11 a12 : FVec F S384 .f32) (a13 : FVec F S1x128 .f32) (a14 : FVec F S200000x128 .f32)
    (a15 a16 a17 a18 : IVec S500000 32) (a19 : IVec S256 32)
    (h : fn (F := F) a0 a1 a2 a3 a4 a5 a6 a7 a8 a9 a10 a11 a12 a13 a14 a15 a16 a17 a18 a19 = fun _ => 1#1) :
    (∀ i, Cert.Rows.InRange 200000 (a15 i)) ∧ (∀ i, Cert.Rows.InRange 67 (a16 i))
      ∧ (∀ i, Cert.Rows.InRange 256 (a18 i)) ∧ (∀ i, Cert.Rows.InRange 67 (a19 i)) := by
  -- The precondition is a chain of conjunctions whose last four members are the range tests of the four index
  -- arrays, in the order sub, rel, batch, q_rel; peel them off the right end one at a time, leaving the
  -- finiteness members unopened, and read each one back.
  have e := congrFun h ValueIdx.ix0
  dsimp only [fn, fn_part1, fn_part2, fn_part3, fn_part4, fn_part5] at e
  obtain ⟨e3, h19⟩ := and_at _ _ _ e
  obtain ⟨e2, h18⟩ := and_at _ _ _ e3
  obtain ⟨e1, h16⟩ := and_at _ _ _ e2
  obtain ⟨-, h15⟩ := and_at _ _ _ e1
  exact ⟨all_inRange 200000 (by norm_num) a15 _ _ _ _ h15, all_inRange 67 (by norm_num) a16 _ _ _ _ h16,
    all_inRange 256 (by norm_num) a18 _ _ _ _ h18, all_inRange 67 (by norm_num) a19 _ _ _ _ h19⟩

end Cert.PreDecode

end
-- ==== Proof.lean ====
/-
  Equivalence, over the extended reals, of a two-launch graph-network kernel and its reference, for index arrays that
  hold row numbers of the tables they index.

  Both programs compute, per edge e, the message  alpha_e · (hidden[sub e] + rel_emb[rel e])  with the gate
  alpha_e = logistic (w_alpha · relu (Ws hidden[sub e] + Wr rel_emb[rel e] + Wqr rel_emb[q_rel[batch e]] + b_qr) + b_alpha),
  add the messages of the edges that point at each node, and score each node by one step of a gated recurrent cell on
  the rectified projection of its aggregated messages, against the final weight row. The kernel gathers the tables with
  a fill value outside the table where the reference clamps: inside the table the two readings agree, which is what the
  precondition's range conjuncts give. The kernel projects the 256 query rows before gathering them per edge and the
  reference after: the same sum. The kernel works on row blocks, pads the nodes to a whole number of blocks and packs
  its scores 128 to a row; the reference works on whole arrays: the same rows. The scatter-add is the same function of
  the same messages on both sides and is never opened.
-/
import proofs.«404059_j34840774705590_3_alg».proof.Defs
import proofs.«404059_j34840774705590_3_alg».proof.Proof.Gen.Kernel
import proofs.«404059_j34840774705590_3_alg».proof.Proof.Gen.Kernel.Skeleton
import proofs.«404059_j34840774705590_3_alg».proof.Proof.Gen.Kernel.Launch
import proofs.«404059_j34840774705590_3_alg».proof.Proof.Gen.Kernel.Points
import proofs.«404059_j34840774705590_3_alg».proof.Proof.Gen.Kernel.Frame
import proofs.«404059_j34840774705590_3_alg».proof.Proof.Gen.KernelIdeal
import proofs.«404059_j34840774705590_3_alg».proof.Proof.Gen.KernelIdeal.Skeleton
import proofs.«404059_j34840774705590_3_alg».proof.Proof.Gen.KernelIdeal.Launch
import proofs.«404059_j34840774705590_3_alg».proof.Proof.Gen.KernelIdeal.Points
import proofs.«404059_j34840774705590_3_alg».proof.Proof.Gen.KernelIdeal.Frame
import proofs.«404059_j34840774705590_3_alg».proof.Proof.Gen.ReferenceIdeal
import proofs.«404059_j34840774705590_3_alg».proof.Proof.Gen.ReferenceIdeal.Run
import proofs.«404059_j34840774705590_3_alg».proof.Proof.Gen.ReferenceIdeal.Read
import proofs.«404059_j34840774705590_3_alg».proof.Proof.Gen.Pre_finite_inputs
import proofs.«404059_j34840774705590_3_alg».proof.Proof.KerRun
import proofs.«404059_j34840774705590_3_alg».proof.Proof.KerValue
import proofs.«404059_j34840774705590_3_alg».proof.Proof.RefEdge
import proofs.«404059_j34840774705590_3_alg».proof.Proof.RefNode
import proofs.«404059_j34840774705590_3_alg».proof.Proof.PreDecode
import Idealize.ShloMosaic.Adequacy
import Idealize.ShloMosaic.Init

noncomputable section

namespace Cert.Proof

open Idealize.ShloMosaic Idealize.ShloMosaic.TcCoe Idealize.SL.Sem

/-! ## The three runs -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-! ## The two results are one function of the arguments -/

section Bridge

open Cert.KernelIdeal.Args Cert.KernelIdeal.Result Cert.Rows

variable (m : (ℓ : Loc Cert.KernelIdeal.nD Cert.KernelIdeal.τ Cert.KernelIdeal.sig) → Buf (Elt Ideal) ℓ)
  (c : Dev Cert.KernelIdeal.nD)

/-- The score array of the kernel program's arguments: what both programs return. -/
abbrev scoresOfArgs : (⟨1, ![200000]⟩ : Shape).Idx → EReal :=
  scoreArr (aggOfArgs m c) (a14 m c)
    (transpose Cert.KernelIdeal.S128x128 [1, 0] (a8 m c) Cert.KernelIdeal.Gen.transposes_S128x128_S128x128_1_0)
    (transpose Cert.KernelIdeal.S128x384 [1, 0] (a9 m c) Cert.KernelIdeal.Gen.transposes_S384x128_S128x384_1_0)
    (transpose Cert.KernelIdeal.S128x384 [1, 0] (a10 m c) Cert.KernelIdeal.Gen.transposes_S384x128_S128x384_1_0)
    (a11 m c) (a12 m c) (a13 m c)

/-- The two programs' scatter-add dimension numbers are the same record. -/
theorem scatterDims_eq : Cert.ReferenceIdeal.scatter_S200000x128_S500000x1_S500000x128_1_0_0_1
    = Cert.KernelIdeal.scatter_S200000x128_S500000x1_S500000x128_1_0_0_1 := rfl

open Cert.ReferenceIdeal.Read in
/-- The reference's aggregated messages, at the kernel program's arguments, are the scatter-added message array. -/
theorem refAgg_eq :
    val_main_v56 (F := Ideal) (a0 m c) (a1 m c) (a2 m c) (a3 m c) (a4 m c) (a5 m c) (a6 m c) (a7 m c)
        (a15 m c) (a16 m c) (a17 m c) (a18 m c) (a19 m c) = aggOfArgs m c := by
  unfold val_main_v56
  rw [Cert.ReferenceIdeal.RefEdge.msg_eq, scatterDims_eq]
  rfl

open Cert.ReferenceIdeal.Read in
/-- The reference's final stage, at the kernel program's arguments, is the score array. -/
theorem refScores_eq :
    val_main_v100 (F := Ideal) (a0 m c) (a1 m c) (a2 m c) (a3 m c) (a4 m c) (a5 m c) (a6 m c) (a7 m c) (a8 m c) (a9 m c)
        (a10 m c) (a11 m c) (a12 m c) (a13 m c) (a14 m c) (a15 m c) (a16 m c) (a17 m c) (a18 m c) (a19 m c)
      = scoresOfArgs m c := by
  rw [Cert.ReferenceIdeal.RefNode.score_eq, refAgg_eq]
  rfl

end Bridge

/-! ## The claims -/

/-- From memories agreeing on the arguments both programs end with the score array of those arguments. -/
theorem algebraic : Cert.algebraic_KernelIdeal_ReferenceIdeal := by
  intro m ρ m' ρ' hpre hagree
  have hr := fun c : Dev Cert.KernelIdeal.nD => Cert.PreDecode.ranges (F := Ideal) _ _ _ _ _ _ _ _ _ _ _ _ _ _ _ _ _ _ _ _ (hpre c)
  refine ⟨fun c => scoresOfArgs m c, ?_, ?_⟩
  · exact (θ_run Cert.KernelIdeal.defs _ _).mono
      (fun r h c => ⟨(h c).1.trans (Cert.KernelIdeal.Result.result_eq m ρ c (hr c).1 (hr c).2.1 (hr c).2.2.1 (hr c).2.2.2), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v100_eq]
    obtain ⟨h0, h1, h2, h3, h4, h5, h6, h7, h8, h9, h10, h11, h12, h13, h14, h15, h16, h17, h18, h19⟩ := hagree c
    rw [h0, h1, h2, h3, h4, h5, h6, h7, h8, h9, h10, h11, h12, h13, h14, h15, h16, h17, h18, h19]
    exact refScores_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
